-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x19x512x1024 : Shape := ⟨4, ![8, 19, 512, 1024]⟩
abbrev S8x512x1024 : Shape := ⟨3, ![8, 512, 1024]⟩
abbrev S_ : Shape := ⟨0, ![]⟩

class Facts : Prop where
  bcast_S_S8x19x512x1024 : S_.BroadcastsInDim S8x19x512x1024 (![] : Fin 0 → Fin S8x19x512x1024.rank)
  reducesTo_S8x19x512x1024_S_d0_1_2_3 : S8x19x512x1024.ReducesTo [0, 1, 2, 3] S_
  h_S_ : 0 < S_.numel
  bcast_S_S8x512x1024 : S_.BroadcastsInDim S8x512x1024 (![] : Fin 0 → Fin S8x512x1024.rank)
  reducesTo_S8x512x1024_S_d0_1_2 : S8x512x1024.ReducesTo [0, 1, 2] S_

variable [Facts]

def fn {F : FTy → Type} [FloatOps F] (main_arg0 : FVec F S8x19x512x1024 .f32) (main_arg1 : IVec S8x512x1024 32) : IVec S_ 1 :=
  let main_v0 : FVec F S8x19x512x1024 .f32 := Host.absf main_arg0
  let main_cst : FVec F S_ .f32 := constant S_ .f32 0x7F800000#32
  let main_v1 : FVec F S8x19x512x1024 .f32 := broadcastInDim S8x19x512x1024 ![] bcast_S_S8x19x512x1024 main_cst
  let main_v2 : IVec S8x19x512x1024 1 := cmpf .olt main_v0 main_v1
  let main_c : IVec S_ 1 := constantI S_ 1 1#1
  let main_v3 : IVec S_ 1 := (fun x v => Host.reduce IntOp.andi x v reducesTo_S8x19x512x1024_S_d0_1_2_3 h_S_) main_v2 main_c
  let main_c_0 : IVec S_ 32 := constantI S_ 32 4294967295#32
  let main_v4 : IVec S8x512x1024 32 := broadcastInDim S8x512x1024 ![] bcast_S_S8x512x1024 main_c_0
  let main_v5 : IVec S8x512x1024 1 := cmpi .sge main_arg1 main_v4
  let main_c_1 : IVec S_ 1 := constantI S_ 1 1#1
  let main_v6 : IVec S_ 1 := (fun x v => Host.reduce IntOp.andi x v reducesTo_S8x512x1024_S_d0_1_2 h_S_) main_v5 main_c_1
  let main_v7 : IVec S_ 1 := andi main_v3 main_v6
  let main_c_2 : IVec S_ 32 := constantI S_ 32 19#32
  let main_v8 : IVec S8x512x1024 32 := broadcastInDim S8x512x1024 ![] bcast_S_S8x512x1024 main_c_2
  let main_v9 : IVec S8x512x1024 1 := cmpi .slt main_arg1 main_v8
  let main_c_3 : IVec S_ 1 := constantI S_ 1 1#1
  let main_v10 : IVec S_ 1 := (fun x v => Host.reduce IntOp.andi x v reducesTo_S8x512x1024_S_d0_1_2 h_S_) main_v9 main_c_3
  let main_v11 : IVec S_ 1 := andi main_v7 main_v10
  main_v11
-- ==== Kernel.lean ====
abbrev S8x19x512x1024 : Shape := ⟨4, ![8, 19, 512, 1024]⟩
abbrev S8x512x1024 : Shape := ⟨3, ![8, 512, 1024]⟩
abbrev S8x8x128 : Shape := ⟨3, ![8, 8, 128]⟩
abbrev S1x19x64x1024 : Shape := ⟨4, ![1, 19, 64, 1024]⟩
abbrev S1x64x1024 : Shape := ⟨3, ![1, 64, 1024]⟩
abbrev S1x8x128 : Shape := ⟨3, ![1, 8, 128]⟩
abbrev S1x1x64x1024 : Shape := ⟨4, ![1, 1, 64, 1024]⟩
abbrev S19 : Shape := ⟨1, ![19]⟩
abbrev S1x19 : Shape := ⟨2, ![1, 19]⟩
abbrev S1x109 : Shape := ⟨2, ![1, 109]⟩
abbrev S1x128 : Shape := ⟨2, ![1, 128]⟩
abbrev S7x128 : Shape := ⟨2, ![7, 128]⟩
abbrev S8x128 : Shape := ⟨2, ![8, 128]⟩
abbrev S8x1x19 : Shape := ⟨3, ![8, 1, 19]⟩
abbrev S8x19 : Shape := ⟨2, ![8, 19]⟩
abbrev S_ : Shape := ⟨0, ![]⟩

abbrev nBuf : Space → Nat
  | .hbm => 36
  | .vmem => 8
  | .smem => 0
  | _ => 0

abbrev bufTy : (tb : Table) → Fin (tcTables nBuf tb) → BufTy
  | .hbm, ⟨0, _⟩ => ⟨S8x19x512x1024, .f32⟩
  | .hbm, ⟨1, _⟩ => ⟨S8x512x1024, .i32⟩
  | .hbm, ⟨2, _⟩ => ⟨S8x8x128, .f32⟩
  | .hbm, ⟨3, _⟩ => ⟨S8x8x128, .f32⟩
  | .hbm, ⟨4, _⟩ => ⟨S8x1x19, .f32⟩
  | .hbm, ⟨5, _⟩ => ⟨S8x19, .f32⟩
  | .hbm, ⟨6, _⟩ => ⟨S8x1x19, .f32⟩
  | .hbm, ⟨7, _⟩ => ⟨S8x19, .f32⟩
  | .hbm, ⟨8, _⟩ => ⟨S_, .f32⟩
  | .hbm, ⟨9, _⟩ => ⟨S19, .f32⟩
  | .hbm, ⟨10, _⟩ => ⟨S_, .f32⟩
  | .hbm, ⟨11, _⟩ => ⟨S19, .f32⟩
  | .hbm, ⟨12, _⟩ => ⟨S_, .f32⟩
  | .hbm, ⟨13, _⟩ => ⟨S19, .f32⟩
  | .hbm, ⟨14, _⟩ => ⟨S19, .f32⟩
  | .hbm, ⟨15, _⟩ => ⟨S_, .f32⟩
  | .hbm, ⟨16, _⟩ => ⟨S19, .f32⟩
  | .hbm, ⟨17, _⟩ => ⟨S19, .f32⟩
  | .hbm, ⟨18, _⟩ => ⟨S_, .f32⟩
  | .hbm, ⟨19, _⟩ => ⟨S19, .f32⟩
  | .hbm, ⟨20, _⟩ => ⟨S19, .f32⟩
  | .hbm, ⟨21, _⟩ => ⟨S_, .f32⟩
  | .hbm, ⟨22, _⟩ => ⟨S19, .f32⟩
  | .hbm, ⟨23, _⟩ => ⟨S19, .i1⟩
  | .hbm, ⟨24, _⟩ => ⟨S_, .f32⟩
  | .hbm, ⟨25, _⟩ => ⟨S_, .f32⟩
  | .hbm, ⟨26, _⟩ => ⟨S19, .f32⟩
  | .hbm, ⟨27, _⟩ => ⟨S19, .f32⟩
  | .hbm, ⟨28, _⟩ => ⟨S19, .f32⟩
  | .hbm, ⟨29, _⟩ => ⟨S_, .f32⟩
  | .hbm, ⟨30, _⟩ => ⟨S_, .f32⟩
  | .hbm, ⟨31, _⟩ => ⟨S19, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1x19x64x1024, .f32⟩
  | .local _ .vmem, ⟨1, _⟩ => ⟨S1x19x64x1024, .f32⟩
  | .local _ .vmem, ⟨2, _⟩ => ⟨S1x64x1024, .i32⟩
  | .local _ .vmem, ⟨3, _⟩ => ⟨S1x64x1024, .i32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S8x19x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_cst_5 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S1x19x64x1024_S1x19x64x1024_0_0_0_0 : ∀ a, (![0, 0, 0, 0] : Fin 4 → Nat) a + S1x19x64x1024.size a ≤ S1x19x64x1024.size a
  h_S1x19x64x1024 : 0 < S1x19x64x1024.numel
  inb_S1x64x1024_S1x64x1024_0_0_0 : ∀ a, (![0, 0, 0] : Fin 3 → Nat) a + S1x64x1024.size a ≤ S1x64x1024.size a
  h_S1x64x1024 : 0 < S1x64x1024.numel
  reduces_S1x19x64x1024_S1x64x1024 : S1x19x64x1024.Reduces [1] S1x64x1024
  shapeCasts_S1x64x1024_S1x1x64x1024 : S1x64x1024.ShapeCasts S1x1x64x1024
  broadcasts_S1x1x64x1024_S1x19x64x1024 : S1x1x64x1024.Broadcasts S1x19x64x1024
  iota_S1x19x64x1024_d1_w32 : S1x19x64x1024.Iotas .tc 32 [1]
  natLt_1_32 : 1 < 32
  shapeCasts_S1x1x64x1024_S1x1x64x1024 : S1x1x64x1024.ShapeCasts S1x1x64x1024
  reduces_S1x19x64x1024_S19 : S1x19x64x1024.Reduces [0, 2, 3] S19
  shapeCasts_S19_S1x19 : S19.ShapeCasts S1x19
  concatenates_S1x19_S1x109_S1x128_d1 : Shape.Concatenates [S1x19, S1x109] S1x128 1
  concatenates_S1x128_S7x128_S8x128_d0 : Shape.Concatenates [S1x128, S7x128] S8x128 0
  shapeCasts_S8x128_S1x8x128 : S8x128.ShapeCasts S1x8x128
  shapeCasts_S1x8x128_S1x8x128 : S1x8x128.ShapeCasts S1x8x128
  slices_S8x8x128_S8x1x19_0_0_0 : S8x8x128.Slices ![0, 0, 0] S8x1x19
  shapeCasts_S8x1x19_S8x19 : S8x1x19.ShapeCasts S8x19
  reducesTo_S8x19_S19_d0 : S8x19.ReducesTo [0] S19
  h_S_ : 0 < S_.numel
  bcast_S_S19 : S_.BroadcastsInDim S19 (![] : Fin 0 → Fin S19.rank)
  reducesTo_S19_S_d0 : S19.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x64x1024.size a ≤ S8x19x512x1024.size a
  hwx0_0 : ∀ i : grid0.Coords, EltTy.bits .f32 = 32 ∨ (Rect.block (s := S8x19x512x1024) S1x19x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S8x512x1024.size a
  hwx0_1 : ∀ i : grid0.Coords, EltTy.bits .i32 = 32 ∨ (Rect.block (s := S8x512x1024) S1x64x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S8x8x128.size a
  hwx0_2 : ∀ i : grid0.Coords, EltTy.bits .f32 = 32 ∨ (Rect.block (s := S8x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S8x8x128.size a
  hwx0_3 : ∀ i : grid0.Coords, EltTy.bits .f32 = 32 ∨ (Rect.block (s := S8x8x128) S1x8x128.size (cc0_transform_3 i) (hinb0_3 i)).WholeWords (EltTy.packing .f32)

variable [Facts₀]

abbrev win0_0 : Pipeline.Window sig grid0 :=
  Pipeline.Window.ofSpec (Memref.whole main_arg0) S1x19x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x19x512x1024 : Shape := ⟨4, ![8, 19, 512, 1024]⟩
abbrev S8x512x1024 : Shape := ⟨3, ![8, 512, 1024]⟩
abbrev S8x524288 : Shape := ⟨2, ![8, 524288]⟩
abbrev S_ : Shape := ⟨0, ![]⟩
abbrev S8 : Shape := ⟨1, ![8]⟩
abbrev S8x1 : Shape := ⟨2, ![8, 1]⟩
abbrev S4194304 : Shape := ⟨1, ![4194304]⟩
abbrev S153 : Shape := ⟨1, ![153]⟩
abbrev S4194304x1 : Shape := ⟨2, ![4194304, 1]⟩
abbrev S152 : Shape := ⟨1, ![152]⟩
abbrev S8x19 : Shape := ⟨2, ![8, 19]⟩
abbrev S19 : Shape := ⟨1, ![19]⟩
abbrev S8x1x512x1024 : Shape := ⟨4, ![8, 1, 512, 1024]⟩
abbrev S8x1x512x1024x1 : Shape := ⟨5, ![8, 1, 512, 1024, 1]⟩
abbrev S1 : Shape := ⟨1, ![1]⟩
abbrev S1x1x1x1x1 : Shape := ⟨5, ![1, 1, 1, 1, 1]⟩
abbrev S8x512x1024x1 : Shape := ⟨4, ![8, 512, 1024, 1]⟩

abbrev nBuf : Space → Nat
  | .hbm => 116
  | .vmem => 0
  | .smem => 0
  | _ => 0

abbrev bufTy : (tb : Table) → Fin (tcTables nBuf tb) → BufTy
  | .hbm, ⟨0, _⟩ => ⟨S8x19x512x1024, .f32⟩
  | .hbm, ⟨1, _⟩ => ⟨S8x512x1024, .i32⟩
  | .hbm, ⟨2, _⟩ => ⟨S8x524288, .i32⟩
  | .hbm, ⟨3, _⟩ => ⟨S_, .i32⟩
  | .hbm, ⟨4, _⟩ => ⟨S8x524288, .i32⟩
  | .hbm, ⟨5, _⟩ => ⟨S8x524288, .i1⟩
  | .hbm, ⟨6, _⟩ => ⟨S_, .i32⟩
  | .hbm, ⟨7, _⟩ => ⟨S8x524288, .i32⟩
  | .hbm, ⟨8, _⟩ => ⟨S8x524288, .i1⟩
  | .hbm, ⟨9, _⟩ => ⟨S8x524288, .i1⟩
  | .hbm, ⟨10, _⟩ => ⟨S8, .i32⟩
  | .hbm, ⟨11, _⟩ => ⟨S8x1, .i32⟩
  | .hbm, ⟨12, _⟩ => ⟨S_, .i32⟩
  | .hbm, ⟨13, _⟩ => ⟨S8x1, .i32⟩
  | .hbm, ⟨14, _⟩ => ⟨S8x1, .i32⟩
  | .hbm, ⟨15, _⟩ => ⟨S8x524288, .i32⟩
  | .hbm, ⟨16, _⟩ => ⟨S8x524288, .i32⟩
  | .hbm, ⟨17, _⟩ => ⟨S_, .i32⟩
  | .hbm, ⟨18, _⟩ => ⟨S_, .i32⟩
  | .hbm, ⟨19, _⟩ => ⟨S8x524288, .i32⟩
  | .hbm, ⟨20, _⟩ => ⟨S8x524288, .i32⟩
  | .hbm, ⟨21, _⟩ => ⟨S_, .f32⟩
  | .hbm, ⟨22, _⟩ => ⟨S4194304, .f32⟩
  | .hbm, ⟨23, _⟩ => ⟨S4194304, .i32⟩
  | .hbm, ⟨24, _⟩ => ⟨S_, .f32⟩
  | .hbm, ⟨25, _⟩ => ⟨S153, .f32⟩
  | .hbm, ⟨26, _⟩ => ⟨S4194304x1, .i32⟩
  | .hbm, ⟨27, _⟩ => ⟨S153, .f32⟩
  | .hbm, ⟨28, _⟩ => ⟨S152, .f32⟩
  | .hbm, ⟨29, _⟩ => ⟨S8x19, .f32⟩
  | .hbm, ⟨30, _⟩ => ⟨S_, .f32⟩
  | .hbm, ⟨31, _⟩ => ⟨S19, .f32⟩
  | .hbm, ⟨32, _⟩ => ⟨S_, .f32⟩
  | .hbm, ⟨33, _⟩ => ⟨S19, .f32⟩
  | .hbm, ⟨34, _⟩ => ⟨S19, .f32⟩
  | .hbm, ⟨35, _⟩ => ⟨S_, .f32⟩
  | .hbm, ⟨36, _⟩ => ⟨S19, .f32⟩
  | .hbm, ⟨37, _⟩ => ⟨S19, .f32⟩
  | .hbm, ⟨38, _⟩ => ⟨S_, .f32⟩
  | .hbm, ⟨39, _⟩ => ⟨S19, .f32⟩
  | .hbm, ⟨40, _⟩ => ⟨S19, .f32⟩
  | .hbm, ⟨41, _⟩ => ⟨S_, .f32⟩
  | .hbm, ⟨42, _⟩ => ⟨S19, .f32⟩
  | .hbm, ⟨43, _⟩ => ⟨S19, .i1⟩
  | .hbm, ⟨44, _⟩ => ⟨S_, .f32⟩
  | .hbm, ⟨45, _⟩ => ⟨S_, .f32⟩
  | .hbm, ⟨46, _⟩ => ⟨S19, .f32⟩
  | .hbm, ⟨47, _⟩ => ⟨S19, .f32⟩
  | .hbm, ⟨48, _⟩ => ⟨S_, .f32⟩
  | .hbm, ⟨49, _⟩ => ⟨S8x512x1024, .f32⟩
  | .hbm, ⟨50, _⟩ => ⟨S_, .f32⟩
  | .hbm, ⟨51, _⟩ => ⟨S8x512x1024, .f32⟩
  | .hbm, ⟨52, _⟩ => ⟨S8x512x1024, .f32⟩
  | .hbm, ⟨53, _⟩ => ⟨S8x1x512x1024, .f32⟩
  | .hbm, ⟨54, _⟩ => ⟨S8x19x512x1024, .f32⟩
  | .hbm, ⟨55, _⟩ => ⟨S8x19x512x1024, .f32⟩
  | .hbm, ⟨56, _⟩ => ⟨S8x19x512x1024, .f32⟩
  | .hbm, ⟨57, _⟩ => ⟨S_, .f32⟩
  | .hbm, ⟨58, _⟩ => ⟨S8x512x1024, .f32⟩
  | .hbm, ⟨59, _⟩ => ⟨S8x1x512x1024, .f32⟩
  | .hbm, ⟨60, _⟩ => ⟨S8x1x512x1024, .f32⟩
  | .hbm, ⟨61, _⟩ => ⟨S8x19x512x1024, .f32⟩
  | .hbm, ⟨62, _⟩ => ⟨S8x19x512x1024, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S8x512x1024, .i32⟩
  | .hbm, ⟨67, _⟩ => ⟨S8x512x1024, .i32⟩
  | .hbm, ⟨68, _⟩ => ⟨S_, .i32⟩
  | .hbm, ⟨69, _⟩ => ⟨S8x512x1024, .i32⟩
  | .hbm, ⟨70, _⟩ => ⟨S8x512x1024, .i32⟩
  | .hbm, ⟨71, _⟩ => ⟨S8x1x512x1024, .i32⟩
  | .hbm, ⟨72, _⟩ => ⟨S_, .i32⟩
  | .hbm, ⟨73, _⟩ => ⟨S8x1x512x1024, .i32⟩
  | .hbm, ⟨74, _⟩ => ⟨S8x1x512x1024, .i1⟩
  | .hbm, ⟨75, _⟩ => ⟨S_, .i32⟩
  | .hbm, ⟨76, _⟩ => ⟨S8x1x512x1024, .i32⟩
  | .hbm, ⟨77, _⟩ => ⟨S8x1x512x1024, .i32⟩
  | .hbm, ⟨78, _⟩ => ⟨S8x1x512x1024, .i32⟩
  | .hbm, ⟨79, _⟩ => ⟨S8x1x512x1024x1, .i32⟩
  | .hbm, ⟨80, _⟩ => ⟨S1, .i32⟩
  | .hbm, ⟨81, _⟩ => ⟨S_, .i32⟩
  | .hbm, ⟨82, _⟩ => ⟨S8x1x512x1024x1, .i32⟩
  | .hbm, ⟨83, _⟩ => ⟨S8x1x512x1024x1, .i1⟩
  | .hbm, ⟨84, _⟩ => ⟨S1x1x1x1x1, .i32⟩
  | .hbm, ⟨85, _⟩ => ⟨S8x1x512x1024x1, .i32⟩
  | .hbm, ⟨86, _⟩ => ⟨S8x1x512x1024x1, .i1⟩
  | .hbm, ⟨87, _⟩ => ⟨S8x1x512x1024x1, .i1⟩
  | .hbm, ⟨88, _⟩ => ⟨S_, .i1⟩
  | .hbm, ⟨89, _⟩ => ⟨S8x1x512x1024, .i1⟩
  | .hbm, ⟨90, _⟩ => ⟨S8x1x512x1024, .f32⟩
  | .hbm, ⟨91, _⟩ => ⟨S_, .f32⟩
  | .hbm, ⟨92, _⟩ => ⟨S8x1x512x1024, .f32⟩
  | .hbm, ⟨93, _⟩ => ⟨S8x1x512x1024, .f32⟩
  | .hbm, ⟨94, _⟩ => ⟨S8x512x1024, .f32⟩
  | .hbm, ⟨95, _⟩ => ⟨S_, .i32⟩
  | .hbm, ⟨96, _⟩ => ⟨S8x512x1024, .i32⟩
  | .hbm, ⟨97, _⟩ => ⟨S8x512x1024, .i1⟩
  | .hbm, ⟨98, _⟩ => ⟨S8x512x1024, .f32⟩
  | .hbm, ⟨99, _⟩ => ⟨S_, .i32⟩
  | .hbm, ⟨100, _⟩ => ⟨S8x512x1024, .i32⟩
  | .hbm, ⟨101, _⟩ => ⟨S8x512x1024, .i1⟩
  | .hbm, ⟨102, _⟩ => ⟨S_, .i32⟩
  | .hbm, ⟨103, _⟩ => ⟨S8x512x1024, .i32⟩
  | .hbm, ⟨104, _⟩ => ⟨S8x512x1024, .i32⟩
  | .hbm, ⟨105, _⟩ => ⟨S8x512x1024, .i32⟩
  | .hbm, ⟨106, _⟩ => ⟨S8x512x1024x1, .i32⟩
  | .hbm, ⟨107, _⟩ => ⟨S8x512x1024, .f32⟩
  | .hbm, ⟨108, _⟩ => ⟨S8x512x1024, .f32⟩
  | .hbm, ⟨109, _⟩ => ⟨S8x512x1024, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | _, _ => ⟨S8x19x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_call1_v0 : Ref sig .tc := ⟨.hbm, 45, rfl⟩
abbrev main_call1_v1 : Ref sig .tc := ⟨.hbm, 46, rfl⟩
abbrev main_v29 : Ref sig .tc := ⟨.hbm, 47, rfl⟩
abbrev main_call2_cst : Ref sig .tc := ⟨.hbm, 48, rfl⟩
abbrev main_call2_v0 : Ref sig .tc := ⟨.hbm, 49, rfl⟩
abbrev main_call2_cst_0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_cst_1 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_v30 : Ref sig .tc := ⟨.hbm, 62, rfl⟩
abbrev main_c_10 : Ref sig .tc := ⟨.hbm, 63, rfl⟩
abbrev main_c_11 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_v31 : Ref sig .tc := ⟨.hbm, 70, rfl⟩
abbrev main_v32 : Ref sig .tc := ⟨.hbm, 71, rfl⟩
abbrev main_call4_c : Ref sig .tc := ⟨.hbm, 72, rfl⟩
abbrev main_call4_v0 : Ref sig .tc := ⟨.hbm, 73, rfl⟩
abbrev main_call4_v1 : Ref sig .tc := ⟨.hbm, 74, rfl⟩
abbrev main_call4_c_0 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_call4_v5 : Ref sig .tc := ⟨.hbm, 79, rfl⟩
abbrev main_call4_c_1 : Ref sig .tc := ⟨.hbm, 80, rfl⟩
abbrev main_call4_c_2 : Ref sig .tc := ⟨.hbm, 81, rfl⟩
abbrev main_call4_v6 : Ref sig .tc := ⟨.hbm, 82, rfl⟩
abbrev main_call4_v7 : Ref sig .tc := ⟨.hbm, 83, rfl⟩
abbrev main_call4_v8 : Ref sig .tc := ⟨.hbm, 84, rfl⟩
abbrev main_call4_v9 : Ref sig .tc := ⟨.hbm, 85, rfl⟩
abbrev main_call4_v10 : Ref sig .tc := ⟨.hbm, 86, rfl⟩
abbrev main_call4_v11 : Ref sig .tc := ⟨.hbm, 87, rfl⟩
abbrev main_call4_c_3 : Ref sig .tc := ⟨.hbm, 88, rfl⟩
abbrev main_call4_v12 : Ref sig .tc := ⟨.hbm, 89, rfl⟩
abbrev main_call4_v13 : Ref sig .tc := ⟨.hbm, 90, rfl⟩
abbrev main_call4_cst : Ref sig .tc := ⟨.hbm, 91, rfl⟩
abbrev main_call4_v14 : Ref sig .tc := ⟨.hbm, 92, rfl⟩
abbrev main_v33 : Ref sig .tc := ⟨.hbm, 93, rfl⟩
abbrev main_v34 : Ref sig .tc := ⟨.hbm, 94, rfl⟩
abbrev main_c_12 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_c_13 : Ref sig .tc := ⟨.hbm, 99, rfl⟩
abbrev main_v38 : Ref sig .tc := ⟨.hbm, 100, rfl⟩
abbrev main_v39 : Ref sig .tc := ⟨.hbm, 101, rfl⟩
abbrev main_c_14 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_cst_15 : Ref sig .tc := ⟨.hbm, 110, rfl⟩
abbrev main_v47 : Ref sig .tc := ⟨.hbm, 111, rfl⟩
abbrev main_v48 : Ref sig .tc := ⟨.hbm, 112, rfl⟩
abbrev main_cst_16 : Ref sig .tc := ⟨.hbm, 113, rfl⟩
abbrev main_v49 : Ref sig .tc := ⟨.hbm, 114, rfl⟩
abbrev main_v50 : Ref sig .tc := ⟨.hbm, 115, rfl⟩

abbrev nD : Nat := 1
abbrev τ : Topo := Topo.v7x

variable {F : FTy → Type} [FloatOps F]

class Facts₀ : Prop where
  shapeCasts_S8x512x1024_S8x524288 : S8x512x1024.ShapeCasts S8x524288
  bcast_S_S8x524288 : S_.BroadcastsInDim S8x524288 (![] : Fin 0 → Fin S8x524288.rank)
  bcast_S8_S8x1_0 : S8.BroadcastsInDim S8x1 (![0] : Fin 1 → Fin S8x1.rank)
  bcast_S_S8x1 : S_.BroadcastsInDim S8x1 (![] : Fin 0 → Fin S8x1.rank)
  bcast_S8x1_S8x524288_0_1 : S8x1.BroadcastsInDim S8x524288 (![0, 1] : Fin 2 → Fin S8x524288.rank)
  bcast_S_S4194304 : S_.BroadcastsInDim S4194304 (![] : Fin 0 → Fin S4194304.rank)
  shapeCasts_S8x524288_S4194304 : S8x524288.ShapeCasts S4194304
  bcast_S_S153 : S_.BroadcastsInDim S153 (![] : Fin 0 → Fin S153.rank)
  bcast_S4194304_S4194304x1_0 : S4194304.BroadcastsInDim S4194304x1 (![0] : Fin 1 → Fin S4194304x1.rank)
  slices_S153_S152_0 : S153.Slices ![0] S152
  shapeCasts_S152_S8x19 : S152.ShapeCasts S8x19
  reducesTo_S8x19_S19_d0 : S8x19.ReducesTo [0] S19
  h_S_ : 0 < S_.numel
  bcast_S_S19 : S_.BroadcastsInDim S19 (![] : Fin 0 → Fin S19.rank)
  reducesTo_S8x19x512x1024_S8x512x1024_d1 : S8x19x512x1024.ReducesTo [1] S8x512x1024
  bcast_S_S8x512x1024 : S_.BroadcastsInDim S8x512x1024 (![] : Fin 0 → Fin S8x512x1024.rank)
  bcast_S8x512x1024_S8x1x512x1024_0_2_3 : S8x512x1024.BroadcastsInDim S8x1x512x1024 (![0, 2, 3] : Fin 3 → Fin S8x1x512x1024.rank)
  bcast_S8x1x512x1024_S8x19x512x1024_0_1_2_3 : S8x1x512x1024.BroadcastsInDim S8x19x512x1024 (![0, 1, 2, 3] : Fin 4 → Fin S8x19x512x1024.rank)
  bcast_S_S8x1x512x1024 : S_.BroadcastsInDim S8x1x512x1024 (![] : Fin 0 → Fin S8x1x512x1024.rank)
  shapeCasts_S8x1x512x1024_S8x1x512x1024x1 : S8x1x512x1024.ShapeCasts S8x1x512x1024x1
  bcast_S_S8x1x512x1024x1 : S_.BroadcastsInDim S8x1x512x1024x1 (![] : Fin 0 → Fin S8x1x512x1024x1.rank)
  bcast_S1_S1x1x1x1x1_4 : S1.BroadcastsInDim S1x1x1x1x1 (![4] : Fin 1 → Fin S1x1x1x1x1.rank)
  bcast_S1x1x1x1x1_S8x1x512x1024x1_0_1_2_3_4 : S1x1x1x1x1.BroadcastsInDim S8x1x512x1024x1 (![0, 1, 2, 3, 4] : Fin 5 → Fin S8x1x512x1024x1.rank)
  reducesTo_S8x1x512x1024x1_S8x1x512x1024_d4 : S8x1x512x1024x1.ReducesTo [4] S8x1x512x1024
  shapeCasts_S8x1x512x1024_S8x512x1024 : S8x1x512x1024.ShapeCasts S8x512x1024
  bcast_S8x512x1024_S8x512x1024x1_0_1_2 : S8x512x1024.BroadcastsInDim S8x512x1024x1 (![0, 1, 2] : Fin 3 → Fin S8x512x1024x1.rank)
  reducesTo_S8x512x1024_S_d0_1_2 : S8x512x1024.ReducesTo [0, 1, 2] S_
  scatter_S153_S4194304x1_S4194304_n_0_0_1_wf : ScatterDims.WF S153 S4194304x1 S4194304 [] [0] [0] 1
  gather_S8x19x512x1024_S8x1x512x1024x1_S8x1x512x1024_n_1_023_023_1_4_1111_wf : GatherDims.WF S8x19x512x1024 S8x1x512x1024x1 S8x1x512x1024 [] [1] [0, 2, 3] [1] [0, 2, 3] 4 ![1, 1, 1, 1]
  gather_S19_S8x512x1024x1_S8x512x1024_n_0_n_n_0_3_1_wf : GatherDims.WF S19 S8x512x1024x1 S8x512x1024 [] [0] [] [0] [] 3 ![1]

variable [Facts₀]

def scatter_S153_S4194304x1_S4194304_n_0_0_1 : ScatterDims S153 S4194304x1 S4194304 where
  updateWindowDims := []
  insertedWindowDims := [0]
  scatterDimsToOperandDims := [0]
  indexVectorDim := 1
  wf := scatter_S153_S4194304x1_S4194304_n_0_0_1_wf
def gather_S8x19x512x1024_S8x1x512x1024x1_S8x1x512x1024_n_1_023_023_1_4_1111 : GatherDims S8x19x512x1024 S8x1x512x1024x1 S8x1x512x1024 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x19x512x1024_S8x1x512x1024x1_S8x1x512x1024_n_1_023_023_1_4_1111_wf
def gather_S19_S8x512x1024x1_S8x512x1024_n_0_n_n_0_3_1 : GatherDims S19 S8x512x1024x1 S8x512x1024 where
  offsetDims := []
  collapsedSliceDims := [0]
  operandBatchingDims := []
  startIndicesBatchingDims := []
  startIndexMap := [0]
  indexVectorDim := 3
  sliceSizes := ![1]
  wf := gather_S19_S8x512x1024x1_S8x512x1024_n_0_n_n_0_3_1_wf

class Facts : Prop extends Facts₀ where

variable [Facts]
-- ==== Proof.Spec.lean ====
/-
  The mathematics both programs compute, stated once over the argument arrays and free of either program.

  Logits `X : [B, 19, R, 1024]` (batch, class, row, column), labels `T : [B, R, 1024]` as 32-bit words; the whole
  arrays have `B = 8`, `R = 512`, one block of the kernel's grid has `B = 1`, `R = 64`.
  At a pixel `(b, y, x)` with label word `t`:
    * `cl t`   the label clipped to the class range `[0, 18]` (read signed), as a class index;
    * `vd t`   the validity weight: `0` for the ignore label `-1`, else `1`;
    * `mx`     the maximum of the 19 logits, `lse` the log of the sum of the shifted exponentials,
      and `lp` the log-probability of the clipped class: `(X[cl t] - mx) - lse`.
  Per batch entry `b` and class `c`: `rowsN b c` the sum over that entry's pixels of class `c` of `lp · vd`,
  `rowsD b c` the sum of `vd` over them. Per class: `Nn c`, `Dn c` their sums over the batch, and `Dr c` the
  histogram the reference builds (pixels whose label, read signed, is exactly `c`).
  A class's weight is `wgt d = k / (1 - β ^ d)` where `d > 0`, else `0` (`k`, `β` the two printed literals).
  The loss is `-(Σ weighted log-probabilities) / (Σ weights)`; `lossK` groups the sums by class first, `lossR`
  weights each pixel.
-/
import Idealize.ShloMosaic.PureOps.Ideal
import Idealize.ShloMosaic.PureOps.Ideal.Laws
import Idealize.ShloMosaic.Lib.ValueIdx
import Idealize.ShloMosaic.Lib.WordArith

noncomputable section

namespace Cert.CBCE

open Idealize.ShloMosaic Idealize.ShloMosaic.ValueIdx

/-- The label word clipped to `[0, 18]`, signed: `min 18 (max 0 t)`. -/
def clw (t : BitVec 32) : BitVec 32 := IntOp.minsi 18#32 (IntOp.maxsi 0#32 t)

/-- The clipped word is a class number. -/
theorem clw_lt (t : BitVec 32) : (clw t).toNat < 19 := by
  unfold clw
  have h := WordArith.two_mul_toNat_maxsi_zero_lt t
  rw [Scalar.maxsi] at h
  rw [WordArith.toNat_minsi_of_lt _ _ (by decide) (by omega)]
  have : (18#32 : BitVec 32).toNat = 18 := by decide
  omega

/-- The clipped label as a class index. -/
def cl (t : BitVec 32) : Fin 19 := ⟨(clw t).toNat, clw_lt t⟩

/-- The validity weight of a label: the ignore label `-1` weighs nothing. -/
def vd (t : BitVec 32) : EReal := if t = 4294967295#32 then 0 else 1

section Pixel

variable {B R : Nat} (X : (⟨4, ![B, 19, R, 1024]⟩ : Shape).Idx → EReal) (T : (⟨3, ![B, R, 1024]⟩ : Shape).Idx → BitVec 32)

/-- The largest of the 19 logits at a pixel. -/
def mx (b : Fin B) (y : Fin R) (x : Fin 1024) : EReal :=
  (Finset.univ : Finset (Fin 19)).fold max ⊥ (fun c => X (ix4 b c y x))

/-- The log of the sum of the shifted exponentials at a pixel. -/
def lse (b : Fin B) (y : Fin R) (x : Fin 1024) : EReal :=
  Ideal.log (∑ c : Fin 19, Ideal.exp (X (ix4 b c y x) - mx X b y x))

/-- The log-probability of the pixel's clipped class. -/
def lp (b : Fin B) (y : Fin R) (x : Fin 1024) : EReal :=
  (X (ix4 b (cl (T (ix3 b y x))) y x) - mx X b y x) - lse X b y x

/-- Batch entry `b`'s sum, over its pixels of class `c`, of the valid log-probabilities. -/
def rowsN (b : Fin B) (c : Fin 19) : EReal :=
  ∑ y : Fin R, ∑ x : Fin 1024, if cl (T (ix3 b y x)) = c then lp X T b y x * vd (T (ix3 b y x)) else 0

/-- Batch entry `b`'s number of valid pixels of class `c`, counted through the clipped label. -/
def rowsD (b : Fin B) (c : Fin 19) : EReal :=
  ∑ y : Fin R, ∑ x : Fin 1024, if cl (T (ix3 b y x)) = c then vd (T (ix3 b y x)) else 0

end Pixel

abbrev SX : Shape := ⟨4, ![8, 19, 512, 1024]⟩
abbrev ST : Shape := ⟨3, ![8, 512, 1024]⟩

variable (X : SX.Idx → EReal) (T : ST.Idx → BitVec 32)

/-- Class `c`'s sum of valid log-probabilities over the whole batch. -/
def Nn (c : Fin 19) : EReal := ∑ b : Fin 8, rowsN X T b c

/-- Class `c`'s number of valid pixels over the whole batch. -/
def Dn (c : Fin 19) : EReal := ∑ b : Fin 8, rowsD T b c

/-- Class `c`'s histogram count: the pixels whose label, read signed, is exactly `c`. -/
def Dr (c : Fin 19) : EReal :=
  ∑ b : Fin 8, ∑ y : Fin 512, ∑ x : Fin 1024, if (T (ix3 b y x)).toInt = (c.val : Int) then 1 else 0

/-- The class-balanced weight of a class with (effective) count `d`. -/
def wgt (d : EReal) : EReal :=
  Scalar.select (Ideal.cmp .ogt d (Ideal.ofBits .f32 0x00000000#32))
    (Ideal.div (Ideal.ofBits .f32 0x3A83126F#32)
      (Ideal.ofBits .f32 0x3F800000#32 - Ideal.pow (Ideal.ofBits .f32 0x3F7FBE77#32) d))
    (Ideal.ofBits .f32 0x00000000#32)

/-- The loss with the sums grouped by class. -/
def lossK : EReal :=
  Ideal.div (-(∑ c : Fin 19, wgt (Dn T c) * Nn X T c)) (∑ c : Fin 19, wgt (Dn T c) * Dn T c)

/-- The loss with each pixel weighted by its class's weight. -/
def lossR : EReal :=
  Ideal.div
    (-(∑ b : Fin 8, ∑ y : Fin 512, ∑ x : Fin 1024,
        (wgt (Dr T (cl (T (ix3 b y x)))) * vd (T (ix3 b y x))) * lp X T b y x))
    (∑ b : Fin 8, ∑ y : Fin 512, ∑ x : Fin 1024, wgt (Dr T (cl (T (ix3 b y x)))) * vd (T (ix3 b y x)))

/-- The label range the claim is stated on: every label, read signed, is the ignore label `-1` or a class `0 … 18`. -/
def InRange : Prop := ∀ (b : Fin 8) (y : Fin 512) (x : Fin 1024), -1 ≤ (T (ix3 b y x)).toInt ∧ (T (ix3 b y x)).toInt < 19

end Cert.CBCE

end
-- ==== Proof.KPay.lean ====
/-
  The kernel body's stored values read at an index, at the ideal instance: the zero tiles of the reset, the per-class
  sums of one 64-row block, and the [1, 8, 128] tile that carries 19 class sums in the first 19 lanes of row 0 and
  zeros elsewhere, added to what the output buffer held.
-/
import proofs.«406133_j55645596287217_3_alg».proof.Proof.Gen.KernelIdeal.Skeleton
import proofs.«406133_j55645596287217_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KV

open Cert.KernelIdeal Cert.KernelIdeal.Gen Cert.CBCE
open Idealize.ShloMosaic Idealize.ShloMosaic.TcCoe Idealize.ShloMosaic.ValueIdx Idealize.SL.Sem
open Idealize.ShloMosaic.Pipeline (Dat)

/-- The reset stores zeros. -/
theorem pay5_apply (j : S1x8x128.Idx) : k0_pay5 (F := Ideal) j = 0 := by
  show Ideal.ofBits .f32 0x00000000#32 = 0
  exact Ideal.ofBits_zero_f32

theorem pay6_apply (j : S1x8x128.Idx) : k0_pay6 (F := Ideal) j = 0 := by
  show Ideal.ofBits .f32 0x00000000#32 = 0
  exact Ideal.ofBits_zero_f32

/-- The word of negative infinity denotes the least extended real. -/
theorem negInf_bits : Ideal.ofBits .f32 0xFF800000#32 = (⊥ : EReal) := by
  simp [Ideal.ofBits, Ideal.ieee]

/-- Broadcasting along the class axis reads the class-free entry. -/
theorem bcast_class {α : Type} (v : S1x1x64x1024.Idx → α) (h : S1x1x64x1024.Broadcasts S1x19x64x1024)
    (c : Fin 19) (y : Fin 64) (x : Fin 1024) :
    broadcastTo S1x19x64x1024 v h (ix4 0 c y x) = v (ix4 0 0 y x) := by
  refine broadcastTo_apply v h _ _ fun a => ?_
  match a with
  | ⟨0, _⟩ => rfl
  | ⟨1, _⟩ => rfl
  | ⟨2, _⟩ => rfl
  | ⟨3, _⟩ => rfl

/-- Adding a unit class axis keeps the pixel. -/
theorem cast_unit {α : Type} (v : S1x64x1024.Idx → α) (h : S1x64x1024.ShapeCasts S1x1x64x1024)
    (y : Fin 64) (x : Fin 1024) :
    shapeCast S1x1x64x1024 v h (ix4 0 0 y x) = v (ix3 0 y x) := by
  refine shapeCast_apply v h _ _ ?_
  rw [Shape.rowMajor_val_three, Shape.rowMajor_val_four]
  rfl

theorem pay7_apply (x1 : Vec Ideal S1x64x1024 .i32) (c : Fin 19) (y : Fin 64) (x : Fin 1024) :
    k0_pay7 (F := Ideal) x1 (ix4 0 c y x) = IntOp.cmpi .eq (BitVec.ofNat 32 c.val) (clw (x1 (ix3 0 y x))) := by
  unfold k0_pay7
  show IntOp.cmpi .eq (iota .tc S1x19x64x1024 32 [1] iota_S1x19x64x1024_d1_w32 (ix4 0 c y x))
      (broadcastTo S1x19x64x1024 (shapeCast S1x1x64x1024 (minsi (broadcast S1x64x1024 18#32) (maxsi (broadcast S1x64x1024 0#32) x1)) shapeCasts_S1x64x1024_S1x1x64x1024) broadcasts_S1x1x64x1024_S1x19x64x1024 (ix4 0 c y x)) = _
  rw [iota_single_apply, bcast_class, cast_unit]
  rfl

/-- The class bit at a pixel is set exactly at the pixel's clipped class. -/
theorem bit_iff (t : BitVec 32) (c : Fin 19) :
    IntOp.cmpi .eq (BitVec.ofNat 32 c.val) (clw t) = 1#1 ↔ cl t = c := by
  have hc := c.isLt
  have ht := clw_lt t
  simp only [IntOp.cmpi, WordArith.ofBool_eq_one_iff, beq_iff_eq]
  constructor
  · intro h
    apply Fin.ext
    show (clw t).toNat = c.val
    rw [← h, BitVec.toNat_ofNat]
    exact Nat.mod_eq_of_lt (by omega)
  · intro h
    apply BitVec.eq_of_toNat_eq
    rw [BitVec.toNat_ofNat, ← h]
    show (clw t).toNat % 2 ^ 32 = _
    exact Nat.mod_eq_of_lt (by omega)

/-- A select on the class bit is the choice on the clipped class. -/
theorem select_bit {α : Type} (t : BitVec 32) (c : Fin 19) (a b : α) :
    Scalar.select (IntOp.cmpi .eq (BitVec.ofNat 32 c.val) (clw t)) a b = if cl t = c then a else b := by
  by_cases h : cl t = c
  · rw [if_pos h, (bit_iff t c).mpr h, select_one]
  · rw [if_neg h, eq_zero_of_ne_one (fun e => h ((bit_iff t c).mp e)), select_zero]

/-- The validity weight as the kernel computes it: the bit "label is not the ignore word", widened and converted. -/
theorem vd_word (t : BitVec 32) :
    FloatOps.sitofp (F := Ideal) .f32 ((IntOp.cmpi .ne t 4294967295#32).setWidth 32) = vd t := by
  show (((((IntOp.cmpi .ne t 4294967295#32).setWidth 32).toInt : ℝ)) : EReal) = vd t
  unfold vd
  by_cases h : t = 4294967295#32
  · rw [if_pos h, h]
    have : ((IntOp.cmpi .ne (4294967295#32 : BitVec 32) 4294967295#32).setWidth 32).toInt = 0 := by decide
    rw [this]; simp
  · rw [if_neg h]
    have hb : IntOp.cmpi .ne t 4294967295#32 = 1#1 := by
      simp only [IntOp.cmpi, WordArith.ofBool_eq_one_iff, bne_iff_ne, ne_eq]; exact h
    rw [hb]
    have : ((1#1 : BitVec 1).setWidth 32).toInt = 1 := by decide
    rw [this]; simp

theorem pay8_apply (x1 : Vec Ideal S1x64x1024 .i32) (y : Fin 64) (x : Fin 1024) :
    k0_pay8 (F := Ideal) x1 (ix4 0 0 y x) = vd (x1 (ix3 0 y x)) := by
  unfold k0_pay8
  show shapeCast S1x1x64x1024 (sitofp (F := Ideal) .f32 (extui 32 (cmpi .ne x1 (broadcast S1x64x1024 4294967295#32)) natLt_1_32)) shapeCasts_S1x64x1024_S1x1x64x1024 (ix4 0 0 y x) = _
  rw [cast_unit]
  exact vd_word _

theorem pay10_apply (x1 : Vec Ideal S1x64x1024 .i32) (y : Fin 64) (x : Fin 1024) :
    k0_pay10 (F := Ideal) x1 (ix4 0 0 y x) = vd (x1 (ix3 0 y x)) := by
  unfold k0_pay10
  show shapeCast S1x1x64x1024 (k0_pay8 (F := Ideal) x1) shapeCasts_S1x1x64x1024_S1x1x64x1024 (ix4 0 0 y x) = _
  rw [shapeCast_self]
  exact pay8_apply x1 y x

/-- Over a pixel, the index of the class-axis reduction with class `k` put back. -/
theorem lift_class (h : S1x19x64x1024.Reduces [1] S1x64x1024) (y : Fin 64) (x : Fin 1024) (k : Fin 19) :
    h.lift (ix3 0 y x) k = ix4 0 k y x := by
  funext a
  apply Fin.ext
  match a with
  | ⟨0, _⟩ => rfl
  | ⟨1, _⟩ => rfl
  | ⟨2, _⟩ => rfl
  | ⟨3, _⟩ => rfl

/-- A sum over the class axis, read at a pixel. -/
theorem sum_class (f : FVec Ideal S1x19x64x1024 .f32) (h : S1x19x64x1024.Reduces [1] S1x64x1024)
    (hφ : FKind.Formats .f32) (hacc : (0x00000000#32 : BitVec 32) = FKind.add.neutral .f32 hφ) (y : Fin 64) (x : Fin 1024) :
    multiReduction .add [1] S1x64x1024 f 0x00000000#32 h hφ hacc (ix3 0 y x) = ∑ k : Fin 19, f (ix4 0 k y x) := by
  rw [Ideal.multiReduction_add_single]
  exact Finset.sum_congr rfl fun k _ => congrArg f (lift_class h y x k)

/-- A maximum over the class axis, read at a pixel. -/
theorem max_class (f : FVec Ideal S1x19x64x1024 .f32) (h : S1x19x64x1024.Reduces [1] S1x64x1024)
    (hφ : FKind.Formats .f32) (hacc : (0xFF800000#32 : BitVec 32) = FKind.maximumf.neutral .f32 hφ) (y : Fin 64) (x : Fin 1024) :
    multiReduction .maximumf [1] S1x64x1024 f 0xFF800000#32 h hφ hacc (ix3 0 y x) = mx (B := 1) (R := 64) f 0 y x := by
  rw [Ideal.multiReduction_maximumf_single]
  show Finset.fold max (Ideal.ofBits .f32 0xFF800000#32) _ _ = _
  rw [negInf_bits]
  unfold mx
  exact congrArg (fun g => Finset.fold max (⊥ : EReal) g (Finset.univ : Finset (Fin 19))) (funext fun k => congrArg f (lift_class h y x k))

/-- Dropping the batch, row and column coordinates leaves the class. -/
theorem drop_pix (h : S1x19x64x1024.Reduces [0, 2, 3] S19) (a : Fin 1) (k : Fin 19) (y : Fin 64) (x : Fin 1024) :
    h.drop (ix4 a k y x) = ix1 k := by
  funext b
  match b with
  | ⟨0, _⟩ => exact Fin.ext (h.drop_apply_val_of_eq (ix4 a k y x) 0 1)

/-- A sum over the batch, row and column axes, read at a class: the double sum over the block's pixels. -/
theorem sum_pix (f : S1x19x64x1024.Idx → EReal) (h : S1x19x64x1024.Reduces [0, 2, 3] S19) (c : Fin 19) :
    Ideal.reduceAdd h f (ix1 c) = ∑ y : Fin 64, ∑ x : Fin 1024, f (ix4 0 c y x) := by
  unfold Ideal.reduceAdd
  rw [← Finset.sum_product' Finset.univ Finset.univ (fun (y : Fin 64) (x : Fin 1024) => f (ix4 0 c y x))]
  have key : ∀ i : S1x19x64x1024.Idx, h.drop i = ix1 c → i = ix4 0 c (i 2) (i 3) := by
    intro i hi
    obtain ⟨a, k, y, x, rfl⟩ : ∃ a k y x, i = ix4 a k y x := ⟨_, _, _, _, eq_ix4 i⟩
    rw [drop_pix] at hi
    have hk : k = c := congrFun hi 0
    subst hk
    obtain rfl : a = 0 := Subsingleton.elim _ _
    rfl
  refine Finset.sum_nbij' (fun i => ((i 2 : Fin 64), (i 3 : Fin 1024))) (fun p => ix4 0 c p.1 p.2) ?_ ?_ ?_ ?_ ?_
  · intro i _; exact Finset.mem_product.2 ⟨Finset.mem_univ _, Finset.mem_univ _⟩
  · intro p _; exact Finset.mem_filter.2 ⟨Finset.mem_univ _, drop_pix h 0 c p.1 p.2⟩
  · intro i hi; exact (key i (Finset.mem_filter.1 hi).2).symm
  · intro p _; rfl
  · intro i hi; exact congrArg f (key i (Finset.mem_filter.1 hi).2)

/-- The zero tiles the class sums are padded with. -/
theorem pay1_apply (j : S1x109.Idx) : k0_pay1 (F := Ideal) j = 0 := by
  show Ideal.ofBits .f32 0x00000000#32 = 0
  exact Ideal.ofBits_zero_f32

theorem pay2_apply (j : S7x128.Idx) : k0_pay2 (F := Ideal) j = 0 := by
  show Ideal.ofBits .f32 0x00000000#32 = 0
  exact Ideal.ofBits_zero_f32

/-- The [1, 8, 128] tile built from 19 class values: lane `l < 19` of row 0 holds value `l`, every other entry is zero. -/
theorem tile_apply (v : FVec Ideal S19 .f32) (r : Fin 8) (l : Fin 128) :
    shapeCast S1x8x128
      (concatenate S8x128 0
        [⟨S1x128, concatenate S1x128 1 [⟨S1x19, shapeCast S1x19 v shapeCasts_S19_S1x19⟩, ⟨S1x109, k0_pay1 (F := Ideal)⟩]
            concatenates_S1x19_S1x109_S1x128_d1⟩,
          ⟨S7x128, k0_pay2 (F := Ideal)⟩] concatenates_S1x128_S7x128_S8x128_d0)
      shapeCasts_S8x128_S1x8x128 (ix3 0 r l)
      = if h : r.val = 0 ∧ l.val < 19 then v (ix1 ⟨l.val, h.2⟩) else 0 := by
  have hl128 := l.isLt
  have hr8 := r.isLt
  refine (shapeCast_apply _ _ _ (ix2 r l) ?_).trans ?_
  · rw [Shape.rowMajor_val_two, Shape.rowMajor_val_three]
    show r.val * 128 + l.val = (0 * 8 + r.val) * 128 + l.val
    omega
  by_cases hr : r.val = 0
  · refine (concatenate_pair_apply_left _ _ _ concatenates_S1x128_S7x128_S8x128_d0 (ix2 r l) rfl (ix2 0 l) ?_).trans ?_
    · intro b
      match b with
      | ⟨0, _⟩ => exact hr.symm
      | ⟨1, _⟩ => rfl
    by_cases hl : l.val < 19
    · rw [dif_pos ⟨hr, hl⟩]
      refine (concatenate_pair_apply_left _ _ _ concatenates_S1x19_S1x109_S1x128_d1 (ix2 0 l) rfl (ix2 0 ⟨l.val, hl⟩) ?_).trans ?_
      · intro b
        match b with
        | ⟨0, _⟩ => rfl
        | ⟨1, _⟩ => rfl
      · refine shapeCast_apply v _ _ (ix1 ⟨l.val, hl⟩) ?_
        rw [Shape.rowMajor_val_one, Shape.rowMajor_val_two]
        show l.val = 0 * 19 + l.val
        omega
    · rw [dif_neg (fun h => hl h.2)]
      refine (concatenate_pair_apply_right _ _ _ concatenates_S1x19_S1x109_S1x128_d1 (ix2 0 l) rfl rfl
        (ix2 0 ⟨l.val - 19, by omega⟩) ?_ ?_).trans (pay1_apply _)
      · intro b hb
        match b with
        | ⟨0, _⟩ => rfl
        | ⟨1, _⟩ => exact absurd rfl hb
      · show (l.val - 19) + 19 = l.val
        omega
  · rw [dif_neg (fun h => hr h.1)]
    refine (concatenate_pair_apply_right _ _ _ concatenates_S1x128_S7x128_S8x128_d0 (ix2 r l) rfl rfl
      (ix2 ⟨r.val - 1, by omega⟩ l) ?_ ?_).trans (pay2_apply _)
    · intro b hb
      match b with
      | ⟨0, _⟩ => exact absurd rfl hb
      | ⟨1, _⟩ => rfl
    · show (r.val - 1) + 1 = r.val
      omega

/-- The tile added to output 2: the previous contents plus, in lane `l < 19` of row 0, the class sum `l`. -/
theorem pay3_apply (v36 : FVec Ideal S19 .f32) (prev : Vec Ideal S1x8x128 .f32) (r : Fin 8) (l : Fin 128) :
    k0_pay3 v36 prev (ix3 0 r l)
      = prev (ix3 0 r l) + (if h : r.val = 0 ∧ l.val < 19 then v36 (ix1 ⟨l.val, h.2⟩) else 0) := by
  unfold k0_pay3
  refine (addf_apply _ _ _).trans ?_
  rw [shapeCast_self]
  exact congrArg (prev (ix3 0 r l) + ·) (tile_apply v36 r l)

/-- A select on the class bits against the zero splat, read at a point: the choice on the pixel's clipped class. -/
theorem sel_apply (x1 : Vec Ideal S1x64x1024 .i32) (A : FVec Ideal S1x19x64x1024 .f32) (c : Fin 19) (y : Fin 64) (x : Fin 1024) :
    select (k0_pay7 (F := Ideal) x1) A (broadcast S1x19x64x1024 (Scalar.ofBits (F := Ideal) .f32 0x00000000#32)) (ix4 0 c y x)
      = if cl (x1 (ix3 0 y x)) = c then A (ix4 0 c y x) else 0 := by
  rw [select_apply, pay7_apply, select_bit]
  show (if _ then _ else Ideal.ofBits .f32 0x00000000#32) = _
  rw [Ideal.ofBits_zero_f32]

/-- The block's logits less each pixel's largest one, as the kernel forms them. -/
def shiftK (x0 : Vec Ideal S1x19x64x1024 .f32) : FVec Ideal S1x19x64x1024 .f32 :=
  subf x0 (broadcastTo S1x19x64x1024
    (shapeCast S1x1x64x1024
      (multiReduction .maximumf [1] S1x64x1024 x0 0xFF800000#32 reduces_S1x19x64x1024_S1x64x1024 (.inl rfl) rfl)
      shapeCasts_S1x64x1024_S1x1x64x1024)
    broadcasts_S1x1x64x1024_S1x19x64x1024)

theorem shiftK_apply (x0 : Vec Ideal S1x19x64x1024 .f32) (k : Fin 19) (y : Fin 64) (x : Fin 1024) :
    shiftK x0 (ix4 0 k y x) = x0 (ix4 0 k y x) - mx (B := 1) (R := 64) x0 0 y x := by
  unfold shiftK
  rw [subf_apply, bcast_class, cast_unit]
  exact congrArg (x0 (ix4 0 k y x) - ·) (max_class x0 _ _ _ y x)

/-- The tile of log-probabilities of the clipped classes, as the kernel forms it. -/
def lpK (x0 : Vec Ideal S1x19x64x1024 .f32) (x1 : Vec Ideal S1x64x1024 .i32) : FVec Ideal S1x1x64x1024 .f32 :=
  subf
    (shapeCast S1x1x64x1024
      (multiReduction .add [1] S1x64x1024
        (select (k0_pay7 (F := Ideal) x1) (shiftK x0) (broadcast S1x19x64x1024 (Scalar.ofBits (F := Ideal) .f32 0x00000000#32)))
        0x00000000#32 reduces_S1x19x64x1024_S1x64x1024 (.inl rfl) rfl)
      shapeCasts_S1x64x1024_S1x1x64x1024)
    (log (shapeCast S1x1x64x1024
      (multiReduction .add [1] S1x64x1024 (exp (shiftK x0)) 0x00000000#32 reduces_S1x19x64x1024_S1x64x1024 (.inl rfl) rfl)
      shapeCasts_S1x64x1024_S1x1x64x1024))

/-- The shifted logit of the pixel's clipped class: the class sum of the shifted logits selected by the class bits. -/
theorem num_apply (x0 : Vec Ideal S1x19x64x1024 .f32) (x1 : Vec Ideal S1x64x1024 .i32) (y : Fin 64) (x : Fin 1024) :
    multiReduction .add [1] S1x64x1024
        (select (k0_pay7 (F := Ideal) x1) (shiftK x0) (broadcast S1x19x64x1024 (Scalar.ofBits (F := Ideal) .f32 0x00000000#32)))
        0x00000000#32 reduces_S1x19x64x1024_S1x64x1024 (.inl rfl) rfl (ix3 0 y x)
      = x0 (ix4 0 (cl (x1 (ix3 0 y x))) y x) - mx (B := 1) (R := 64) x0 0 y x := by
  refine (sum_class _ _ _ _ y x).trans ?_
  rw [Finset.sum_congr rfl fun k _ => sel_apply x1 (shiftK x0) k y x]
  rw [Finset.sum_ite_eq Finset.univ (cl (x1 (ix3 0 y x))) fun k => shiftK x0 (ix4 0 k y x), if_pos (Finset.mem_univ _)]
  exact shiftK_apply x0 _ y x

/-- The sum of the shifted exponentials at a pixel. -/
theorem den_apply (x0 : Vec Ideal S1x19x64x1024 .f32) (y : Fin 64) (x : Fin 1024) :
    multiReduction .add [1] S1x64x1024 (exp (shiftK x0)) 0x00000000#32 reduces_S1x19x64x1024_S1x64x1024 (.inl rfl) rfl (ix3 0 y x)
      = ∑ k : Fin 19, Ideal.exp (x0 (ix4 0 k y x) - mx (B := 1) (R := 64) x0 0 y x) := by
  refine (sum_class _ _ _ _ y x).trans (Finset.sum_congr rfl fun k _ => ?_)
  show Ideal.exp (shiftK x0 (ix4 0 k y x)) = _
  rw [shiftK_apply]

theorem lpK_apply (x0 : Vec Ideal S1x19x64x1024 .f32) (x1 : Vec Ideal S1x64x1024 .i32) (y : Fin 64) (x : Fin 1024) :
    lpK x0 x1 (ix4 0 0 y x) = lp (B := 1) (R := 64) x0 x1 0 y x := by
  unfold lpK
  rw [subf_apply, cast_unit]
  show _ - Ideal.log (shapeCast S1x1x64x1024 _ shapeCasts_S1x64x1024_S1x1x64x1024 (ix4 0 0 y x)) = _
  rw [cast_unit]
  unfold lp lse
  exact congrArg₂ (· - ·) (num_apply x0 x1 y x) (congrArg Ideal.log (den_apply x0 y x))

/-- The kernel's class sums are the reduction, over the pixels, of the valid log-probabilities selected by class. -/
theorem pay9_eq (x0 : Vec Ideal S1x19x64x1024 .f32) (x1 : Vec Ideal S1x64x1024 .i32) :
    k0_pay9 x0 x1 = Ideal.reduceAdd reduces_S1x19x64x1024_S19
      (select (k0_pay7 (F := Ideal) x1)
        (broadcastTo S1x19x64x1024
          (shapeCast S1x1x64x1024 (mulf (lpK x0 x1) (k0_pay8 (F := Ideal) x1)) shapeCasts_S1x1x64x1024_S1x1x64x1024)
          broadcasts_S1x1x64x1024_S1x19x64x1024)
        (broadcast S1x19x64x1024 (Scalar.ofBits (F := Ideal) .f32 0x00000000#32))) := rfl

/-- The block's class sums: class `c`'s entry is the sum, over the block's pixels of class `c`, of the valid
    log-probabilities. -/
theorem pay9_apply (x0 : Vec Ideal S1x19x64x1024 .f32) (x1 : Vec Ideal S1x64x1024 .i32) (c : Fin 19) :
    k0_pay9 x0 x1 (ix1 c) = rowsN (B := 1) (R := 64) x0 x1 0 c := by
  rw [pay9_eq, sum_pix]
  unfold rowsN
  refine Finset.sum_congr rfl fun y _ => Finset.sum_congr rfl fun x _ => ?_
  rw [sel_apply, bcast_class, shapeCast_self, mulf_apply, lpK_apply, pay8_apply]

/-- The kernel's class counts are the reduction, over the pixels, of the validity weights selected by class. -/
theorem cnt_apply (x1 : Vec Ideal S1x64x1024 .i32) (c : Fin 19) :
    Ideal.reduceAdd reduces_S1x19x64x1024_S19
      (select (k0_pay7 (F := Ideal) x1)
        (broadcastTo S1x19x64x1024 (k0_pay10 (F := Ideal) x1) broadcasts_S1x1x64x1024_S1x19x64x1024)
        (broadcast S1x19x64x1024 (Scalar.ofBits (F := Ideal) .f32 0x00000000#32))) (ix1 c)
      = rowsD (B := 1) (R := 64) x1 0 c := by
  rw [sum_pix]
  unfold rowsD
  refine Finset.sum_congr rfl fun y _ => Finset.sum_congr rfl fun x _ => ?_
  rw [sel_apply, bcast_class, pay10_apply]

/-- The tile added to output 3: the previous contents plus, in lane `l < 19` of row 0, the block's count of valid
    pixels of class `l`. -/
theorem pay4_apply (x1 : Vec Ideal S1x64x1024 .i32) (prev : Vec Ideal S1x8x128 .f32) (r : Fin 8) (l : Fin 128) :
    k0_pay4 (k0_pay7 x1) (Scalar.ofBits .f32 0x00000000#32) (k0_pay10 x1) prev (ix3 0 r l)
      = prev (ix3 0 r l) + (if h : r.val = 0 ∧ l.val < 19 then rowsD (B := 1) (R := 64) x1 0 ⟨l.val, h.2⟩ else 0) := by
  unfold k0_pay4
  refine (addf_apply _ _ _).trans ?_
  rw [shapeCast_self]
  refine congrArg (prev (ix3 0 r l) + ·) ((tile_apply _ r l).trans ?_)
  by_cases h : r.val = 0 ∧ l.val < 19
  · rw [dif_pos h, dif_pos h]
    exact cnt_apply x1 ⟨l.val, h.2⟩
  · rw [dif_neg h, dif_neg h]

end Cert.KernelIdeal.KV

end
-- ==== Proof.LibBlockSum.lean ====
/-
  Re-indexing of finite sums: a sum over a·b consecutive indices is the double sum over a blocks of b
  indices each (block t holds the indices t·b, …, t·b + b − 1); the instance 100000 = 20 · 5000; and a
  running accumulator that starts at zero and adds one term per step is the sum of the terms so far.
-/
import Mathlib.Data.EReal.Inv
import Mathlib.Data.Fintype.BigOperators
import Mathlib.Algebra.BigOperators.Fin
import Mathlib.Logic.Equiv.Fin.Basic
import Mathlib.Tactic.Ring

namespace Cert.LibBlockSum

/-- The r-th index of block t lies below a·b: t·b + r < t·b + b = (t+1)·b ≤ a·b. -/
theorem idx_lt {a b : ℕ} (t : Fin a) (r : Fin b) : t.val * b + r.val < a * b :=
  calc t.val * b + r.val < t.val * b + b := Nat.add_lt_add_left r.isLt _
    _ = (t.val + 1) * b := (Nat.succ_mul _ _).symm
    _ ≤ a * b := Nat.mul_le_mul_right _ t.isLt

/-- A sum over a·b indices is the sum over the a blocks of the sum over each block's b indices: the pair
    (t, r) ↦ t·b + r is a bijection of Fin a × Fin b with Fin (a·b). -/
theorem sum_blocks {M : Type*} [AddCommMonoid M] (a b : ℕ) (f : Fin (a * b) → M) :
    ∑ i : Fin (a * b), f i = ∑ t : Fin a, ∑ r : Fin b, f ⟨t.val * b + r.val, idx_lt t r⟩ := by
  rw [← finProdFinEquiv.sum_comp f, Fintype.sum_prod_type]
  refine Finset.sum_congr rfl fun t _ => Finset.sum_congr rfl fun r _ => ?_
  congr 1
  apply Fin.ext
  simp only [finProdFinEquiv_apply_val]
  ring

/-- The instance used for the rows: 100000 rows are 20 blocks of 5000. -/
theorem sum_rows (f : Fin 100000 → EReal) :
    ∑ i : Fin 100000, f i = ∑ t : Fin 20, ∑ r : Fin 5000, f ⟨t.val * 5000 + r.val, by omega⟩ :=
  sum_blocks 20 5000 f

/-- One more term of a running sum over an initial segment of the naturals. -/
theorem sum_range_succ_blocks (g : ℕ → EReal) (n : ℕ) :
    (∑ t ∈ Finset.range (n + 1), g t) = (∑ t ∈ Finset.range n, g t) + g n :=
  Finset.sum_range_succ g n

/-- A sum over Fin n of a function of the value is the sum over the naturals below n. -/
theorem sum_fin_eq_range (n : ℕ) (g : ℕ → EReal) : ∑ t : Fin n, g t.val = ∑ t ∈ Finset.range n, g t :=
  Fin.sum_univ_eq_sum_range g n

/-- An accumulator that starts at zero and adds g n at step n holds, after n steps, the sum of g over the
    steps taken. -/
theorem acc_eq_sum (acc g : ℕ → EReal) (h0 : acc 0 = 0) (hs : ∀ n, acc (n + 1) = acc n + g n) (n : ℕ) :
    acc n = ∑ t : Fin n, g t.val := by
  rw [sum_fin_eq_range]
  induction n with
  | zero => rw [h0, Finset.range_zero, Finset.sum_empty]
  | succ n ih => rw [hs, ih, Finset.sum_range_succ]

end Cert.LibBlockSum
-- ==== Proof.KAccum.lean ====
/-
  What the two output arrays hold after the kernel's run. Grid point `t = 8 b + h` works on rows `64 h … 64 h + 63` of
  batch entry `b`; the point with `h = 0` resets the entry's two tiles to zero, every point adds its block's class sums,
  and the tile is written back after `h = 7`. So entry `b` of output 2 ends with class `c`'s sum over all 512 rows in
  lane `c < 19` of row 0 and zeros elsewhere, and output 3 likewise with the counts.
-/
import proofs.«406133_j55645596287217_3_alg».proof.Proof.Gen.KernelIdeal.Frame
import proofs.«406133_j55645596287217_3_alg».proof.Proof.KPay
import proofs.«406133_j55645596287217_3_alg».proof.Proof.LibBlockSum
import Idealize.ShloMosaic.Lib.Pipeline.Value

noncomputable section

namespace Cert.KernelIdeal.KV

open Cert.KernelIdeal Cert.KernelIdeal.Gen Cert.CBCE
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The logits and the labels as core `c` holds them. -/
abbrev Xof (c : Dev nD) : SX.Idx → EReal := m ((c : Thread nD τ).loc main_arg0)
abbrev Tof (c : Dev nD) : ST.Idx → BitVec 32 := m ((c : Thread nD τ).loc main_arg1)

/-- Entry (b, r, l) of what output 2 ends with. -/
def g2 (X : SX.Idx → EReal) (T : ST.Idx → BitVec 32) (b : Fin 8) (r : Fin 8) (l : Fin 128) : EReal :=
  if h : r.val = 0 ∧ l.val < 19 then rowsN X T b ⟨l.val, h.2⟩ else 0

/-- Entry (b, r, l) of what output 3 ends with. -/
def g3 (T : ST.Idx → BitVec 32) (b : Fin 8) (r : Fin 8) (l : Fin 128) : EReal :=
  if h : r.val = 0 ∧ l.val < 19 then rowsD T b ⟨l.val, h.2⟩ else 0

def G2 (X : SX.Idx → EReal) (T : ST.Idx → BitVec 32) : S8x8x128.Idx → EReal := fun j => g2 X T (j 0) (j 1) (j 2)
def G3 (T : ST.Idx → BitVec 32) : S8x8x128.Idx → EReal := fun j => g3 T (j 0) (j 1) (j 2)

/-! What each case of the body leaves in the two output tiles, as the stored values. -/

section Pieces

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

open Idealize.ShloMosaic.Tactic in
theorem out_B_2 (c : Dev nD) (i : grid0.Coords) (a2 : Memref sig .tc .vmem S1x19x64x1024 .f32) (h2 : a2.IsWhole)
    (a3 : Memref sig .tc .vmem S1x64x1024 .i32) (h3 : a3.IsWhole) (a4 : Memref sig .tc .vmem S1x8x128 .f32) (h4 : a4.IsWhole)
    (a5 : Memref sig .tc .vmem S1x8x128 .f32) (h5 : a5.IsWhole) (hc : ¬cond0_0 i)
    (x0 : Vec F S1x19x64x1024 .f32) (x1 : Vec F S1x64x1024 .i32) (xo2 xo3 : Vec F S1x8x128 .f32) :
    out0_B_2 c i a2 h2 a3 h3 a4 h4 a5 h5 hc x0 x1 xo2 xo3 = k0_pay3 (k0_pay9 x0 x1) xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S1x8x128) hz3, View.ld_unit_zero (S := S1x64x1024) hz3,
    View.ld_unit_zero (S := S1x19x64x1024) hz4, shapeCast_self]

open Idealize.ShloMosaic.Tactic in
theorem out_B_3 (c : Dev nD) (i : grid0.Coords) (a2 : Memref sig .tc .vmem S1x19x64x1024 .f32) (h2 : a2.IsWhole)
    (a3 : Memref sig .tc .vmem S1x64x1024 .i32) (h3 : a3.IsWhole) (a4 : Memref sig .tc .vmem S1x8x128 .f32) (h4 : a4.IsWhole)
    (a5 : Memref sig .tc .vmem S1x8x128 .f32) (h5 : a5.IsWhole) (hc : ¬cond0_0 i)
    (x0 : Vec F S1x19x64x1024 .f32) (x1 : Vec F S1x64x1024 .i32) (xo2 xo3 : Vec F S1x8x128 .f32) :
    out0_B_3 c i a2 h2 a3 h3 a4 h4 a5 h5 hc x0 x1 xo2 xo3
      = k0_pay4 (k0_pay7 x1) (Scalar.ofBits .f32 0x00000000#32) (k0_pay10 x1) xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S1x8x128) hz3, View.ld_unit_zero (S := S1x64x1024) hz3,
    View.ld_unit_zero (S := S1x19x64x1024) hz4, shapeCast_self]

open Idealize.ShloMosaic.Tactic in
theorem out_A_2 (c : Dev nD) (i : grid0.Coords) (a2 : Memref sig .tc .vmem S1x19x64x1024 .f32) (h2 : a2.IsWhole)
    (a3 : Memref sig .tc .vmem S1x64x1024 .i32) (h3 : a3.IsWhole) (a4 : Memref sig .tc .vmem S1x8x128 .f32) (h4 : a4.IsWhole)
    (a5 : Memref sig .tc .vmem S1x8x128 .f32) (h5 : a5.IsWhole) (hc : cond0_0 i)
    (x0 : Vec F S1x19x64x1024 .f32) (x1 : Vec F S1x64x1024 .i32) :
    out0_A_2 c i a2 h2 a3 h3 a4 h4 a5 h5 hc x0 x1 = k0_pay3 (k0_pay9 x0 x1) (k0_pay5 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread,
    View.ld_unit_zero (S := S1x8x128) hz3, View.ld_unit_zero (S := S1x64x1024) hz3,
    View.ld_unit_zero (S := S1x19x64x1024) hz4, shapeCast_self]

open Idealize.ShloMosaic.Tactic in
theorem out_A_3 (c : Dev nD) (i : grid0.Coords) (a2 : Memref sig .tc .vmem S1x19x64x1024 .f32) (h2 : a2.IsWhole)
    (a3 : Memref sig .tc .vmem S1x64x1024 .i32) (h3 : a3.IsWhole) (a4 : Memref sig .tc .vmem S1x8x128 .f32) (h4 : a4.IsWhole)
    (a5 : Memref sig .tc .vmem S1x8x128 .f32) (h5 : a5.IsWhole) (hc : cond0_0 i)
    (x0 : Vec F S1x19x64x1024 .f32) (x1 : Vec F S1x64x1024 .i32) :
    out0_A_3 c i a2 h2 a3 h3 a4 h4 a5 h5 hc x0 x1
      = k0_pay4 (k0_pay7 x1) (Scalar.ofBits .f32 0x00000000#32) (k0_pay10 x1) (k0_pay6 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread,
    View.ld_unit_zero (S := S1x8x128) hz3, View.ld_unit_zero (S := S1x64x1024) hz3,
    View.ld_unit_zero (S := S1x19x64x1024) hz4, shapeCast_self]

end Pieces

/-! The per-pixel quantities depend on the logits only through the pixel's 19 class values and on the labels only through
    the pixel's label. -/
section Congr

variable {B R B' R' : Nat}
  (X : (⟨4, ![B, 19, R, 1024]⟩ : Shape).Idx → EReal) (T : (⟨3, ![B, R, 1024]⟩ : Shape).Idx → BitVec 32)
  (X' : (⟨4, ![B', 19, R', 1024]⟩ : Shape).Idx → EReal) (T' : (⟨3, ![B', R', 1024]⟩ : Shape).Idx → BitVec 32)

theorem mx_congr (b : Fin B) (y : Fin R) (x : Fin 1024) (b' : Fin B') (y' : Fin R') (x' : Fin 1024)
    (hX : ∀ k : Fin 19, X (ix4 b k y x) = X' (ix4 b' k y' x')) : mx X b y x = mx X' b' y' x' := by
  unfold mx
  exact congrArg (fun g => Finset.fold max (⊥ : EReal) g (Finset.univ : Finset (Fin 19))) (funext hX)

theorem lse_congr (b : Fin B) (y : Fin R) (x : Fin 1024) (b' : Fin B') (y' : Fin R') (x' : Fin 1024)
    (hX : ∀ k : Fin 19, X (ix4 b k y x) = X' (ix4 b' k y' x')) : lse X b y x = lse X' b' y' x' := by
  unfold lse
  rw [mx_congr X X' b y x b' y' x' hX]
  exact congrArg Ideal.log (Finset.sum_congr rfl fun k _ => by rw [hX k])

theorem lp_congr (b : Fin B) (y : Fin R) (x : Fin 1024) (b' : Fin B') (y' : Fin R') (x' : Fin 1024)
    (hX : ∀ k : Fin 19, X (ix4 b k y x) = X' (ix4 b' k y' x')) (hT : T (ix3 b y x) = T' (ix3 b' y' x')) :
    lp X T b y x = lp X' T' b' y' x' := by
  unfold lp
  rw [mx_congr X X' b y x b' y' x' hX, lse_congr X X' b y x b' y' x' hX, hT, hX]

/-- One pixel's contribution to class `k`'s sum of valid log-probabilities, and to its count. -/
def termN (b : Fin B) (y : Fin R) (x : Fin 1024) (k : Fin 19) : EReal :=
  if cl (T (ix3 b y x)) = k then lp X T b y x * vd (T (ix3 b y x)) else 0

def termD (b : Fin B) (y : Fin R) (x : Fin 1024) (k : Fin 19) : EReal :=
  if cl (T (ix3 b y x)) = k then vd (T (ix3 b y x)) else 0

theorem termN_congr (b : Fin B) (y : Fin R) (x : Fin 1024) (b' : Fin B') (y' : Fin R') (x' : Fin 1024) (k : Fin 19)
    (hX : ∀ k : Fin 19, X (ix4 b k y x) = X' (ix4 b' k y' x')) (hT : T (ix3 b y x) = T' (ix3 b' y' x')) :
    termN X T b y x k = termN X' T' b' y' x' k := by
  unfold termN
  rw [lp_congr X T X' T' b y x b' y' x' hX hT, hT]

theorem termD_congr (b : Fin B) (y : Fin R) (x : Fin 1024) (b' : Fin B') (y' : Fin R') (x' : Fin 1024) (k : Fin 19)
    (hT : T (ix3 b y x) = T' (ix3 b' y' x')) :
    termD T b y x k = termD T' b' y' x' k := by
  unfold termD
  rw [hT]

theorem rowsN_eq (b : Fin B) (k : Fin 19) : rowsN X T b k = ∑ y : Fin R, ∑ x : Fin 1024, termN X T b y x k := rfl
theorem rowsD_eq (b : Fin B) (k : Fin 19) : rowsD T b k = ∑ y : Fin R, ∑ x : Fin 1024, termD T b y x k := rfl

end Congr

/-! The input blocks at a grid point, and where their entries sit in the arrays. -/

abbrev xblk (c : Dev nD) (t : Fin cfg0.N) : Vec Ideal S1x19x64x1024 .f32 := iblk m c 0 t
abbrev tblk (c : Dev nD) (t : Fin cfg0.N) : Vec Ideal S1x64x1024 .i32 := iblk m c 1 t

/-- The block index maps over the grid: point `t` reads batch entry `t / 8` and row block `t % 8`. -/
theorem idx_in : ∀ t : Fin cfg0.N,
    win0_0.index t (0 : Fin 4) = t.val / 8 ∧ win0_0.index t (1 : Fin 4) = 0
    ∧ win0_0.index t (2 : Fin 4) = t.val % 8 ∧ win0_0.index t (3 : Fin 4) = 0
    ∧ win0_1.index t (0 : Fin 3) = t.val / 8 ∧ win0_1.index t (1 : Fin 3) = t.val % 8
    ∧ win0_1.index t (2 : Fin 3) = 0 :=
  (by decide +kernel : ∀ t : Fin grid0.N, _)

theorem xblk_apply (c : Dev nD) (t : Fin cfg0.N) (k : Fin 19) (y : Fin 64) (x : Fin 1024) (b : Fin 8) (Y : Fin 512)
    (hb : b.val = t.val / 8) (hY : Y.val = t.val % 8 * 64 + y.val) :
    xblk m c t (ix4 0 k y x) = Xof m c (ix4 b k Y x) := by
  obtain ⟨e0, e1, e2, e3, -, -, -⟩ := idx_in t
  unfold xblk iblk
  rw [View.read_apply]
  show V m c main_arg0 _ = m ((c : Thread nD τ).loc main_arg0) _
  unfold V
  congr 1
  funext a
  apply Fin.ext
  match a with
  | ⟨0, _⟩ => show win0_0.index t (0 : Fin 4) * 1 + 1 * 0 = b.val; omega
  | ⟨1, _⟩ => show win0_0.index t (1 : Fin 4) * 19 + 1 * k.val = k.val; omega
  | ⟨2, _⟩ => show win0_0.index t (2 : Fin 4) * 64 + 1 * y.val = Y.val; omega
  | ⟨3, _⟩ => show win0_0.index t (3 : Fin 4) * 1024 + 1 * x.val = x.val; omega

theorem tblk_apply (c : Dev nD) (t : Fin cfg0.N) (y : Fin 64) (x : Fin 1024) (b : Fin 8) (Y : Fin 512)
    (hb : b.val = t.val / 8) (hY : Y.val = t.val % 8 * 64 + y.val) :
    tblk m c t (ix3 0 y x) = Tof m c (ix3 b Y x) := by
  obtain ⟨-, -, -, -, e0, e1, e2⟩ := idx_in t
  unfold tblk iblk
  rw [View.read_apply]
  show V m c main_arg1 _ = m ((c : Thread nD τ).loc main_arg1) _
  unfold V
  congr 1
  funext a
  apply Fin.ext
  match a with
  | ⟨0, _⟩ => show win0_1.index t (0 : Fin 3) * 1 + 1 * 0 = b.val; omega
  | ⟨1, _⟩ => show win0_1.index t (1 : Fin 3) * 64 + 1 * y.val = Y.val; omega
  | ⟨2, _⟩ => show win0_1.index t (2 : Fin 3) * 1024 + 1 * x.val = x.val; omega

/-! What one grid point adds, and the running tile. -/

section Points

variable (X : SX.Idx → EReal) (T : ST.Idx → BitVec 32)

/-- Grid point `p`'s addend for class `k`: the sum over its 64 rows (rows `64 (p % 8) …` of batch entry `p / 8`). -/
def ptN (k : Fin 19) (p : ℕ) : EReal :=
  if hp : p < 64 then ∑ y : Fin 64, ∑ x : Fin 1024,
    termN X T (⟨p / 8, by omega⟩ : Fin 8) (⟨p % 8 * 64 + y.val, by have := y.isLt; omega⟩ : Fin 512) x k else 0

def ptD (k : Fin 19) (p : ℕ) : EReal :=
  if hp : p < 64 then ∑ y : Fin 64, ∑ x : Fin 1024,
    termD T (⟨p / 8, by omega⟩ : Fin 8) (⟨p % 8 * 64 + y.val, by have := y.isLt; omega⟩ : Fin 512) x k else 0

theorem ptN_eq (k : Fin 19) (b : Fin 8) (s : Fin 8) (p : ℕ) (hp : p = 8 * b.val + s.val) :
    ptN X T k p = ∑ y : Fin 64, ∑ x : Fin 1024,
      termN X T b (⟨s.val * 64 + y.val, by have := y.isLt; have := s.isLt; omega⟩ : Fin 512) x k := by
  have hb := b.isLt
  have hs := s.isLt
  unfold ptN
  rw [dif_pos (by omega)]
  refine Finset.sum_congr rfl fun y _ => Finset.sum_congr rfl fun x _ => ?_
  exact congrArg₂ (fun (b' : Fin 8) (Y' : Fin 512) => termN X T b' Y' x k)
    (Fin.ext (by show p / 8 = b.val; omega)) (Fin.ext (by show p % 8 * 64 + y.val = s.val * 64 + y.val; rw [show p % 8 = s.val by omega]))

theorem ptD_eq (k : Fin 19) (b : Fin 8) (s : Fin 8) (p : ℕ) (hp : p = 8 * b.val + s.val) :
    ptD T k p = ∑ y : Fin 64, ∑ x : Fin 1024,
      termD T b (⟨s.val * 64 + y.val, by have := y.isLt; have := s.isLt; omega⟩ : Fin 512) x k := by
  have hb := b.isLt
  have hs := s.isLt
  unfold ptD
  rw [dif_pos (by omega)]
  refine Finset.sum_congr rfl fun y _ => Finset.sum_congr rfl fun x _ => ?_
  exact congrArg₂ (fun (b' : Fin 8) (Y' : Fin 512) => termD T b' Y' x k)
    (Fin.ext (by show p / 8 = b.val; omega)) (Fin.ext (by show p % 8 * 64 + y.val = s.val * 64 + y.val; rw [show p % 8 = s.val by omega]))

/-- The eight points of a batch entry together sum all 512 rows. -/
theorem sum_ptN (k : Fin 19) (b : Fin 8) :
    ∑ s ∈ Finset.range 8, ptN X T k (8 * b.val + s) = rowsN X T b k := by
  rw [rowsN_eq, ← Fin.sum_univ_eq_sum_range (fun s => ptN X T k (8 * b.val + s)) 8]
  have h := Cert.LibBlockSum.sum_blocks 8 64 (fun Y : Fin (8 * 64) => ∑ x : Fin 1024, termN X T b (⟨Y.val, Y.isLt⟩ : Fin 512) x k)
  refine Eq.trans ?_ h.symm
  exact Finset.sum_congr rfl fun s _ => ptN_eq X T k b s _ rfl

theorem sum_ptD (k : Fin 19) (b : Fin 8) :
    ∑ s ∈ Finset.range 8, ptD T k (8 * b.val + s) = rowsD T b k := by
  rw [rowsD_eq, ← Fin.sum_univ_eq_sum_range (fun s => ptD T k (8 * b.val + s)) 8]
  have h := Cert.LibBlockSum.sum_blocks 8 64 (fun Y : Fin (8 * 64) => ∑ x : Fin 1024, termD T b (⟨Y.val, Y.isLt⟩ : Fin 512) x k)
  refine Eq.trans ?_ h.symm
  exact Finset.sum_congr rfl fun s _ => ptD_eq T k b s _ rfl

end Points

/-- A point's block sums are its addends. -/
theorem blkN_eq (c : Dev nD) (t : Fin cfg0.N) (k : Fin 19) :
    rowsN (B := 1) (R := 64) (xblk m c t) (tblk m c t) 0 k = ptN (Xof m c) (Tof m c) k t.val := by
  have ht : t.val < 64 := lt_of_lt_of_eq t.isLt (show cfg0.N = 64 from N_0)
  unfold ptN
  rw [dif_pos ht, rowsN_eq]
  refine Finset.sum_congr rfl fun y _ => Finset.sum_congr rfl fun x _ => ?_
  exact termN_congr (xblk m c t) (tblk m c t) (Xof m c) (Tof m c) 0 y x _ _ x k
    (fun k' => xblk_apply m c t k' y x _ _ rfl rfl) (tblk_apply m c t y x _ _ rfl rfl)

theorem blkD_eq (c : Dev nD) (t : Fin cfg0.N) (k : Fin 19) :
    rowsD (B := 1) (R := 64) (tblk m c t) 0 k = ptD (Tof m c) k t.val := by
  have ht : t.val < 64 := lt_of_lt_of_eq t.isLt (show cfg0.N = 64 from N_0)
  unfold ptD
  rw [dif_pos ht, rowsD_eq]
  refine Finset.sum_congr rfl fun y _ => Finset.sum_congr rfl fun x _ => ?_
  exact termD_congr (tblk m c t) (Tof m c) 0 y x _ _ x k (tblk_apply m c t y x _ _ rfl rfl)

/-! The tile after each grid point. -/

/-- At a point that resets, output 2's tile holds that point's addends in row 0's first 19 lanes, zeros elsewhere. -/
theorem tile2_A (c : Dev nD) (t : Fin cfg0.N) (h0 : t.val % 8 = 0) (r : Fin 8) (l : Fin 128) :
    (outsAt0 m c t.val t.isLt).1 (ix3 0 r l)
      = if h : r.val = 0 ∧ l.val < 19 then ptN (Xof m c) (Tof m c) ⟨l.val, h.2⟩ t.val else 0 := by
  rw [outsAt0_A m c t h0]
  dsimp only
  refine (congrFun (out_A_2 (F := Ideal) c (grid0.coords t) (ms0_0 t) (hs0_0 t) (ms0_1 t) (hs0_1 t) (ms0_2 t) (hs0_2 t)
    (ms0_3 t) (hs0_3 t) ((hcond0_0 t).mpr h0) (xblk m c t) (tblk m c t)) (ix3 0 r l)).trans ?_
  rw [pay3_apply, pay5_apply, zero_add]
  by_cases h : r.val = 0 ∧ l.val < 19
  · rw [dif_pos h, dif_pos h, pay9_apply, blkN_eq]
  · rw [dif_neg h, dif_neg h]

/-- At any other point it holds what the point before left plus this point's addends. -/
theorem tile2_B (c : Dev nD) (t : Fin cfg0.N) (h0 : ¬t.val % 8 = 0) (r : Fin 8) (l : Fin 128) :
    (outsAt0 m c t.val t.isLt).1 (ix3 0 r l)
      = (outsAt0 m c (t.val - 1) (Nat.lt_of_le_of_lt (Nat.sub_le _ _) t.isLt)).1 (ix3 0 r l)
        + (if h : r.val = 0 ∧ l.val < 19 then ptN (Xof m c) (Tof m c) ⟨l.val, h.2⟩ t.val else 0) := by
  rw [outsAt0_B m c t h0]
  dsimp only
  refine (congrFun (out_B_2 (F := Ideal) c (grid0.coords t) (ms0_0 t) (hs0_0 t) (ms0_1 t) (hs0_1 t) (ms0_2 t) (hs0_2 t)
    (ms0_3 t) (hs0_3 t) (fun h => h0 ((hcond0_0 t).mp h)) (xblk m c t) (tblk m c t)
    (outsAt0 m c (t.val - 1) (Nat.lt_of_le_of_lt (Nat.sub_le _ _) t.isLt)).1
    (outsAt0 m c (t.val - 1) (Nat.lt_of_le_of_lt (Nat.sub_le _ _) t.isLt)).2) (ix3 0 r l)).trans ?_
  rw [pay3_apply]
  by_cases h : r.val = 0 ∧ l.val < 19
  · rw [dif_pos h, dif_pos h, pay9_apply, blkN_eq]
  · rw [dif_neg h, dif_neg h]

theorem tile3_A (c : Dev nD) (t : Fin cfg0.N) (h0 : t.val % 8 = 0) (r : Fin 8) (l : Fin 128) :
    (outsAt0 m c t.val t.isLt).2 (ix3 0 r l)
      = if h : r.val = 0 ∧ l.val < 19 then ptD (Tof m c) ⟨l.val, h.2⟩ t.val else 0 := by
  rw [outsAt0_A m c t h0]
  dsimp only
  refine (congrFun (out_A_3 (F := Ideal) c (grid0.coords t) (ms0_0 t) (hs0_0 t) (ms0_1 t) (hs0_1 t) (ms0_2 t) (hs0_2 t)
    (ms0_3 t) (hs0_3 t) ((hcond0_0 t).mpr h0) (xblk m c t) (tblk m c t)) (ix3 0 r l)).trans ?_
  rw [pay4_apply, pay6_apply, zero_add]
  by_cases h : r.val = 0 ∧ l.val < 19
  · rw [dif_pos h, dif_pos h, blkD_eq]
  · rw [dif_neg h, dif_neg h]

theorem tile3_B (c : Dev nD) (t : Fin cfg0.N) (h0 : ¬t.val % 8 = 0) (r : Fin 8) (l : Fin 128) :
    (outsAt0 m c t.val t.isLt).2 (ix3 0 r l)
      = (outsAt0 m c (t.val - 1) (Nat.lt_of_le_of_lt (Nat.sub_le _ _) t.isLt)).2 (ix3 0 r l)
        + (if h : r.val = 0 ∧ l.val < 19 then ptD (Tof m c) ⟨l.val, h.2⟩ t.val else 0) := by
  rw [outsAt0_B m c t h0]
  dsimp only
  refine (congrFun (out_B_3 (F := Ideal) c (grid0.coords t) (ms0_0 t) (hs0_0 t) (ms0_1 t) (hs0_1 t) (ms0_2 t) (hs0_2 t)
    (ms0_3 t) (hs0_3 t) (fun h => h0 ((hcond0_0 t).mp h)) (xblk m c t) (tblk m c t)
    (outsAt0 m c (t.val - 1) (Nat.lt_of_le_of_lt (Nat.sub_le _ _) t.isLt)).1
    (outsAt0 m c (t.val - 1) (Nat.lt_of_le_of_lt (Nat.sub_le _ _) t.isLt)).2) (ix3 0 r l)).trans ?_
  rw [pay4_apply]
  by_cases h : r.val = 0 ∧ l.val < 19
  · rw [dif_pos h, dif_pos h, blkD_eq]
  · rw [dif_neg h, dif_neg h]

/-- A running sum over an entry's points: at a reset it is the point's own addend, -/
theorem run_reset (f : ℕ → EReal) (n : ℕ) (h0 : n % 8 = 0) :
    ∑ s ∈ Finset.range (n % 8 + 1), f (8 * (n / 8) + s) = f n := by
  rw [h0, zero_add, Finset.sum_range_one, Nat.add_zero]
  exact congrArg f (by omega)

/-- and elsewhere the sum so far plus the point's addend. -/
theorem run_step (f : ℕ → EReal) (n : ℕ) (h0 : ¬(n + 1) % 8 = 0) :
    ∑ s ∈ Finset.range ((n + 1) % 8 + 1), f (8 * ((n + 1) / 8) + s)
      = (∑ s ∈ Finset.range (n % 8 + 1), f (8 * (n / 8) + s)) + f (n + 1) := by
  have e1 : (n + 1) % 8 = n % 8 + 1 := by omega
  have e2 : (n + 1) / 8 = n / 8 := by omega
  rw [e1, e2, Finset.sum_range_succ]
  exact congrArg (fun z => _ + f z) (by omega)

/-- After point `n` output 2's tile holds, in row 0's first 19 lanes, the sum of the addends of the entry's points so far. -/
theorem tile2_run (c : Dev nD) : ∀ (n : ℕ) (hn : n < cfg0.N) (r : Fin 8) (l : Fin 128),
    (outsAt0 m c n hn).1 (ix3 0 r l)
      = if h : r.val = 0 ∧ l.val < 19 then
          ∑ s ∈ Finset.range (n % 8 + 1), ptN (Xof m c) (Tof m c) ⟨l.val, h.2⟩ (8 * (n / 8) + s) else 0
  | 0, hn, r, l => by
    refine (tile2_A m c ⟨0, hn⟩ rfl r l).trans ?_
    by_cases h : r.val = 0 ∧ l.val < 19
    · rw [dif_pos h, dif_pos h]
      exact (run_reset (ptN (Xof m c) (Tof m c) ⟨l.val, h.2⟩) 0 rfl).symm
    · rw [dif_neg h, dif_neg h]
  | n + 1, hn, r, l => by
    by_cases h0 : (n + 1) % 8 = 0
    · refine (tile2_A m c ⟨n + 1, hn⟩ h0 r l).trans ?_
      by_cases h : r.val = 0 ∧ l.val < 19
      · rw [dif_pos h, dif_pos h]
        exact (run_reset (ptN (Xof m c) (Tof m c) ⟨l.val, h.2⟩) (n + 1) h0).symm
      · rw [dif_neg h, dif_neg h]
    · refine (tile2_B m c ⟨n + 1, hn⟩ h0 r l).trans ?_
      show (outsAt0 m c n (Nat.lt_of_succ_lt hn)).1 (ix3 0 r l) + _ = _
      rw [tile2_run c n (Nat.lt_of_succ_lt hn) r l]
      by_cases h : r.val = 0 ∧ l.val < 19
      · rw [dif_pos h, dif_pos h, dif_pos h]
        exact (run_step (ptN (Xof m c) (Tof m c) ⟨l.val, h.2⟩) n h0).symm
      · rw [dif_neg h, dif_neg h, dif_neg h, add_zero]

theorem tile3_run (c : Dev nD) : ∀ (n : ℕ) (hn : n < cfg0.N) (r : Fin 8) (l : Fin 128),
    (outsAt0 m c n hn).2 (ix3 0 r l)
      = if h : r.val = 0 ∧ l.val < 19 then
          ∑ s ∈ Finset.range (n % 8 + 1), ptD (Tof m c) ⟨l.val, h.2⟩ (8 * (n / 8) + s) else 0
  | 0, hn, r, l => by
    refine (tile3_A m c ⟨0, hn⟩ rfl r l).trans ?_
    by_cases h : r.val = 0 ∧ l.val < 19
    · rw [dif_pos h, dif_pos h]
      exact (run_reset (ptD (Tof m c) ⟨l.val, h.2⟩) 0 rfl).symm
    · rw [dif_neg h, dif_neg h]
  | n + 1, hn, r, l => by
    by_cases h0 : (n + 1) % 8 = 0
    · refine (tile3_A m c ⟨n + 1, hn⟩ h0 r l).trans ?_
      by_cases h : r.val = 0 ∧ l.val < 19
      · rw [dif_pos h, dif_pos h]
        exact (run_reset (ptD (Tof m c) ⟨l.val, h.2⟩) (n + 1) h0).symm
      · rw [dif_neg h, dif_neg h]
    · refine (tile3_B m c ⟨n + 1, hn⟩ h0 r l).trans ?_
      show (outsAt0 m c n (Nat.lt_of_succ_lt hn)).2 (ix3 0 r l) + _ = _
      rw [tile3_run c n (Nat.lt_of_succ_lt hn) r l]
      by_cases h : r.val = 0 ∧ l.val < 19
      · rw [dif_pos h, dif_pos h, dif_pos h]
        exact (run_step (ptD (Tof m c) ⟨l.val, h.2⟩) n h0).symm
      · rw [dif_neg h, dif_neg h, dif_neg h, add_zero]

/-! From the tiles to the arrays. -/

/-- The outputs' block index maps over the grid: point `t` holds entry `t / 8`'s tile. -/
theorem idx_out : ∀ t : Fin cfg0.N,
    win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

theorem emb2 (t : Fin cfg0.N) (r : Fin 8) (l : Fin 128) (b : Fin 8) (hb : b.val = t.val / 8) :
    ((cfg0.win 2).blk t).view.emb (ix3 0 r l : S1x8x128.Idx) = (ix3 b r l : S8x8x128.Idx) := by
  obtain ⟨e0, e1, e2, -, -, -⟩ := idx_out t
  funext a
  apply Fin.ext
  match a with
  | ⟨0, _⟩ => show win0_2.index t (0 : Fin 3) * 1 + 1 * 0 = b.val; omega
  | ⟨1, _⟩ => show win0_2.index t (1 : Fin 3) * 8 + 1 * r.val = r.val; omega
  | ⟨2, _⟩ => show win0_2.index t (2 : Fin 3) * 128 + 1 * l.val = l.val; omega

theorem emb3 (t : Fin cfg0.N) (r : Fin 8) (l : Fin 128) (b : Fin 8) (hb : b.val = t.val / 8) :
    ((cfg0.win 3).blk t).view.emb (ix3 0 r l : S1x8x128.Idx) = (ix3 b r l : S8x8x128.Idx) := by
  obtain ⟨-, -, -, e0, e1, e2⟩ := idx_out t
  funext a
  apply Fin.ext
  match a with
  | ⟨0, _⟩ => show win0_3.index t (0 : Fin 3) * 1 + 1 * 0 = b.val; omega
  | ⟨1, _⟩ => show win0_3.index t (1 : Fin 3) * 8 + 1 * r.val = r.val; omega
  | ⟨2, _⟩ => show win0_3.index t (2 : Fin 3) * 128 + 1 * l.val = l.val; omega

/-- What a point that writes output 2 back writes: its entry's block of the closed form. -/
theorem flushed2_eq (c : Dev nD) (t : Fin cfg0.N) (hf : (cfg0.win 2).flush t = true) :
    (dats m 0 c).flushed 2 t = ((cfg0.win 2).blk t).view.read (Elt Ideal) (G2 (Xof m c) (Tof m c)) := by
  have hN : t.val < 64 := lt_of_lt_of_eq t.isLt (show cfg0.N = 64 from N_0)
  have h7 : t.val % 8 = 7 := (flush0_2 t).mp hf
  show (cfg0.win 2).cut (grid0.coords t) ((dats m 0 c).after 2 t) = _
  rw [after0_2]
  refine funext fun (j : S1x8x128.Idx) => ?_
  obtain ⟨a, r, l, rfl⟩ : ∃ a r l, j = ix3 a r l := ⟨_, _, _, eq_ix3 j⟩
  obtain rfl : a = 0 := Subsingleton.elim _ _
  show (outsAt0 m c t.val t.isLt).1 (ix3 0 r l)
    = G2 (Xof m c) (Tof m c) (((cfg0.win 2).blk t).view.emb (ix3 0 r l : S1x8x128.Idx))
  rw [emb2 t r l ⟨t.val / 8, by omega⟩ rfl, tile2_run m c t.val t.isLt r l]
  show _ = g2 (Xof m c) (Tof m c) ⟨t.val / 8, _⟩ r l
  unfold g2
  by_cases h : r.val = 0 ∧ l.val < 19
  · rw [dif_pos h, dif_pos h, h7]
    exact sum_ptN (Xof m c) (Tof m c) ⟨l.val, h.2⟩ ⟨t.val / 8, by omega⟩
  · rw [dif_neg h, dif_neg h]

theorem flushed3_eq (c : Dev nD) (t : Fin cfg0.N) (hf : (cfg0.win 3).flush t = true) :
    (dats m 0 c).flushed 3 t = ((cfg0.win 3).blk t).view.read (Elt Ideal) (G3 (Tof m c)) := by
  have hN : t.val < 64 := lt_of_lt_of_eq t.isLt (show cfg0.N = 64 from N_0)
  have h7 : t.val % 8 = 7 := (flush0_3 t).mp hf
  show (cfg0.win 3).cut (grid0.coords t) ((dats m 0 c).after 3 t) = _
  rw [after0_3]
  refine funext fun (j : S1x8x128.Idx) => ?_
  obtain ⟨a, r, l, rfl⟩ : ∃ a r l, j = ix3 a r l := ⟨_, _, _, eq_ix3 j⟩
  obtain rfl : a = 0 := Subsingleton.elim _ _
  show (outsAt0 m c t.val t.isLt).2 (ix3 0 r l)
    = G3 (Tof m c) (((cfg0.win 3).blk t).view.emb (ix3 0 r l : S1x8x128.Idx))
  rw [emb3 t r l ⟨t.val / 8, by omega⟩ rfl, tile3_run m c t.val t.isLt r l]
  show _ = g3 (Tof m c) ⟨t.val / 8, _⟩ r l
  unfold g3
  by_cases h : r.val = 0 ∧ l.val < 19
  · rw [dif_pos h, dif_pos h, h7]
    exact sum_ptD (Tof m c) ⟨l.val, h.2⟩ ⟨t.val / 8, by omega⟩
  · rw [dif_neg h, dif_neg h]

/-- Entry (b, r, l) of an output array lies in the block of point `8 b + 7`, which writes it back. -/
theorem cover2 (i : S8x8x128.Idx) :
    ∃ t : Fin cfg0.N, (cfg0.win 2).flush t = true ∧ i ∈ ((cfg0.win 2).blk t).view.set := by
  have h0 : (i 0).val < 8 := (i 0).isLt
  have h1 : (i 1).val < 8 := (i 1).isLt
  have h2 : (i 2).val < 128 := (i 2).isLt
  have hlt : 8 * (i 0).val + 7 < cfg0.N := by rw [show cfg0.N = 64 from N_0]; omega
  refine ⟨⟨8 * (i 0).val + 7, hlt⟩, (flush0_2 _).mpr (by show (8 * (i 0).val + 7) % 8 = 7; omega), ?_⟩
  obtain ⟨e0, e1, e2, -, -, -⟩ := idx_out ⟨8 * (i 0).val + 7, hlt⟩
  have ev : (⟨8 * (i 0).val + 7, hlt⟩ : Fin cfg0.N).val = 8 * (i 0).val + 7 := rfl
  show i ∈ ((View.whole main_v0_0).slice (win0_2.rect ⟨8 * (i 0).val + 7, hlt⟩)).set
  rw [View.set_slice_whole, Rect.mem_set_unit]
  intro a
  match a with
  | ⟨0, _⟩ =>
    show win0_2.index ⟨8 * (i 0).val + 7, hlt⟩ (0 : Fin 3) * 1 ≤ (i 0).val
      ∧ (i 0).val < win0_2.index ⟨8 * (i 0).val + 7, hlt⟩ (0 : Fin 3) * 1 + 1
    omega
  | ⟨1, _⟩ =>
    show win0_2.index ⟨8 * (i 0).val + 7, hlt⟩ (1 : Fin 3) * 8 ≤ (i 1).val
      ∧ (i 1).val < win0_2.index ⟨8 * (i 0).val + 7, hlt⟩ (1 : Fin 3) * 8 + 8
    omega
  | ⟨2, _⟩ =>
    show win0_2.index ⟨8 * (i 0).val + 7, hlt⟩ (2 : Fin 3) * 128 ≤ (i 2).val
      ∧ (i 2).val < win0_2.index ⟨8 * (i 0).val + 7, hlt⟩ (2 : Fin 3) * 128 + 128
    omega

theorem cover3 (i : S8x8x128.Idx) :
    ∃ t : Fin cfg0.N, (cfg0.win 3).flush t = true ∧ i ∈ ((cfg0.win 3).blk t).view.set := by
  have h0 : (i 0).val < 8 := (i 0).isLt
  have h1 : (i 1).val < 8 := (i 1).isLt
  have h2 : (i 2).val < 128 := (i 2).isLt
  have hlt : 8 * (i 0).val + 7 < cfg0.N := by rw [show cfg0.N = 64 from N_0]; omega
  refine ⟨⟨8 * (i 0).val + 7, hlt⟩, (flush0_3 _).mpr (by show (8 * (i 0).val + 7) % 8 = 7; omega), ?_⟩
  obtain ⟨-, -, -, e0, e1, e2⟩ := idx_out ⟨8 * (i 0).val + 7, hlt⟩
  have ev : (⟨8 * (i 0).val + 7, hlt⟩ : Fin cfg0.N).val = 8 * (i 0).val + 7 := rfl
  show i ∈ ((View.whole main_v0_1).slice (win0_3.rect ⟨8 * (i 0).val + 7, hlt⟩)).set
  rw [View.set_slice_whole, Rect.mem_set_unit]
  intro a
  match a with
  | ⟨0, _⟩ =>
    show win0_3.index ⟨8 * (i 0).val + 7, hlt⟩ (0 : Fin 3) * 1 ≤ (i 0).val
      ∧ (i 0).val < win0_3.index ⟨8 * (i 0).val + 7, hlt⟩ (0 : Fin 3) * 1 + 1
    omega
  | ⟨1, _⟩ =>
    show win0_3.index ⟨8 * (i 0).val + 7, hlt⟩ (1 : Fin 3) * 8 ≤ (i 1).val
      ∧ (i 1).val < win0_3.index ⟨8 * (i 0).val + 7, hlt⟩ (1 : Fin 3) * 8 + 8
    omega
  | ⟨2, _⟩ =>
    show win0_3.index ⟨8 * (i 0).val + 7, hlt⟩ (2 : Fin 3) * 128 ≤ (i 2).val
      ∧ (i 2).val < win0_3.index ⟨8 * (i 0).val + 7, hlt⟩ (2 : Fin 3) * 128 + 128
    omega

/-- Output array 2 after the run. -/
theorem final2 (c : Dev nD) : (dats m 0 c).arrAt 2 cfg0.N = G2 (Xof m c) (Tof m c) :=
  (dats m 0 c).arrAt_eq_of_cover 2 (G2 (Xof m c) (Tof m c)) (flushed2_eq m c) fun i => cover2 i

/-- Output array 3 after the run. -/
theorem final3 (c : Dev nD) : (dats m 0 c).arrAt 3 cfg0.N = G3 (Tof m c) :=
  (dats m 0 c).arrAt_eq_of_cover 3 (G3 (Tof m c)) (flushed3_eq m c) fun i => cover3 i

end Cert.KernelIdeal.KV

end
-- ==== Proof.KTail.lean ====
/-
  The kernel program's result. After the region @main slices lane 0..18 of row 0 out of both arrays, sums over the
  batch, forms each class's weight from its count, and returns minus the weighted sum of log-probabilities over the
  weighted sum of counts: the loss with its sums grouped by class.
-/
import proofs.«406133_j55645596287217_3_alg».proof.Proof.Gen.KernelIdeal.Frame
import proofs.«406133_j55645596287217_3_alg».proof.Proof.KAccum
import Idealize.ShloMosaic.Lib.Pipeline.Value
import Idealize.ShloMosaic.Lib.StableHlo.Run
import Idealize.ShloMosaic.Lib.IdealHost
import Idealize.ShloMosaic.Lib.ValueIdxRank1
import Idealize.ShloMosaic.PureOps.Ideal.Laws

noncomputable section

namespace Cert.KernelIdeal.KV

open Cert.KernelIdeal Cert.KernelIdeal.Gen Cert.CBCE
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-! ## The chain after the region, as one function of the two output arrays -/

/-- Lanes 0 … 18 of row 0 of each batch entry's tile, as an [8, 19] array. -/
def lanes (A : S8x8x128.Idx → EReal) : S8x19.Idx → EReal :=
  shapeCast S8x19 (extractStridedSlice S8x1x19 ![0, 0, 0] A slices_S8x8x128_S8x1x19_0_0_0) shapeCasts_S8x1x19_S8x19

/-- Those lanes summed over the batch: one number per class. -/
def colSum (A : S8x8x128.Idx → EReal) : S19.Idx → EReal :=
  Host.reduceAdd (F := Ideal) (φ := .f32) (lanes A) (constant (F := Ideal) S_ .f32 0x00000000#32) reducesTo_S8x19_S19_d0 h_S_

/-- A scalar literal spread over the 19 classes. -/
def lit (b : BitVec 32) : S19.Idx → EReal := broadcastInDim S19 ![] bcast_S_S19 (constant (F := Ideal) S_ .f32 b)

/-- The classes' weights from their counts: k / (1 - β ^ d) where the count is positive, else 0. -/
def wts (D : S19.Idx → EReal) : S19.Idx → EReal :=
  select (cmpf (F := Ideal) (φ := .f32) .ogt D (lit 0x00000000#32))
    (Host.divf (F := Ideal) (φ := .f32) (lit 0x3A83126F#32)
      (subf (F := Ideal) (φ := .f32) (lit 0x3F800000#32) (Host.powf (F := Ideal) (φ := .f32) (lit 0x3F7FBE77#32) D)))
    (lit 0x00000000#32)

/-- A per-class array summed over the classes into a scalar. -/
def total (v : S19.Idx → EReal) : S_.Idx → EReal :=
  Host.reduceAdd (F := Ideal) (φ := .f32) v (constant (F := Ideal) S_ .f32 0x00000000#32) reducesTo_S19_S_d0 h_S_

/-- The host chain after the region, as a function of the two output arrays: minus the weighted sum of the first's
    class sums over the weighted sum of the second's. -/
def tail (A2 A3 : S8x8x128.Idx → EReal) : S_.Idx → EReal :=
  Host.divf (F := Ideal) (φ := .f32)
    (Host.negf (F := Ideal) (φ := .f32) (total (mulf (F := Ideal) (φ := .f32) (wts (colSum A3)) (colSum A2))))
    (total (mulf (F := Ideal) (φ := .f32) (wts (colSum A3)) (colSum A3)))

/-! ## The chain read entry by entry -/

/-- An entry of the [8, 19] array of lanes is the tile's entry in row 0 at that lane. -/
theorem lanes_apply (A : S8x8x128.Idx → EReal) (b : Fin 8) (k : Fin 19) :
    lanes A (ix2 b k) = A (ix3 b (0 : Fin 8) (⟨k.val, by omega⟩ : Fin 128)) := by
  unfold lanes
  refine (shapeCast_apply _ _ (ix2 b k) (ix3 b (0 : Fin 1) k) ?_).trans ?_
  · rw [Shape.rowMajor_val_three, Shape.rowMajor_val_two]
    show (b.val * 1 + 0) * 19 + k.val = b.val * 19 + k.val
    omega
  · exact extractStridedSlice_apply _ _ _ (ix3 b (0 : Fin 1) k) (ix3 b (0 : Fin 8) (⟨k.val, by omega⟩ : Fin 128))
      (fun a => match a with
        | ⟨0, _⟩ => (Nat.zero_add _).symm
        | ⟨1, _⟩ => (Nat.zero_add _).symm
        | ⟨2, _⟩ => (Nat.zero_add _).symm)

/-- The batch sum at class k is the sum over the batch of the tiles' row-0 entries at lane k. -/
theorem colSum_apply (A : S8x8x128.Idx → EReal) (k : Fin 19) :
    colSum A (ix1 k) = ∑ b : Fin 8, A (ix3 b (0 : Fin 8) (⟨k.val, by omega⟩ : Fin 128)) := by
  have h : S8x19.Reduces [0] S19 := by decide
  unfold colSum
  rw [hostReduceAdd_apply, Ideal.hostReduceAdd_single reducesTo_S8x19_S19_d0 h]
  show Ideal.ofBits .f32 0x00000000#32 + _ = _
  rw [Ideal.ofBits_zero_f32, zero_add]
  refine Finset.sum_congr rfl fun b _ => ?_
  have e : h.lift (ix1 k) b = ix2 b k := by
    funext a
    match a with
    | ⟨0, _⟩ => exact Fin.ext rfl
    | ⟨1, _⟩ => exact Fin.ext rfl
  rw [e]
  exact lanes_apply A b k

/-- The sum over the classes, class by class. -/
theorem total_apply (v : S19.Idx → EReal) (j : S_.Idx) : total v j = ∑ k : Fin 19, v (ix1 k) := by
  unfold total
  rw [hostReduceAdd_apply, Ideal.hostReduceAdd_total reducesTo_S19_S_d0 (fun b => b.elim0)]
  show Ideal.ofBits .f32 0x00000000#32 + _ = _
  rw [Ideal.ofBits_zero_f32, zero_add]
  exact (Equiv.sum_comp (idxEquiv1 (n := 19)).symm v).symm

/-- The weight chain read at a class is the weight of that class's count. -/
theorem wts_apply (D : S19.Idx → EReal) (i : S19.Idx) : wts D i = wgt (D i) := rfl

/-- With the two arrays at what the run leaves, the chain's result is the loss grouped by class. -/
theorem tail_final (X : SX.Idx → EReal) (T : ST.Idx → BitVec 32) : tail (G2 X T) (G3 T) = fun _ => lossK X T := by
  have hN : ∀ k : Fin 19, colSum (G2 X T) (ix1 k) = Nn X T k := fun k => by
    rw [colSum_apply]
    unfold Nn
    refine Finset.sum_congr rfl fun b _ => ?_
    show g2 X T b (0 : Fin 8) (⟨k.val, by omega⟩ : Fin 128) = _
    unfold g2
    rw [dif_pos ⟨rfl, k.isLt⟩]
  have hD : ∀ k : Fin 19, colSum (G3 T) (ix1 k) = Dn T k := fun k => by
    rw [colSum_apply]
    unfold Dn
    refine Finset.sum_congr rfl fun b _ => ?_
    show g3 T b (0 : Fin 8) (⟨k.val, by omega⟩ : Fin 128) = _
    unfold g3
    rw [dif_pos ⟨rfl, k.isLt⟩]
  funext j
  unfold tail lossK
  rw [hostDivf_apply]
  show Ideal.div (-(total _ j)) (total _ j) = _
  rw [total_apply, total_apply]
  refine congrArg₂ Ideal.div (congrArg Neg.neg (Finset.sum_congr rfl fun k _ => ?_)) (Finset.sum_congr rfl fun k _ => ?_)
  · show wts (colSum (G3 T)) (ix1 k) * colSum (G2 X T) (ix1 k) = _
    rw [wts_apply, hN, hD]
  · show wts (colSum (G3 T)) (ix1 k) * colSum (G3 T) (ix1 k) = _
    rw [wts_apply, hD]

/-! ## The result buffer after the run -/

/-- The chain's result buffer, from any contents of the two output arrays. -/
theorem after_tail (W : Valuation τ sig (Elt Ideal)) :
    (StableHlo.after (List.flatten [hostOps1 (F := Ideal), hostOps1_1, hostOps1_2]) W (Proc.devRef .tc main_v21) : S_.Idx → EReal)
      = tail (W (Proc.devRef .tc main_v0_0)) (W (Proc.devRef .tc main_v0_1)) := by
  simp only [hostOps1, hostOps1_1, hostOps1_2, List.flatten_cons, List.flatten_nil, List.append_nil, List.cons_append, List.nil_append]
  after_results_simp
  rfl

/-- After the region the result buffer holds the chain applied to what the run left in the two output arrays. -/
theorem tail_read (c : Dev nD) : (Pipeline.afterTail₀ cfgs (dats m) 0 (V0 m) [hostOps1, hostOps1_1, hostOps1_2] c main_v21 : S_.Idx → EReal)
    = tail ((dats m 0 c).arrAt 2 cfg0.N) ((dats m 0 c).arrAt 3 cfg0.N) := by
  have e2 := Pipeline.withArrays_arr spec0 launch0.win.arr_inj c (V0 m c) (fun w => (dats m 0 c).arrAt w (cfgs 0).N) 2
  have e3 := Pipeline.withArrays_arr spec0 launch0.win.arr_inj c (V0 m c) (fun w => (dats m 0 c).arrAt w (cfgs 0).N) 3
  unfold Pipeline.afterTail₀
  exact (after_tail _).trans (congrArg₂ tail e2 e3)

/-- The result buffer bypasses the region: it is unscoped and no window's array. -/
theorem v21_rest : main_v21 ∈ Pipeline.restRefs sig (cfgs 0).spec := Pipeline.mem_restRefs_of main_v21 rfl (by decide)

/-- The kernel program's run: its result is the class-grouped loss of its arguments, which end unchanged. -/
theorem kernel_run : θ_run defs (onTc (τ := τ) (main (F := Ideal))) ⟨m, fun _ => 0, ρ⟩ (fun r => ∀ c : Dev nD,
      r.2.mem ((c.tc : Thread nD τ).loc main_v21) = (fun _ => lossK (Xof m c) (Tof m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v21 v21_rest).trans ((tail_read m c).trans
        ((congrArg₂ tail (final2 m c) (final3 m c)).trans (tail_final (Xof m c) (Tof m c)))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.KV

end
-- ==== Proof.RefGen.lean ====
/-
  The reference program's operations read at an index; the modules that read the reference's result import this one.
-/
import proofs.«406133_j55645596287217_3_alg».proof.Proof.RefReadP
-- ==== Proof.RefLogp.lean ====
/-
  The reference's log-probability of each pixel's clipped class: log-softmax over the 19 classes (the logits less
  their maximum, less the log of the sum of the exponentials of those differences), read at the class the clipped
  label names. The clipped label is a class index, so the read is in range and the fill value of an out-of-range
  read is never taken.
-/
import proofs.«406133_j55645596287217_3_alg».proof.Proof.RefGen
import proofs.«406133_j55645596287217_3_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

namespace Cert.ReferenceIdeal.RV

open Cert.ReferenceIdeal Cert.ReferenceIdeal.Gen Cert.ReferenceIdeal.Read Cert.CBCE
open Idealize.ShloMosaic Idealize.ShloMosaic.TcCoe Idealize.ShloMosaic.ValueIdx Idealize.SL.Sem

/-! ## The log-softmax over the class axis -/

/-- The word `0xFF800000` is the f32 pattern of minus infinity: sign set, exponent all ones, fraction zero. -/
theorem negInf_eq : Ideal.ofBits .f32 0xFF800000#32 = (⊥ : EReal) := by
  have h1 : ((0xFF800000#32 : BitVec 32).extractLsb' 23 8).toNat = 2 ^ 8 - 1 := by decide
  have h2 : ((0xFF800000#32 : BitVec 32).extractLsb' 0 23).toNat = 0 := by decide
  have h3 : ((0xFF800000#32 : BitVec 32).extractLsb' (8 + 23) 1 == 1#1) = true := by decide
  simp only [Ideal.ofBits, Ideal.ieee, h1, h2, h3, if_true]

/-- The class-axis index over pixel `(b, y, x)` with class `k` inserted is `(b, k, y, x)`. -/
theorem lift_class (h : S8x19x512x1024.Reduces [1] S8x512x1024) (b : Fin 8) (y : Fin 512) (x : Fin 1024) (k : Fin 19) :
    h.lift (ix3 b y x) k = ix4 b k y x := by
  funext a
  match a with
  | ⟨0, _⟩ => rfl
  | ⟨1, _⟩ => rfl
  | ⟨2, _⟩ => rfl
  | ⟨3, _⟩ => rfl

/-- The reduction by maximum over the class axis, from minus infinity, is the largest of the 19 logits. -/
theorem rowmax_eq (X : SX.Idx → EReal) (b : Fin 8) (y : Fin 512) (x : Fin 1024) :
    val_main_call2_v0 (F := Ideal) X (ix3 b y x) = mx X b y x := by
  have h : S8x19x512x1024.Reduces [1] S8x512x1024 := by decide
  unfold val_main_call2_v0
  rw [Host.reduce_eq_fold_single (FloatOps.maximumf (F := Ideal) (φ := .f32)) X _
    reducesTo_S8x19x512x1024_S8x512x1024_d1 h h_S_ (ix3 b y x)]
  unfold mx
  show (Finset.univ : Finset (Fin 19)).fold max (Ideal.ofBits .f32 0xFF800000#32) _ = _
  rw [negInf_eq]
  refine Finset.fold_congr (fun k _ => ?_)
  show X (h.lift (ix3 b y x) k) = X (ix4 b k y x)
  rw [lift_class]

/-- The maximum of minus infinity and the row maximum is the row maximum. -/
theorem v2_eq (X : SX.Idx → EReal) (b : Fin 8) (y : Fin 512) (x : Fin 1024) :
    val_main_call2_v2 (F := Ideal) X (ix3 b y x) = mx X b y x := by
  rw [val_main_call2_v2_apply, val_main_call2_v1_apply, val_main_call2_cst_0_apply, rowmax_eq]
  show max (Ideal.ofBits .f32 0xFF800000#32) (mx X b y x) = mx X b y x
  rw [negInf_eq]
  exact max_eq_right bot_le

/-- The shifted logit: the logit less its pixel's maximum. -/
theorem v5_eq (X : SX.Idx → EReal) (b : Fin 8) (k : Fin 19) (y : Fin 512) (x : Fin 1024) :
    val_main_call2_v5 (F := Ideal) X (ix4 b k y x) = X (ix4 b k y x) - mx X b y x := by
  rw [val_main_call2_v5_apply, val_main_call2_v4_apply, val_main_call2_v3_apply]
  have hi : idx_main_call2_v3 (idx_main_call2_v4 (ix4 b k y x)) = ix3 b y x := by
    funext a
    match a with
    | ⟨0, _⟩ => rfl
    | ⟨1, _⟩ => rfl
    | ⟨2, _⟩ => rfl
  rw [hi, v2_eq]
  rfl

/-- The sum over the classes of the exponentials of the shifted logits. -/
theorem v7_eq (X : SX.Idx → EReal) (b : Fin 8) (y : Fin 512) (x : Fin 1024) :
    val_main_call2_v7 (F := Ideal) X (ix3 b y x) = ∑ k : Fin 19, Ideal.exp (X (ix4 b k y x) - mx X b y x) := by
  rw [val_main_call2_v7_apply, val_main_call2_cst_1_apply]
  show Ideal.ofBits .f32 0x00000000#32 + _ = _
  rw [Ideal.ofBits_zero_f32, zero_add]
  refine Finset.sum_congr rfl (fun k _ => ?_)
  have hi : idx_main_call2_v7 (ix3 b y x) k = ix4 b k y x := by
    funext a
    match a with
    | ⟨0, _⟩ => rfl
    | ⟨1, _⟩ => rfl
    | ⟨2, _⟩ => rfl
    | ⟨3, _⟩ => rfl
  rw [hi, val_main_call2_v6_apply, v5_eq]
  rfl

/-- The log-softmax at class `k` of pixel `(b, y, x)`: the shifted logit less the log of the sum of the exponentials. -/
theorem v30_eq (X : SX.Idx → EReal) (b : Fin 8) (k : Fin 19) (y : Fin 512) (x : Fin 1024) :
    val_main_v30 (F := Ideal) X (ix4 b k y x) = (X (ix4 b k y x) - mx X b y x) - lse X b y x := by
  rw [val_main_v30_apply, val_main_call2_v10_apply, val_main_call2_v9_apply, val_main_call2_v8_apply]
  have hi : idx_main_call2_v8 (idx_main_call2_v10 (ix4 b k y x)) = ix3 b y x := by
    funext a
    match a with
    | ⟨0, _⟩ => rfl
    | ⟨1, _⟩ => rfl
    | ⟨2, _⟩ => rfl
  rw [hi, v7_eq, v5_eq]
  rfl

/-! ## The clipped label, and the read along the class axis at it -/

/-- The clipped label word at a pixel: the signed minimum of 18 and the signed maximum of 0 and the label. -/
theorem v31_eq (T : ST.Idx → BitVec 32) (b : Fin 8) (y : Fin 512) (x : Fin 1024) :
    val_main_v31 (F := Ideal) T (ix3 b y x) = clw (T (ix3 b y x)) := by
  rw [val_main_v31_apply, val_main_call3_v4_apply, val_main_call3_v3_apply, val_main_c_11_apply,
    val_main_call3_v2_apply, val_main_call3_v1_apply, val_main_call3_v0_apply, val_main_c_10_apply]
  rfl

/-- The same word with a unit class axis put in. -/
theorem v32_eq (T : ST.Idx → BitVec 32) (b : Fin 8) (y : Fin 512) (x : Fin 1024) :
    val_main_v32 (F := Ideal) T (ix4 b (0 : Fin 1) y x) = clw (T (ix3 b y x)) := by
  rw [val_main_v32_apply]
  have hi : idx_main_v32 (ix4 b (0 : Fin 1) y x) = ix3 b y x := by
    funext a
    match a with
    | ⟨0, _⟩ => rfl
    | ⟨1, _⟩ => rfl
    | ⟨2, _⟩ => rfl
  rw [hi, v31_eq]

/-- A clipped word is below 2³¹, so it reads the same signed and unsigned. -/
theorem clw_small (t : BitVec 32) : (clw t).toNat < 2 ^ 31 := by
  have := clw_lt t
  omega

/-- A clipped word is not negative … -/
theorem slt_zero_clw (t : BitVec 32) : IntOp.cmpi .slt (clw t) 0#32 = 0#1 := by
  apply eq_zero_of_ne_one
  intro h
  have h' := (StableHlo.Predicate.slt_iff_toNat (clw_small t) (by decide)).mp h
  have h0 : (0#32 : BitVec 32).toNat = 0 := rfl
  omega

/-- … it is at least zero … -/
theorem sge_zero_clw (t : BitVec 32) : IntOp.cmpi .sge (clw t) 0#32 = 1#1 := by
  refine (StableHlo.Predicate.sge_iff_toNat (clw_small t) (by decide)).mpr ?_
  have h0 : (0#32 : BitVec 32).toNat = 0 := rfl
  omega

/-- … and at most 18. -/
theorem sle_top_clw (t : BitVec 32) : IntOp.cmpi .sle (clw t) 18#32 = 1#1 := by
  refine (StableHlo.Predicate.sle_iff_toNat (clw_small t) (by decide)).mpr ?_
  have h0 : (18#32 : BitVec 32).toNat = 18 := rfl
  have := clw_lt t
  omega

/-- The index normalised for a negative value (19 added when negative) is the clipped word itself. -/
theorem c4v4_eq (T : ST.Idx → BitVec 32) (b : Fin 8) (y : Fin 512) (x : Fin 1024) :
    val_main_call4_v4 (F := Ideal) T (ix4 b (0 : Fin 1) y x) = clw (T (ix3 b y x)) := by
  rw [val_main_call4_v4_apply, val_main_call4_v1_apply, v32_eq, val_main_call4_v0_apply, val_main_call4_c_apply,
    slt_zero_clw, select_zero]

/-- The start indices of the read: the clipped word, with a unit index-vector axis put in. -/
theorem c4v5_eq (T : ST.Idx → BitVec 32) (b : Fin 8) (y : Fin 512) (x : Fin 1024) :
    val_main_call4_v5 (F := Ideal) T (ix5 b (0 : Fin 1) y x (0 : Fin 1)) = clw (T (ix3 b y x)) := by
  rw [val_main_call4_v5_apply]
  have hy := y.isLt
  have hx := x.isLt
  have hi : idx_main_call4_v5 (ix5 b (0 : Fin 1) y x (0 : Fin 1)) = ix4 b (0 : Fin 1) y x := by
    funext a
    match a with
    | ⟨0, _⟩ =>
      exact Fin.ext (by
        show ((((b.val * 1 + 0) * 512 + y.val) * 1024 + x.val) * 1 + 0) / 524288 = b.val
        omega)
    | ⟨1, _⟩ => rfl
    | ⟨2, _⟩ =>
      exact Fin.ext (by
        show ((((b.val * 1 + 0) * 512 + y.val) * 1024 + x.val) * 1 + 0) / 1024 % 512 = y.val
        omega)
    | ⟨3, _⟩ =>
      exact Fin.ext (by
        show ((((b.val * 1 + 0) * 512 + y.val) * 1024 + x.val) * 1 + 0) % 1024 = x.val
        omega)
  rw [hi, c4v4_eq]

/-- The unit-axis index over `(b, 0, y, x)` with `0` inserted on the last axis is `(b, 0, y, x, 0)`. -/
theorem lift_unit (h : S8x1x512x1024x1.Reduces [4] S8x1x512x1024) (b : Fin 8) (y : Fin 512) (x : Fin 1024) (k : Fin 1) :
    h.lift (ix4 b (0 : Fin 1) y x) k = ix5 b (0 : Fin 1) y x (0 : Fin 1) := by
  funext a
  match a with
  | ⟨0, _⟩ => rfl
  | ⟨1, _⟩ => rfl
  | ⟨2, _⟩ => rfl
  | ⟨3, _⟩ => rfl
  | ⟨4, _⟩ => exact Fin.ext (by have := k.isLt; show k.val = 0; omega)

/-- A fold of `and` from the bit 1 over bits that are all 1 is 1. -/
theorem fold_andi_one {ι : Type} [DecidableEq ι] (s : Finset ι) (f : ι → BitVec 1) (hf : ∀ k, f k = 1#1) :
    s.fold IntOp.andi 1#1 f = 1#1 := by
  induction s using Finset.induction_on with
  | empty => rfl
  | insert a s ha ih =>
    rw [Finset.fold_insert ha, ih, hf]
    decide

/-- The in-range test of the read (0 ≤ index ≤ 18, conjoined over the unit index-vector axis) holds everywhere. -/
theorem c4v12_eq (T : ST.Idx → BitVec 32) (b : Fin 8) (y : Fin 512) (x : Fin 1024) :
    val_main_call4_v12 (F := Ideal) T (ix4 b (0 : Fin 1) y x) = 1#1 := by
  have h : S8x1x512x1024x1.Reduces [4] S8x1x512x1024 := by decide
  unfold val_main_call4_v12
  rw [Host.reduce_eq_fold_single IntOp.andi _ _ reducesTo_S8x1x512x1024x1_S8x1x512x1024_d4 h h_S_
    (ix4 b (0 : Fin 1) y x)]
  refine fold_andi_one _ _ (fun k => ?_)
  have hl : h.lift (ix4 b (0 : Fin 1) y x) k = ix5 b (0 : Fin 1) y x (0 : Fin 1) := lift_unit h b y x k
  show val_main_call4_v11 (F := Ideal) T (h.lift (ix4 b (0 : Fin 1) y x) k) = 1#1
  rw [hl, val_main_call4_v11_apply, val_main_call4_v7_apply, val_main_call4_v10_apply, c4v5_eq,
    val_main_call4_v6_apply, val_main_call4_c_2_apply, val_main_call4_v9_apply, val_main_call4_v8_apply,
    val_main_call4_c_1_apply, sge_zero_clw, sle_top_clw]
  decide

/-- The read along the class axis: at `(b, 0, y, x)` it takes the log-softmax at the class the start index names,
    read signed and clamped into `[0, 18]` — the clipped label's class, the clamp changing nothing. -/
theorem c4v13_eq (X : SX.Idx → EReal) (T : ST.Idx → BitVec 32) (b : Fin 8) (y : Fin 512) (x : Fin 1024) :
    val_main_call4_v13 (F := Ideal) X T (ix4 b (0 : Fin 1) y x)
      = val_main_v30 (F := Ideal) X (ix4 b (cl (T (ix3 b y x))) y x) := by
  unfold val_main_call4_v13 Host.gather
  congr 1
  funext a
  refine Fin.ext ?_
  match a with
  | ⟨0, _⟩ =>
    have hb : (0 : Fin 4) ∈ gather_S8x19x512x1024_S8x1x512x1024x1_S8x1x512x1024_n_1_023_023_1_4_1111.operandBatchingDims := by decide
    show gather_S8x19x512x1024_S8x1x512x1024x1_S8x1x512x1024_n_1_023_023_1_4_1111.start (ix4 b (0 : Fin 1) y x) (val_main_call4_v5 (F := Ideal) T) (0 : Fin 4)
        + gather_S8x19x512x1024_S8x1x512x1024x1_S8x1x512x1024_n_1_023_023_1_4_1111.batchCoord (ix4 b (0 : Fin 1) y x) (0 : Fin 4)
        + gather_S8x19x512x1024_S8x1x512x1024x1_S8x1x512x1024_n_1_023_023_1_4_1111.offCoord (ix4 b (0 : Fin 1) y x) (0 : Fin 4) = b.val
    rw [GatherDims.start_batching _ _ _ _ hb,
      GatherDims.offCoord_eq_zero _ _ _ (fun hk => ((GatherDims.mem_sKept _ _).mp hk).2 hb)]
    show 0 + b.val + 0 = b.val
    omega
  | ⟨1, _⟩ =>
    have hc : (1 : Fin 4) ∈ gather_S8x19x512x1024_S8x1x512x1024x1_S8x1x512x1024_n_1_023_023_1_4_1111.collapsedSliceDims := by decide
    have hnb : (1 : Fin 4) ∉ gather_S8x19x512x1024_S8x1x512x1024x1_S8x1x512x1024_n_1_023_023_1_4_1111.operandBatchingDims := by decide
    have hm : (1 : Fin 4) ∈ gather_S8x19x512x1024_S8x1x512x1024x1_S8x1x512x1024_n_1_023_023_1_4_1111.startIndexMap := by decide
    show gather_S8x19x512x1024_S8x1x512x1024x1_S8x1x512x1024_n_1_023_023_1_4_1111.start (ix4 b (0 : Fin 1) y x) (val_main_call4_v5 (F := Ideal) T) (1 : Fin 4)
        + gather_S8x19x512x1024_S8x1x512x1024x1_S8x1x512x1024_n_1_023_023_1_4_1111.batchCoord (ix4 b (0 : Fin 1) y x) (1 : Fin 4)
        + gather_S8x19x512x1024_S8x1x512x1024x1_S8x1x512x1024_n_1_023_023_1_4_1111.offCoord (ix4 b (0 : Fin 1) y x) (1 : Fin 4) = (clw (T (ix3 b y x))).toNat
    rw [GatherDims.batchCoord_eq_zero _ _ _ hnb,
      GatherDims.offCoord_eq_zero _ _ _ (fun hk => ((GatherDims.mem_sKept _ _).mp hk).1 hc)]
    unfold GatherDims.start
    rw [dif_pos hm]
    have hsi : gather_S8x19x512x1024_S8x1x512x1024x1_S8x1x512x1024_n_1_023_023_1_4_1111.siIdx (ix4 b (0 : Fin 1) y x)
        ⟨List.idxOf (1 : Fin 4) gather_S8x19x512x1024_S8x1x512x1024x1_S8x1x512x1024_n_1_023_023_1_4_1111.startIndexMap, List.idxOf_lt_length_iff.2 hm⟩
          = ix5 b (0 : Fin 1) y x (0 : Fin 1) := by
      funext c
      refine Fin.ext ?_
      match c with
      | ⟨0, _⟩ => rfl
      | ⟨1, _⟩ => rfl
      | ⟨2, _⟩ => rfl
      | ⟨3, _⟩ => rfl
      | ⟨4, _⟩ => rfl
    rw [hsi, c4v5_eq, StableHlo.Predicate.toInt_eq_toNat_of_lt (clw_small (T (ix3 b y x))), Int.toNat_natCast]
    have hlt := clw_lt (T (ix3 b y x))
    show min (clw (T (ix3 b y x))).toNat (19 - 1) + 0 + 0 = (clw (T (ix3 b y x))).toNat
    omega
  | ⟨2, _⟩ =>
    have hb : (2 : Fin 4) ∈ gather_S8x19x512x1024_S8x1x512x1024x1_S8x1x512x1024_n_1_023_023_1_4_1111.operandBatchingDims := by decide
    show gather_S8x19x512x1024_S8x1x512x1024x1_S8x1x512x1024_n_1_023_023_1_4_1111.start (ix4 b (0 : Fin 1) y x) (val_main_call4_v5 (F := Ideal) T) (2 : Fin 4)
        + gather_S8x19x512x1024_S8x1x512x1024x1_S8x1x512x1024_n_1_023_023_1_4_1111.batchCoord (ix4 b (0 : Fin 1) y x) (2 : Fin 4)
        + gather_S8x19x512x1024_S8x1x512x1024x1_S8x1x512x1024_n_1_023_023_1_4_1111.offCoord (ix4 b (0 : Fin 1) y x) (2 : Fin 4) = y.val
    rw [GatherDims.start_batching _ _ _ _ hb,
      GatherDims.offCoord_eq_zero _ _ _ (fun hk => ((GatherDims.mem_sKept _ _).mp hk).2 hb)]
    show 0 + y.val + 0 = y.val
    omega
  | ⟨3, _⟩ =>
    have hb : (3 : Fin 4) ∈ gather_S8x19x512x1024_S8x1x512x1024x1_S8x1x512x1024_n_1_023_023_1_4_1111.operandBatchingDims := by decide
    show gather_S8x19x512x1024_S8x1x512x1024x1_S8x1x512x1024_n_1_023_023_1_4_1111.start (ix4 b (0 : Fin 1) y x) (val_main_call4_v5 (F := Ideal) T) (3 : Fin 4)
        + gather_S8x19x512x1024_S8x1x512x1024x1_S8x1x512x1024_n_1_023_023_1_4_1111.batchCoord (ix4 b (0 : Fin 1) y x) (3 : Fin 4)
        + gather_S8x19x512x1024_S8x1x512x1024x1_S8x1x512x1024_n_1_023_023_1_4_1111.offCoord (ix4 b (0 : Fin 1) y x) (3 : Fin 4) = x.val
    rw [GatherDims.start_batching _ _ _ _ hb,
      GatherDims.offCoord_eq_zero _ _ _ (fun hk => ((GatherDims.mem_sKept _ _).mp hk).2 hb)]
    show 0 + x.val + 0 = x.val
    omega

/-- The gathered log-probability at a pixel. -/
theorem logp_eq (X : SX.Idx → EReal) (T : ST.Idx → BitVec 32) (b : Fin 8) (y : Fin 512) (x : Fin 1024) :
    val_main_v34 (F := Ideal) X T (ix3 b y x) = lp X T b y x := by
  rw [val_main_v34_apply]
  have hy := y.isLt
  have hx := x.isLt
  have hi : idx_main_v34 (ix3 b y x) = ix4 b (0 : Fin 1) y x := by
    funext a
    match a with
    | ⟨0, _⟩ =>
      exact Fin.ext (by
        show ((b.val * 512 + y.val) * 1024 + x.val) / 524288 = b.val
        omega)
    | ⟨1, _⟩ => rfl
    | ⟨2, _⟩ =>
      exact Fin.ext (by
        show ((b.val * 512 + y.val) * 1024 + x.val) / 1024 % 512 = y.val
        omega)
    | ⟨3, _⟩ =>
      exact Fin.ext (by
        show ((b.val * 512 + y.val) * 1024 + x.val) % 1024 = x.val
        omega)
  rw [hi, val_main_v33_apply, c4v12_eq, select_one, c4v13_eq, v30_eq]
  rfl

end Cert.ReferenceIdeal.RV

end
-- ==== Proof.RefCount.lean ====
/-
  The reference's class histogram. Each pixel whose label is a class `0 … 18` adds one to bin `19 b + label` of a
  153-bin array (every other pixel adds to the spare bin 152); the first 152 bins are read as an [8, 19] table and summed
  over the batch. So class `c`'s total is the number of pixels whose label, read signed, is exactly `c`.
-/
import proofs.«406133_j55645596287217_3_alg».proof.Proof.RefGen
import proofs.«406133_j55645596287217_3_alg».proof.Proof.Spec
import proofs.«406133_j55645596287217_3_alg».proof.Proof.LibBlockSum
import Idealize.ShloMosaic.Lib.ValueIdx
import Idealize.ShloMosaic.Lib.ValueIdxRank1
import Idealize.ShloMosaic.Lib.Pipeline.Value
import Idealize.ShloMosaic.PureOps.Ideal.Laws
import Idealize.ShloMosaic.Lib.IdealHost
import Idealize.ShloMosaic.Lib.WordArith

noncomputable section

namespace Cert.ReferenceIdeal.RV

open Cert.ReferenceIdeal Cert.ReferenceIdeal.Gen Cert.ReferenceIdeal.Read Cert.CBCE
open Idealize.ShloMosaic Idealize.ShloMosaic.TcCoe Idealize.ShloMosaic.ValueIdx Idealize.SL.Sem

/-! ## Where an update of the scatter lands

The operand has one axis (153 bins), the updates one axis (the 4194304 pixels), and the scatter indices are a column
`[4194304, 1]`. Update `j` has no window coordinate, and its start on the one operand axis is the index word of row `j`,
read signed. So it lands on bin `i` exactly when that word, read signed, is `i`. -/

/-- The scatter's dimension numbers. -/
private abbrev dS := scatter_S153_S4194304x1_S4194304_n_0_0_1

/-- The one operand axis is an inserted window axis: an update has no window coordinate on it. -/
private theorem window_zero (j : S4194304.Idx) (a : Fin S153.rank) : dS.window j a = 0 := by
  have : a = (0 : Fin 1) := Subsingleton.elim _ _
  subst this
  unfold ScatterDims.window
  rw [dif_neg (by decide)]

/-- A rank-1 index has one coordinate. -/
private theorem coord_eq (j : S4194304.Idx) (x : Fin S4194304.rank) : (j x).val = (j 0).val := by
  have : x = (0 : Fin 1) := Subsingleton.elim _ _
  subst this; rfl

/-- Update `j` reads its start index at row `j` of the index column. -/
private theorem siIdx_eq (j : S4194304.Idx) (c : Fin dS.scatterDimsToOperandDims.length) :
    dS.siIdx j c = ix2 (j 0) (0 : Fin 1) := by
  funext b
  match b with
  | ⟨0, _⟩ =>
    apply Fin.ext
    unfold ScatterDims.siIdx
    rw [dif_neg (by show ¬ ((0 : Nat) = 1); omega)]
    unfold ScatterDims.siCoord
    exact coord_eq j _
  | ⟨1, _⟩ =>
    apply Fin.ext
    unfold ScatterDims.siIdx
    rw [dif_pos (by show (1 : Nat) = 1; rfl)]
    have hc : c.val < 1 := c.isLt
    show c.val = 0
    omega

/-- The start of update `j` on the operand's axis is the index word of row `j`, read signed. -/
private theorem start_eq (j : S4194304.Idx) (idx : IVec S4194304x1 32) (a : Fin S153.rank) :
    dS.start j idx a = (idx (ix2 (j 0) (0 : Fin 1))).toInt := by
  unfold ScatterDims.start
  have ha : a ∈ dS.scatterDimsToOperandDims := by
    have : a = (0 : Fin 1) := Subsingleton.elim _ _
    subst this; decide
  rw [dif_pos ha, siIdx_eq]
  rfl

/-- Update `j` lands on bin `i` exactly when its index word, read signed, is `i` (a word outside `0 … 152` lands
    nowhere, and is no bin's number). -/
private theorem resultIdx_iff (j : S4194304.Idx) (idx : IVec S4194304x1 32) (i : S153.Idx) :
    dS.resultIdx? j idx = some i ↔ (idx (ix2 (j 0) (0 : Fin 1))).toInt = ((i 0).val : Int) := by
  unfold ScatterDims.resultIdx?
  have hi : (i 0).val < 153 := (i 0).isLt
  constructor
  · intro h
    split at h
    · rename_i hh
      have h1 := congrFun (Option.some.inj h) 0
      have h2 := congrArg Fin.val h1
      have h3 := (hh 0).1
      rw [start_eq, window_zero] at h3
      simp only [start_eq, window_zero] at h2
      omega
    · exact absurd h (by simp)
  · intro h
    have hh : ∀ a, 0 ≤ dS.start j idx a + dS.window j a ∧ dS.start j idx a + dS.window j a < S153.size a := by
      intro a
      have : a = (0 : Fin 1) := Subsingleton.elim _ _
      subst this
      rw [start_eq, window_zero, h]
      show (0:Int) ≤ ((i 0).val : Int) + ((0:Nat):Int) ∧ ((i 0).val : Int) + ((0 : Nat) : Int) < ((153 : Nat) : Int)
      omega
    rw [dif_pos hh]
    congr 1
    funext a
    have : a = (0 : Fin 1) := Subsingleton.elim _ _
    subst this
    apply Fin.ext
    simp only [start_eq, window_zero, h]
    omega

/-- The scatter-add at bin `i`: the operand's element plus the updates whose index word, read signed, is `i`. -/
private theorem scatter_read (x0 : S153.Idx → EReal) (idx : IVec S4194304x1 32) (u0 : S4194304.Idx → EReal) (i : S153.Idx) :
    Host.scatterAdd (F := Ideal) (φ := .f32) scatter_S153_S4194304x1_S4194304_n_0_0_1 x0 idx u0 i
      = x0 i + ∑ j : S4194304.Idx, if (idx (ix2 (j 0) (0 : Fin 1))).toInt = ((i 0).val : Int) then u0 j else 0 := by
  simp only [Host.scatterAdd, Ideal.hostScatterAdd_def]
  unfold Ideal.hostScatterAdd
  rw [Finset.sum_filter]
  refine congrArg (x0 i + ·) (Finset.sum_congr rfl fun j _ => ?_)
  exact if_congr (resultIdx_iff j idx i) rfl rfl

/-! ## The bins as counts -/

/-- Row `j` of the index column is the flat bin-number array at `j`. -/
private theorem v16_at (T : ST.Idx → BitVec 32) (j : S4194304.Idx) :
    val_main_v16 (F := Ideal) T (ix2 (j 0) (0 : Fin 1)) = val_main_v14 (F := Ideal) T j := by
  rw [val_main_v16_apply]
  exact congrArg _ (funext fun a => by
    have : a = (0 : Fin 1) := Subsingleton.elim _ _
    subst this; rfl)

/-- Bin `i` holds the number of pixels whose bin number, read signed, is `i`: the bins start at zero and every update
    is one. -/
private theorem counts_eq (T : ST.Idx → BitVec 32) (i : S153.Idx) :
    val_main_v17 (F := Ideal) T i
      = ∑ j : S4194304.Idx, if (val_main_v14 (F := Ideal) T j).toInt = ((i 0).val : Int) then (1 : EReal) else 0 := by
  unfold val_main_v17
  rw [scatter_read, val_main_v15_apply, val_main_cst_3_apply, Ideal.ofBits_def, Ideal.ofBits_zero_f32, zero_add]
  refine Finset.sum_congr rfl fun j _ => ?_
  rw [v16_at, val_main_v13_apply, val_main_cst_apply, Ideal.ofBits_def, Ideal.ofBits_one_f32]

/-! ## A pixel's bin number

For batch entry `b < 8` and label word `t`: `19 b + t` when `0 ≤ t < 19` (signed), else `152`. The 32-bit product and sum
stay far below `2³¹`, so they are the integers' product and sum. Since `19 b + t ≤ 151`, the bin number is `19 b' + c`
(with `b' < 8`, `c < 19`) exactly when `t = c` and `b = b'`. -/

/-- The bin the pixel of batch entry `b` with label word `t` adds to. -/
private def seg (b : Nat) (t : BitVec 32) : BitVec 32 :=
  Scalar.select (IntOp.andi (IntOp.cmpi .sge t 0#32) (IntOp.cmpi .slt t 19#32))
    (IntOp.addi (IntOp.muli (BitVec.ofNat 32 b) 19#32) t) 152#32

/-- The two signed comparisons and their conjunction select on `0 ≤ t < 19`. -/
private theorem seg_eq (b : Nat) (t : BitVec 32) :
    seg b t = if (0 ≤ t.toInt ∧ t.toInt < 19) then BitVec.ofNat 32 b * 19#32 + t else 152#32 := by
  have h0 : (0#32 : BitVec 32).toInt = 0 := by decide
  have h19 : (19#32 : BitVec 32).toInt = 19 := by decide
  unfold seg Scalar.select IntOp.cmpi IntOp.addi IntOp.muli
  rw [WordArith.andi_ofBool]
  refine if_congr ?_ rfl rfl
  rw [WordArith.ofBool_eq_numeral_one_iff]
  simp only [Bool.and_eq_true, BitVec.sle, BitVec.slt, decide_eq_true_eq, h0, h19]

/-- The bin number as an integer: no 32-bit overflow, since `19 b + t < 19 · 8`. -/
private theorem seg_toInt (b : Nat) (hb : b < 8) (t : BitVec 32) :
    (seg b t).toInt = if (0 ≤ t.toInt ∧ t.toInt < 19) then (b : Int) * 19 + t.toInt else 152 := by
  rw [seg_eq]
  split
  · rename_i h
    have hbI : (BitVec.ofNat 32 b).toInt = (b : Int) := WordArith.toInt_ofNat_small b (by omega)
    have h19 : (19#32 : BitVec 32).toInt = 19 := by decide
    have hm : (BitVec.ofNat 32 b * 19#32).toInt = (b : Int) * 19 := by
      rw [WordArith.toInt_mul_of_bounds _ _ (by rw [hbI, h19]; omega) (by rw [hbI, h19]; omega), hbI, h19]
    rw [WordArith.toInt_add_of_bounds _ _ (by rw [hm]; omega) (by rw [hm]; omega), hm]
  · decide

/-- The pixel adds to bin `19 b' + c` exactly when its label is `c` and its batch entry is `b'`: division with
    remainder by 19 is unique, and the spare bin `152 = 19 · 8` is none of these. -/
private theorem seg_hit_iff (b b' : Nat) (hb : b < 8) (hb' : b' < 8) (c : Nat) (hc : c < 19) (t : BitVec 32) :
    (seg b t).toInt = ((b' * 19 + c : Nat) : Int) ↔ (t.toInt = (c : Int) ∧ b' = b) := by
  rw [seg_toInt b hb]
  split
  · push_cast; constructor <;> intro h <;> omega
  · push_cast; constructor <;> intro h <;> omega

/-- Over the eight rows of the table, a pixel is counted in column `c` once if its label is `c`, and not at all
    otherwise. -/
private theorem sum_hits (b : Nat) (hb : b < 8) (c : Fin 19) (t : BitVec 32) :
    (∑ k : Fin 8, if (seg b t).toInt = ((k.val * 19 + c.val : Nat) : Int) then (1 : EReal) else 0)
      = if t.toInt = (c.val : Int) then 1 else 0 := by
  have h : ∀ k : Fin 8, ((seg b t).toInt = ((k.val * 19 + c.val : Nat) : Int)) ↔ (t.toInt = (c.val : Int) ∧ k = ⟨b, hb⟩) := by
    intro k
    rw [seg_hit_iff b k.val hb k.isLt c.val c.isLt t]
    constructor
    · rintro ⟨h1, h2⟩; exact ⟨h1, Fin.ext h2⟩
    · rintro ⟨h1, h2⟩; exact ⟨h1, congrArg Fin.val h2⟩
  simp only [h]
  by_cases ht : t.toInt = (c.val : Int)
  · simp only [ht, true_and, Finset.sum_ite_eq', Finset.mem_univ, if_true]
  · simp only [ht, false_and, if_false, Finset.sum_const_zero]

/-! ## The class total as a sum over the flat pixels -/

/-- The bin-number array at `(b, p)` is the bin of batch entry `b` and the label at flat position `p` of that entry. -/
private theorem v12_at (T : ST.Idx → BitVec 32) (i : S8x524288.Idx) :
    val_main_v12 (F := Ideal) T i = seg (i 0).val (T (idx_main_v0 i)) := by
  simp only [val_main_v12_apply, val_main_v5_apply, val_main_v2_apply, val_main_v4_apply, val_main_v11_apply,
    val_main_v10_apply, val_main_v9_apply, val_main_v7_apply, val_main_v6_apply, val_main_v8_apply,
    val_main_c_1_apply, val_main_v0_apply, val_main_v1_apply, val_main_c_apply, val_main_v3_apply,
    val_main_c_0_apply, val_main_call0_v1_apply, val_main_call0_v0_apply, val_main_c_2_apply]
  rfl

/-- Flat pixel `j` is counted in column `c` of exactly one row if its label is `c`, else in none. -/
private theorem pixel_hits (T : ST.Idx → BitVec 32) (c : Fin 19) (j : S4194304.Idx) :
    (∑ k : Fin 8, if (val_main_v14 (F := Ideal) T j).toInt = ((k.val * 19 + c.val : Nat) : Int) then (1 : EReal) else 0)
      = if (T (idx_main_v0 (idx_main_v14 j))).toInt = (c.val : Int) then 1 else 0 := by
  rw [val_main_v14_apply, v12_at]
  exact sum_hits _ (idx_main_v14 j 0).isLt c _

/-- Column `c` of the table summed over its rows: exchange the sum over the rows with the sum over the pixels. -/
private theorem total_as_pixels (T : ST.Idx → BitVec 32) (c : Fin 19) :
    val_main_v20 (F := Ideal) T (ix1 c)
      = ∑ j : S4194304.Idx, if (T (idx_main_v0 (idx_main_v14 j))).toInt = (c.val : Int) then (1 : EReal) else 0 := by
  rw [val_main_v20_apply, val_main_cst_4_apply, Ideal.ofBits_def, Ideal.ofBits_zero_f32, zero_add]
  have hk : ∀ k : Fin 8, val_main_v19 (F := Ideal) T (idx_main_v20 (ix1 c) k)
      = ∑ j : S4194304.Idx, if (val_main_v14 (F := Ideal) T j).toInt = ((k.val * 19 + c.val : Nat) : Int) then (1 : EReal) else 0 := by
    intro k
    rw [val_main_v19_apply, val_main_v18_apply, counts_eq]
  rw [Finset.sum_congr rfl fun k _ => hk k, Finset.sum_comm]
  exact Finset.sum_congr rfl fun j _ => pixel_hits T c j

/-! ## From the flat pixels to (batch entry, row, column)

Flat position `n = (b · 512 + y) · 1024 + x = b · 524288 + (y · 1024 + x)` is the pixel `(b, y, x)`: split the 4194304
positions into 8 blocks of 524288, and each block into 512 rows of 1024. -/

/-- The two reshapes send flat position `b · 524288 + (y · 1024 + x)` to the pixel `(b, y, x)`. -/
private theorem pix_eq (b : Fin 8) (y : Fin 512) (x : Fin 1024) (h : b.val * 524288 + (y.val * 1024 + x.val) < 4194304) :
    idx_main_v0 (idx_main_v14 (ix1 (⟨b.val * 524288 + (y.val * 1024 + x.val), h⟩ : Fin 4194304))) = ix3 b y x := by
  have hb := b.isLt
  have hy := y.isLt
  have hx := x.isLt
  funext a
  match a with
  | ⟨0, _⟩ =>
    apply Fin.ext
    show ((b.val * 524288 + (y.val * 1024 + x.val)) / 524288 * 524288 + (b.val * 524288 + (y.val * 1024 + x.val)) % 524288) / 524288 = b.val
    omega
  | ⟨1, _⟩ =>
    apply Fin.ext
    show ((b.val * 524288 + (y.val * 1024 + x.val)) / 524288 * 524288 + (b.val * 524288 + (y.val * 1024 + x.val)) % 524288) / 1024 % 512 = y.val
    omega
  | ⟨2, _⟩ =>
    apply Fin.ext
    show ((b.val * 524288 + (y.val * 1024 + x.val)) / 524288 * 524288 + (b.val * 524288 + (y.val * 1024 + x.val)) % 524288) % 1024 = x.val
    omega

/-- A sum over the flat pixels is the triple sum over batch entry, row and column. -/
private theorem sum_pixels (f : ST.Idx → EReal) :
    ∑ j : S4194304.Idx, f (idx_main_v0 (idx_main_v14 j)) = ∑ b : Fin 8, ∑ y : Fin 512, ∑ x : Fin 1024, f (ix3 b y x) := by
  have e1 : ∑ j : S4194304.Idx, f (idx_main_v0 (idx_main_v14 j))
      = ∑ n : Fin 4194304, f (idx_main_v0 (idx_main_v14 (ix1 n))) :=
    ((idxEquiv1 (n := 4194304)).symm.sum_comp (fun j => f (idx_main_v0 (idx_main_v14 j)))).symm
  have e2 : ∑ n : Fin 4194304, f (idx_main_v0 (idx_main_v14 (ix1 n)))
      = ∑ b : Fin 8, ∑ r : Fin 524288,
          f (idx_main_v0 (idx_main_v14 (ix1 (⟨b.val * 524288 + r.val, Cert.LibBlockSum.idx_lt b r⟩ : Fin 4194304)))) :=
    Cert.LibBlockSum.sum_blocks 8 524288 (fun n => f (idx_main_v0 (idx_main_v14 (ix1 n))))
  rw [e1, e2]
  refine Finset.sum_congr rfl fun b _ => ?_
  have e3 := Cert.LibBlockSum.sum_blocks 512 1024 (fun r : Fin (512 * 1024) =>
    f (idx_main_v0 (idx_main_v14 (ix1 (⟨b.val * 524288 + r.val, Cert.LibBlockSum.idx_lt (a := 8) (b := 524288) b r⟩ : Fin 4194304)))))
  refine e3.trans ?_
  refine Finset.sum_congr rfl fun y _ => Finset.sum_congr rfl fun x _ => ?_
  exact congrArg f (pix_eq b y x _)

/-- The reference's per-class total is the histogram count. -/
theorem total_eq (T : ST.Idx → BitVec 32) (c : Fin 19) :
    val_main_v20 (F := Ideal) T (ix1 c) = Dr T c := by
  rw [total_as_pixels]
  exact sum_pixels (fun p => if (T p).toInt = (c.val : Int) then 1 else 0)

end Cert.ReferenceIdeal.RV

end
-- ==== Proof.RefWeight.lean ====
/-
  The reference's per-pixel weight: the class weight of the pixel's clipped label (formed from that class's histogram
  total) times the pixel's validity.
-/
import proofs.«406133_j55645596287217_3_alg».proof.Proof.RefGen
import proofs.«406133_j55645596287217_3_alg».proof.Proof.RefCount
import Idealize.ShloMosaic.Lib.ValueIdx
import Idealize.ShloMosaic.Lib.Pipeline.Value
import Idealize.ShloMosaic.PureOps.Ideal.Laws

noncomputable section

namespace Cert.ReferenceIdeal.RV

open Cert.ReferenceIdeal Cert.ReferenceIdeal.Gen Cert.ReferenceIdeal.Read Cert.CBCE
open Idealize.ShloMosaic Idealize.ShloMosaic.TcCoe Idealize.ShloMosaic.ValueIdx Idealize.SL.Sem

/-- The class-weight vector at class `c` is the weight of that class's histogram total. -/
theorem weight_eq (T : ST.Idx → BitVec 32) (c : Fin 19) :
    val_main_v29 (F := Ideal) T (ix1 c) = wgt (Dr T c) := by
  rw [val_main_v29_apply, val_main_v28_apply, val_main_v26_apply, val_main_v25_apply, val_main_v24_apply,
    val_main_v23_apply, val_main_v22_apply, val_main_v21_apply, val_main_v27_apply, val_main_call1_v1_apply, total_eq]
  rfl

/-- The clipped label at a pixel. -/
theorem clip_eq (T : ST.Idx → BitVec 32) (b : Fin 8) (y : Fin 512) (x : Fin 1024) :
    val_main_v31 (F := Ideal) T (ix3 b y x) = clw (T (ix3 b y x)) := by
  rw [val_main_v31_apply, val_main_call3_v4_apply, val_main_call3_v2_apply, val_main_call3_v1_apply]
  rfl

/-- A clipped word lies in `[0, 18]`, so its signed reading is its natural value. -/
theorem toInt_clw (t : BitVec 32) : (clw t).toInt = ((clw t).toNat : Int) := by
  have h := clw_lt t
  have e := BitVec.toInt_eq_toNat_cond (clw t)
  split at e <;> omega

/-- A clipped word is not below zero, read signed. -/
theorem clw_not_neg (t : BitVec 32) : IntOp.cmpi .slt (clw t) 0#32 = 0#1 := by
  have hs : ¬ ((clw t).slt 0#32 = true) := by
    rw [BitVec.slt_iff_toInt_lt, toInt_clw]
    have h0 : (0#32 : BitVec 32).toInt = 0 := by decide
    rw [h0]; omega
  show BitVec.ofBool ((clw t).slt 0#32) = 0#1
  cases hb : (clw t).slt 0#32
  · rfl
  · exact absurd hb hs

/-- Wrapping a negative index around by the class count leaves a clipped label as it is. -/
theorem wrap_eq (T : ST.Idx → BitVec 32) (b : Fin 8) (y : Fin 512) (x : Fin 1024) :
    val_main_v42 (F := Ideal) T (ix3 b y x) = clw (T (ix3 b y x)) := by
  rw [val_main_v42_apply, val_main_v39_apply, val_main_v38_apply, clip_eq]
  show Scalar.select (IntOp.cmpi .slt (clw (T (ix3 b y x))) 0#32) _ _ = _
  rw [clw_not_neg, select_zero]

/-- The start index of the pixel's lookup is its clipped label. -/
theorem start_eq (T : ST.Idx → BitVec 32) (b : Fin 8) (y : Fin 512) (x : Fin 1024) :
    val_main_v43 (F := Ideal) T (ix4 b y x (0 : Fin 1)) = clw (T (ix3 b y x)) := by
  rw [val_main_v43_apply]
  have h : idx_main_v43 (ix4 b y x (0 : Fin 1)) = ix3 b y x :=
    funext fun a => Fin.ext (by match a with | ⟨0, _⟩ => rfl | ⟨1, _⟩ => rfl | ⟨2, _⟩ => rfl)
  rw [h, wrap_eq]

/-- A lookup in a 19-entry table at one start index per pixel reads the table at that index, read signed and clamped
    into `[0, 18]`. -/
theorem lookup_eq {α : Type} (xv : S19.Idx → α) (idx : IVec S8x512x1024x1 32) (b : Fin 8) (y : Fin 512) (x : Fin 1024)
    (k : Fin 19) (hk : min (idx (ix4 b y x (0 : Fin 1))).toInt.toNat 18 = k.val) :
    Host.gather gather_S19_S8x512x1024x1_S8x512x1024_n_0_n_n_0_3_1 xv idx (ix3 b y x) = xv (ix1 k) := by
  unfold Host.gather
  congr 1
  funext a
  obtain rfl : a = 0 := Subsingleton.elim _ _
  refine Fin.ext ?_
  show GatherDims.start gather_S19_S8x512x1024x1_S8x512x1024_n_0_n_n_0_3_1 (ix3 b y x) idx 0
    + GatherDims.batchCoord gather_S19_S8x512x1024x1_S8x512x1024_n_0_n_n_0_3_1 (ix3 b y x) 0
    + GatherDims.offCoord gather_S19_S8x512x1024x1_S8x512x1024_n_0_n_n_0_3_1 (ix3 b y x) 0 = k.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S19_S8x512x1024x1_S8x512x1024_n_0_n_n_0_3_1.startIndexMap from
    List.mem_singleton.mpr rfl)]
  have hsi : gather_S19_S8x512x1024x1_S8x512x1024_n_0_n_n_0_3_1.siIdx (ix3 b y x)
      ⟨List.idxOf (0 : Fin 1) gather_S19_S8x512x1024x1_S8x512x1024_n_0_n_n_0_3_1.startIndexMap,
        List.idxOf_lt_length_iff.2 (List.mem_singleton.mpr rfl)⟩ = ix4 b y x (0 : Fin 1) := by
    funext c; refine Fin.ext ?_
    match c with
    | ⟨0, _⟩ => rfl
    | ⟨1, _⟩ => rfl
    | ⟨2, _⟩ => rfl
    | ⟨3, _⟩ => rfl
  rw [hsi]
  exact hk

/-- The validity factor at a pixel: the comparison's bit, read as a number. -/
theorem valid_eq (T : ST.Idx → BitVec 32) (b : Fin 8) (y : Fin 512) (x : Fin 1024) :
    val_main_v37 (F := Ideal) T (ix3 b y x) = vd (T (ix3 b y x)) := by
  rw [val_main_v37_apply, val_main_v36_apply, val_main_v35_apply]
  show ((((BitVec.ofBool (T (ix3 b y x) != 4294967295#32)).toNat : ℕ) : ℝ) : EReal) = _
  unfold vd
  by_cases h : T (ix3 b y x) = 4294967295#32
  · rw [if_pos h, h]
    show (((0 : ℕ) : ℝ) : EReal) = 0
    rw [Nat.cast_zero, EReal.coe_zero]
  · rw [if_neg h, (bne_iff_ne).mpr h]
    show (((1 : ℕ) : ℝ) : EReal) = 1
    rw [Nat.cast_one, EReal.coe_one]

/-- The per-pixel weight. -/
theorem wv_eq (T : ST.Idx → BitVec 32) (b : Fin 8) (y : Fin 512) (x : Fin 1024) :
    val_main_v45 (F := Ideal) T (ix3 b y x) = wgt (Dr T (cl (T (ix3 b y x)))) * vd (T (ix3 b y x)) := by
  rw [val_main_v45_apply]
  show val_main_v44 (F := Ideal) T (ix3 b y x) * val_main_v37 (F := Ideal) T (ix3 b y x) = _
  rw [valid_eq]
  unfold val_main_v44
  rw [lookup_eq _ _ b y x (cl (T (ix3 b y x))) (by
    rw [start_eq, toInt_clw]
    have h := clw_lt (T (ix3 b y x))
    show min ((((clw (T (ix3 b y x))).toNat : ℕ) : Int)).toNat 18 = (clw (T (ix3 b y x))).toNat
    omega), weight_eq]

end Cert.ReferenceIdeal.RV

end
-- ==== Proof.RefValue.lean ====
/-
  The reference program's result: minus the sum over the pixels of weight times log-probability, over the sum of the
  weights — the loss with each pixel weighted.
-/
import proofs.«406133_j55645596287217_3_alg».proof.Proof.RefGen
import proofs.«406133_j55645596287217_3_alg».proof.Proof.RefLogp
import proofs.«406133_j55645596287217_3_alg».proof.Proof.RefWeight
import Idealize.ShloMosaic.Lib.ValueIdx
import Idealize.ShloMosaic.PureOps.Ideal.Laws

noncomputable section

namespace Cert.ReferenceIdeal.RV

open Cert.ReferenceIdeal Cert.ReferenceIdeal.Gen Cert.ReferenceIdeal.Read Cert.CBCE
open Idealize.ShloMosaic Idealize.ShloMosaic.TcCoe Idealize.ShloMosaic.ValueIdx Idealize.SL.Sem

/-- An index of a rank-3 array is the triple of its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over every index of a rank-3 array is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The reference's result as a function of its arguments. -/
theorem ref_value (X : SX.Idx → EReal) (T : ST.Idx → BitVec 32) :
    val_main_v50 (F := Ideal) X T = fun _ => lossR X T := by
  funext i
  rw [val_main_v50_apply, val_main_v48_apply, val_main_v47_apply, val_main_v49_apply,
    val_main_cst_15_apply, val_main_cst_16_apply]
  show Ideal.div (-(Ideal.ofBits .f32 0x00000000#32 + ∑ j : S8x512x1024.Idx, val_main_v46 (F := Ideal) X T j))
      (Ideal.ofBits .f32 0x00000000#32 + ∑ j : S8x512x1024.Idx, val_main_v45 (F := Ideal) T j) = lossR X T
  rw [Ideal.ofBits_zero_f32, zero_add, zero_add]
  -- each total over the pixels is the triple sum over batch entry, row and column
  have h46 : (∑ j : S8x512x1024.Idx, val_main_v46 (F := Ideal) X T j)
      = ∑ b : Fin 8, ∑ y : Fin 512, ∑ x : Fin 1024, val_main_v46 (F := Ideal) X T (ix3 b y x) :=
    sum_idx3 (n0 := 8) (n1 := 512) (n2 := 1024) (fun j => val_main_v46 (F := Ideal) X T j)
  have h45 : (∑ j : S8x512x1024.Idx, val_main_v45 (F := Ideal) T j)
      = ∑ b : Fin 8, ∑ y : Fin 512, ∑ x : Fin 1024, val_main_v45 (F := Ideal) T (ix3 b y x) :=
    sum_idx3 (n0 := 8) (n1 := 512) (n2 := 1024) (fun j => val_main_v45 (F := Ideal) T j)
  rw [h46, h45]
  -- at a pixel the product read is weight times log-probability, and the weight is the class weight times validity
  have hN : ∀ (b : Fin 8) (y : Fin 512) (x : Fin 1024), val_main_v46 (F := Ideal) X T (ix3 b y x)
      = (wgt (Dr T (cl (T (ix3 b y x)))) * vd (T (ix3 b y x))) * lp X T b y x := by
    intro b y x
    rw [val_main_v46_apply, wv_eq, logp_eq]
    rfl
  have hNs : (∑ b : Fin 8, ∑ y : Fin 512, ∑ x : Fin 1024, val_main_v46 (F := Ideal) X T (ix3 b y x))
      = ∑ b : Fin 8, ∑ y : Fin 512, ∑ x : Fin 1024,
          (wgt (Dr T (cl (T (ix3 b y x)))) * vd (T (ix3 b y x))) * lp X T b y x :=
    Finset.sum_congr rfl fun b _ => Finset.sum_congr rfl fun y _ => Finset.sum_congr rfl fun x _ => hN b y x
  have hDs : (∑ b : Fin 8, ∑ y : Fin 512, ∑ x : Fin 1024, val_main_v45 (F := Ideal) T (ix3 b y x))
      = ∑ b : Fin 8, ∑ y : Fin 512, ∑ x : Fin 1024, wgt (Dr T (cl (T (ix3 b y x)))) * vd (T (ix3 b y x)) :=
    Finset.sum_congr rfl fun b _ => Finset.sum_congr rfl fun y _ => Finset.sum_congr rfl fun x _ => wv_eq T b y x
  rw [hNs, hDs]
  unfold lossR
  rfl

end Cert.ReferenceIdeal.RV

end
-- ==== Proof.RefRun.lean ====
/-
  The reference program's run. Its @main is a straight line of host operations; every weakly fair execution ends with
  the result buffer at the last operation's value as a function of the two arguments, which no operation writes, and
  that value is the pixel-weighted loss.
-/
import proofs.«406133_j55645596287217_3_alg».proof.Proof.RefOps
import proofs.«406133_j55645596287217_3_alg».proof.Proof.RefValue
import Idealize.ShloMosaic.Lib.StableHlo.Run

noncomputable section

namespace Cert.ReferenceIdeal.RV

open Cert.ReferenceIdeal Cert.ReferenceIdeal.Gen Cert.ReferenceIdeal.Read Cert.CBCE
open Idealize.ShloMosaic Idealize.ShloMosaic.TcCoe Idealize.ShloMosaic.ValueIdx Idealize.SL.Sem Idealize.ShloMosaic.StableHlo

section Abstract

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The first stretch of the program: the labels' histogram over batch entry and class, summed over the batch, and the
    class weights read from it. -/
abbrev c1 : List (HloOp τ sig (Elt F)) :=
  [ reshape main_arg1 main_v0 rfl shapeCasts_S8x512x1024_S8x524288,
    nullary main_c (constantI S_ 32 0#32),
    unary main_c main_v1 (broadcastInDim S8x524288 ![] bcast_S_S8x524288 : (⟨S_, .i32⟩ : BufTy).Contents (Elt F) → (⟨S8x524288, .i32⟩ : BufTy).Contents (Elt F)),
    binary main_v0 main_v1 main_v2 (cmpi .sge : (⟨S8x524288, .i32⟩ : BufTy).Contents (Elt F) → (⟨S8x524288, .i32⟩ : BufTy).Contents (Elt F) → (⟨S8x524288, .i1⟩ : BufTy).Contents (Elt F)),
    nullary main_c_0 (constantI S_ 32 19#32),
    unary main_c_0 main_v3 (broadcastInDim S8x524288 ![] bcast_S_S8x524288 : (⟨S_, .i32⟩ : BufTy).Contents (Elt F) → (⟨S8x524288, .i32⟩ : BufTy).Contents (Elt F)),
    binary main_v0 main_v3 main_v4 (cmpi .slt : (⟨S8x524288, .i32⟩ : BufTy).Contents (Elt F) → (⟨S8x524288, .i32⟩ : BufTy).Contents (Elt F) → (⟨S8x524288, .i1⟩ : BufTy).Contents (Elt F)),
    binary main_v2 main_v4 main_v5 (andi : (⟨S8x524288, .i1⟩ : BufTy).Contents (Elt F) → (⟨S8x524288, .i1⟩ : BufTy).Contents (Elt F) → (⟨S8x524288, .i1⟩ : BufTy).Contents (Elt F)),
    nullary main_v6 (iotaInDim S8 32 0),
    unary main_v6 main_v7 (broadcastInDim S8x1 ![0] bcast_S8_S8x1_0 : (⟨S8, .i32⟩ : BufTy).Contents (Elt F) → (⟨S8x1, .i32⟩ : BufTy).Contents (Elt F)),
    nullary main_c_1 (constantI S_ 32 19#32),
    unary main_c_1 main_v8 (broadcastInDim S8x1 ![] bcast_S_S8x1 : (⟨S_, .i32⟩ : BufTy).Contents (Elt F) → (⟨S8x1, .i32⟩ : BufTy).Contents (Elt F)),
    binary main_v7 main_v8 main_v9 (muli : (⟨S8x1, .i32⟩ : BufTy).Contents (Elt F) → (⟨S8x1, .i32⟩ : BufTy).Contents (Elt F) → (⟨S8x1, .i32⟩ : BufTy).Contents (Elt F)),
    unary main_v9 main_v10 (broadcastInDim S8x524288 ![0, 1] bcast_S8x1_S8x524288_0_1 : (⟨S8x1, .i32⟩ : BufTy).Contents (Elt F) → (⟨S8x524288, .i32⟩ : BufTy).Contents (Elt F)),
    binary main_v10 main_v0 main_v11 (addi : (⟨S8x524288, .i32⟩ : BufTy).Contents (Elt F) → (⟨S8x524288, .i32⟩ : BufTy).Contents (Elt F) → (⟨S8x524288, .i32⟩ : BufTy).Contents (Elt F)),
    nullary main_c_2 (constantI S_ 32 152#32),
    TRef.unary (TRef.of (T := ⟨S_, .i32⟩) main_c_2) (TRef.of (T := ⟨S_, .i32⟩) main_call0_v0) id,
    TRef.unary (TRef.of (T := ⟨S_, .i32⟩) main_call0_v0) (TRef.of (T := ⟨S8x524288, .i32⟩) main_call0_v1) (broadcastInDim S8x524288 ![] bcast_S_S8x524288),
    TRef.ternary (TRef.of (T := ⟨S8x524288, .i1⟩) main_v5) (TRef.of (T := ⟨S8x524288, .i32⟩) main_v11) (TRef.of (T := ⟨S8x524288, .i32⟩) main_call0_v1) (TRef.of (T := ⟨S8x524288, .i32⟩) main_v12) select,
    nullary main_cst (constant S_ .f32 0x3F800000#32),
    unary main_cst main_v13 (broadcastInDim S4194304 ![] bcast_S_S4194304 : (⟨S_, .f32⟩ : BufTy).Contents (Elt F) → (⟨S4194304, .f32⟩ : BufTy).Contents (Elt F)),
    reshape main_v12 main_v14 rfl shapeCasts_S8x524288_S4194304,
    nullary main_cst_3 (constant S_ .f32 0x00000000#32),
    unary main_cst_3 main_v15 (broadcastInDim S153 ![] bcast_S_S153 : (⟨S_, .f32⟩ : BufTy).Contents (Elt F) → (⟨S153, .f32⟩ : BufTy).Contents (Elt F)),
    unary main_v14 main_v16 (broadcastInDim S4194304x1 ![0] bcast_S4194304_S4194304x1_0 : (⟨S4194304, .i32⟩ : BufTy).Contents (Elt F) → (⟨S4194304x1, .i32⟩ : BufTy).Contents (Elt F)),
    ternary main_v15 main_v16 main_v13 main_v17 ((fun x i u => Host.scatterAdd scatter_S153_S4194304x1_S4194304_n_0_0_1 x i u) : (⟨S153, .f32⟩ : BufTy).Contents (Elt F) → (⟨S4194304x1, .i32⟩ : BufTy).Contents (Elt F) → (⟨S4194304, .f32⟩ : BufTy).Contents (Elt F) → (⟨S153, .f32⟩ : BufTy).Contents (Elt F)),
    unary main_v17 main_v18 ((extractStridedSlice S152 ![0] · slices_S153_S152_0) : (⟨S153, .f32⟩ : BufTy).Contents (Elt F) → (⟨S152, .f32⟩ : BufTy).Contents (Elt F)),
    reshape main_v18 main_v19 rfl shapeCasts_S152_S8x19,
    nullary main_cst_4 (constant S_ .f32 0x00000000#32),
    binary main_v19 main_cst_4 main_v20 ((fun x v => Host.reduceAdd x v reducesTo_S8x19_S19_d0 h_S_) : (⟨S8x19, .f32⟩ : BufTy).Contents (Elt F) → (⟨S_, .f32⟩ : BufTy).Contents (Elt F) → (⟨S19, .f32⟩ : BufTy).Contents (Elt F)),
    nullary main_cst_5 (constant S_ .f32 0x3F7FBE77#32),
    unary main_cst_5 main_v21 (broadcastInDim S19 ![] bcast_S_S19 : (⟨S_, .f32⟩ : BufTy).Contents (Elt F) → (⟨S19, .f32⟩ : BufTy).Contents (Elt F)),
    binary main_v21 main_v20 main_v22 (Host.powf : (⟨S19, .f32⟩ : BufTy).Contents (Elt F) → (⟨S19, .f32⟩ : BufTy).Contents (Elt F) → (⟨S19, .f32⟩ : BufTy).Contents (Elt F)),
    nullary main_cst_6 (constant S_ .f32 0x3F800000#32),
    unary main_cst_6 main_v23 (broadcastInDim S19 ![] bcast_S_S19 : (⟨S_, .f32⟩ : BufTy).Contents (Elt F) → (⟨S19, .f32⟩ : BufTy).Contents (Elt F)),
    binary main_v23 main_v22 main_v24 (subf : (⟨S19, .f32⟩ : BufTy).Contents (Elt F) → (⟨S19, .f32⟩ : BufTy).Contents (Elt F) → (⟨S19, .f32⟩ : BufTy).Contents (Elt F)),
    nullary main_cst_7 (constant S_ .f32 0x3A83126F#32),
    unary main_cst_7 main_v25 (broadcastInDim S19 ![] bcast_S_S19 : (⟨S_, .f32⟩ : BufTy).Contents (Elt F) → (⟨S19, .f32⟩ : BufTy).Contents (Elt F)),
    binary main_v25 main_v24 main_v26 (Host.divf : (⟨S19, .f32⟩ : BufTy).Contents (Elt F) → (⟨S19, .f32⟩ : BufTy).Contents (Elt F) → (⟨S19, .f32⟩ : BufTy).Contents (Elt F)),
    nullary main_cst_8 (constant S_ .f32 0x00000000#32),
    unary main_cst_8 main_v27 (broadcastInDim S19 ![] bcast_S_S19 : (⟨S_, .f32⟩ : BufTy).Contents (Elt F) → (⟨S19, .f32⟩ : BufTy).Contents (Elt F)),
    binary main_v20 main_v27 main_v28 (cmpf (F := F) .ogt : (⟨S19, .f32⟩ : BufTy).Contents (Elt F) → (⟨S19, .f32⟩ : BufTy).Contents (Elt F) → (⟨S19, .i1⟩ : BufTy).Contents (Elt F)),
    nullary main_cst_9 (constant S_ .f32 0x00000000#32),
    TRef.unary (TRef.of (T := ⟨S_, .f32⟩) main_cst_9) (TRef.of (T := ⟨S_, .f32⟩) main_call1_v0) id,
    TRef.unary (TRef.of (T := ⟨S_, .f32⟩) main_call1_v0) (TRef.of (T := ⟨S19, .f32⟩) main_call1_v1) (broadcastInDim S19 ![] bcast_S_S19),
    TRef.ternary (TRef.of (T := ⟨S19, .i1⟩) main_v28) (TRef.of (T := ⟨S19, .f32⟩) main_v26) (TRef.of (T := ⟨S19, .f32⟩) main_call1_v1) (TRef.of (T := ⟨S19, .f32⟩) main_v29) select ]

/-- The second stretch: the log-softmax of the logits along the class axis. -/
abbrev c2 : List (HloOp τ sig (Elt F)) :=
  [ TRef.nullary (TRef.of (T := ⟨S_, .f32⟩) main_call2_cst) (constant S_ .f32 0xFF800000#32),
    TRef.binary (TRef.of (T := ⟨S8x19x512x1024, .f32⟩) main_arg0) (TRef.of (T := ⟨S_, .f32⟩) main_call2_cst) (TRef.of (T := ⟨S8x512x1024, .f32⟩) main_call2_v0) (fun x v => Host.reduce FloatOps.maximumf x v reducesTo_S8x19x512x1024_S8x512x1024_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8x512x1024, .f32⟩) main_call2_v1) (broadcastInDim S8x512x1024 ![] bcast_S_S8x512x1024),
    TRef.binary (TRef.of (T := ⟨S8x512x1024, .f32⟩) main_call2_v1) (TRef.of (T := ⟨S8x512x1024, .f32⟩) main_call2_v0) (TRef.of (T := ⟨S8x512x1024, .f32⟩) main_call2_v2) maximumf,
    TRef.unary (TRef.of (T := ⟨S8x512x1024, .f32⟩) main_call2_v2) (TRef.of (T := ⟨S8x1x512x1024, .f32⟩) main_call2_v3) (broadcastInDim S8x1x512x1024 ![0, 2, 3] bcast_S8x512x1024_S8x1x512x1024_0_2_3),
    TRef.unary (TRef.of (T := ⟨S8x1x512x1024, .f32⟩) main_call2_v3) (TRef.of (T := ⟨S8x19x512x1024, .f32⟩) main_call2_v4) (broadcastInDim S8x19x512x1024 ![0, 1, 2, 3] bcast_S8x1x512x1024_S8x19x512x1024_0_1_2_3),
    TRef.binary (TRef.of (T := ⟨S8x19x512x1024, .f32⟩) main_arg0) (TRef.of (T := ⟨S8x19x512x1024, .f32⟩) main_call2_v4) (TRef.of (T := ⟨S8x19x512x1024, .f32⟩) main_call2_v5) subf,
    TRef.unary (TRef.of (T := ⟨S8x19x512x1024, .f32⟩) main_call2_v5) (TRef.of (T := ⟨S8x19x512x1024, .f32⟩) main_call2_v6) Host.exp,
    TRef.nullary (TRef.of (T := ⟨S_, .f32⟩) main_call2_cst_1) (constant S_ .f32 0x00000000#32),
    TRef.binary (TRef.of (T := ⟨S8x19x512x1024, .f32⟩) main_call2_v6) (TRef.of (T := ⟨S_, .f32⟩) main_call2_cst_1) (TRef.of (T := ⟨S8x512x1024, .f32⟩) main_call2_v7) (fun x v => Host.reduceAdd x v reducesTo_S8x19x512x1024_S8x512x1024_d1 h_S_),
    TRef.unary (TRef.of (T := ⟨S8x512x1024, .f32⟩) main_call2_v7) (TRef.of (T := ⟨S8x1x512x1024, .f32⟩) main_call2_v8) (broadcastInDim S8x1x512x1024 ![0, 2, 3] bcast_S8x512x1024_S8x1x512x1024_0_2_3),
    TRef.unary (TRef.of (T := ⟨S8x1x512x1024, .f32⟩) main_call2_v8) (TRef.of (T := ⟨S8x1x512x1024, .f32⟩) main_call2_v9) Host.log,
    TRef.unary (TRef.of (T := ⟨S8x1x512x1024, .f32⟩) main_call2_v9) (TRef.of (T := ⟨S8x19x512x1024, .f32⟩) main_call2_v10) (broadcastInDim S8x19x512x1024 ![0, 1, 2, 3] bcast_S8x1x512x1024_S8x19x512x1024_0_1_2_3),
    TRef.binary (TRef.of (T := ⟨S8x19x512x1024, .f32⟩) main_call2_v5) (TRef.of (T := ⟨S8x19x512x1024, .f32⟩) main_call2_v10) (TRef.of (T := ⟨S8x19x512x1024, .f32⟩) main_v30) subf ]

/-- The third stretch: the clipped labels and the log-probability taken at them. -/
abbrev c3 : List (HloOp τ sig (Elt F)) :=
  [ nullary main_c_10 (constantI S_ 32 0#32),
    nullary main_c_11 (constantI S_ 32 18#32),
    TRef.unary (TRef.of (T := ⟨S_, .i32⟩) main_c_10) (TRef.of (T := ⟨S_, .i32⟩) main_call3_v0) id,
    TRef.unary (TRef.of (T := ⟨S_, .i32⟩) main_call3_v0) (TRef.of (T := ⟨S8x512x1024, .i32⟩) main_call3_v1) (broadcastInDim S8x512x1024 ![] bcast_S_S8x512x1024),
    TRef.binary (TRef.of (T := ⟨S8x512x1024, .i32⟩) main_call3_v1) (TRef.of (T := ⟨S8x512x1024, .i32⟩) main_arg1) (TRef.of (T := ⟨S8x512x1024, .i32⟩) main_call3_v2) maxsi,
    TRef.unary (TRef.of (T := ⟨S_, .i32⟩) main_c_11) (TRef.of (T := ⟨S_, .i32⟩) main_call3_v3) id,
    TRef.unary (TRef.of (T := ⟨S_, .i32⟩) main_call3_v3) (TRef.of (T := ⟨S8x512x1024, .i32⟩) main_call3_v4) (broadcastInDim S8x512x1024 ![] bcast_S_S8x512x1024),
    TRef.binary (TRef.of (T := ⟨S8x512x1024, .i32⟩) main_call3_v4) (TRef.of (T := ⟨S8x512x1024, .i32⟩) main_call3_v2) (TRef.of (T := ⟨S8x512x1024, .i32⟩) main_v31) minsi,
    unary main_v31 main_v32 (broadcastInDim S8x1x512x1024 ![0, 2, 3] bcast_S8x512x1024_S8x1x512x1024_0_2_3 : (⟨S8x512x1024, .i32⟩ : BufTy).Contents (Elt F) → (⟨S8x1x512x1024, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S8x1x512x1024, .i32⟩) main_call4_v0) (broadcastInDim S8x1x512x1024 ![] bcast_S_S8x1x512x1024),
    TRef.binary (TRef.of (T := ⟨S8x1x512x1024, .i32⟩) main_v32) (TRef.of (T := ⟨S8x1x512x1024, .i32⟩) main_call4_v0) (TRef.of (T := ⟨S8x1x512x1024, .i1⟩) main_call4_v1) (cmpi .slt),
    TRef.nullary (TRef.of (T := ⟨S_, .i32⟩) main_call4_c_0) (constantI S_ 32 19#32),
    TRef.unary (TRef.of (T := ⟨S_, .i32⟩) main_call4_c_0) (TRef.of (T := ⟨S8x1x512x1024, .i32⟩) main_call4_v2) (broadcastInDim S8x1x512x1024 ![] bcast_S_S8x1x512x1024),
    TRef.binary (TRef.of (T := ⟨S8x1x512x1024, .i32⟩) main_v32) (TRef.of (T := ⟨S8x1x512x1024, .i32⟩) main_call4_v2) (TRef.of (T := ⟨S8x1x512x1024, .i32⟩) main_call4_v3) addi,
    TRef.ternary (TRef.of (T := ⟨S8x1x512x1024, .i1⟩) main_call4_v1) (TRef.of (T := ⟨S8x1x512x1024, .i32⟩) main_call4_v3) (TRef.of (T := ⟨S8x1x512x1024, .i32⟩) main_v32) (TRef.of (T := ⟨S8x1x512x1024, .i32⟩) main_call4_v4) select,
    TRef.reshape (TRef.of (T := ⟨S8x1x512x1024, .i32⟩) main_call4_v4) (TRef.of (T := ⟨S8x1x512x1024x1, .i32⟩) main_call4_v5) rfl shapeCasts_S8x1x512x1024_S8x1x512x1024x1,
    TRef.nullary (TRef.of (T := ⟨S1, .i32⟩) main_call4_c_1) (constantI S1 32 18#32),
    TRef.nullary (TRef.of (T := ⟨S_, .i32⟩) main_call4_c_2) (constantI S_ 32 0#32),
    TRef.unary (TRef.of (T := ⟨S_, .i32⟩) main_call4_c_2) (TRef.of (T := ⟨S8x1x512x1024x1, .i32⟩) main_call4_v6) (broadcastInDim S8x1x512x1024x1 ![] bcast_S_S8x1x512x1024x1),
    TRef.binary (TRef.of (T := ⟨S8x1x512x1024x1, .i32⟩) main_call4_v5) (TRef.of (T := ⟨S8x1x512x1024x1, .i32⟩) main_call4_v6) (TRef.of (T := ⟨S8x1x512x1024x1, .i1⟩) main_call4_v7) (cmpi .sge),
    TRef.unary (TRef.of (T := ⟨S1, .i32⟩) main_call4_c_1) (TRef.of (T := ⟨S1x1x1x1x1, .i32⟩) main_call4_v8) (broadcastInDim S1x1x1x1x1 ![4] bcast_S1_S1x1x1x1x1_4),
    TRef.unary (TRef.of (T := ⟨S1x1x1x1x1, .i32⟩) main_call4_v8) (TRef.of (T := ⟨S8x1x512x1024x1, .i32⟩) main_call4_v9) (broadcastInDim S8x1x512x1024x1 ![0, 1, 2, 3, 4] bcast_S1x1x1x1x1_S8x1x512x1024x1_0_1_2_3_4),
    TRef.binary (TRef.of (T := ⟨S8x1x512x1024x1, .i32⟩) main_call4_v5) (TRef.of (T := ⟨S8x1x512x1024x1, .i32⟩) main_call4_v9) (TRef.of (T := ⟨S8x1x512x1024x1, .i1⟩) main_call4_v10) (cmpi .sle),
    TRef.binary (TRef.of (T := ⟨S8x1x512x1024x1, .i1⟩) main_call4_v7) (TRef.of (T := ⟨S8x1x512x1024x1, .i1⟩) main_call4_v10) (TRef.of (T := ⟨S8x1x512x1024x1, .i1⟩) main_call4_v11) andi,
    TRef.nullary (TRef.of (T := ⟨S_, .i1⟩) main_call4_c_3) (constantI S_ 1 1#1),
    TRef.binary (TRef.of (T := ⟨S8x1x512x1024x1, .i1⟩) main_call4_v11) (TRef.of (T := ⟨S_, .i1⟩) main_call4_c_3) (TRef.of (T := ⟨S8x1x512x1024, .i1⟩) main_call4_v12) (fun x v => Host.reduce IntOp.andi x v reducesTo_S8x1x512x1024x1_S8x1x512x1024_d4 h_S_),
    TRef.binary (TRef.of (T := ⟨S8x19x512x1024, .f32⟩) main_v30) (TRef.of (T := ⟨S8x1x512x1024x1, .i32⟩) main_call4_v5) (TRef.of (T := ⟨S8x1x512x1024, .f32⟩) main_call4_v13) (fun x i => Host.gather gather_S8x19x512x1024_S8x1x512x1024x1_S8x1x512x1024_n_1_023_023_1_4_1111 x i),
    TRef.nullary (TRef.of (T := ⟨S_, .f32⟩) main_call4_cst) (constant S_ .f32 0x7FC00000#32),
    TRef.unary (TRef.of (T := ⟨S_, .f32⟩) main_call4_cst) (TRef.of (T := ⟨S8x1x512x1024, .f32⟩) main_call4_v14) (broadcastInDim S8x1x512x1024 ![] bcast_S_S8x1x512x1024),
    TRef.ternary (TRef.of (T := ⟨S8x1x512x1024, .i1⟩) main_call4_v12) (TRef.of (T := ⟨S8x1x512x1024, .f32⟩) main_call4_v13) (TRef.of (T := ⟨S8x1x512x1024, .f32⟩) main_call4_v14) (TRef.of (T := ⟨S8x1x512x1024, .f32⟩) main_v33) select,
    reshape main_v33 main_v34 rfl shapeCasts_S8x1x512x1024_S8x512x1024 ]

/-- The last stretch: the validity mask, each pixel's weight, the two totals and their quotient. -/
abbrev c4 : List (HloOp τ sig (Elt F)) :=
  [ nullary main_c_12 (constantI S_ 32 4294967295#32),
    unary main_c_12 main_v35 (broadcastInDim S8x512x1024 ![] bcast_S_S8x512x1024 : (⟨S_, .i32⟩ : BufTy).Contents (Elt F) → (⟨S8x512x1024, .i32⟩ : BufTy).Contents (Elt F)),
    binary main_arg1 main_v35 main_v36 (cmpi .ne : (⟨S8x512x1024, .i32⟩ : BufTy).Contents (Elt F) → (⟨S8x512x1024, .i32⟩ : BufTy).Contents (Elt F) → (⟨S8x512x1024, .i1⟩ : BufTy).Contents (Elt F)),
    unary main_v36 main_v37 (uitofp (F := F) .f32 : (⟨S8x512x1024, .i1⟩ : BufTy).Contents (Elt F) → (⟨S8x512x1024, .f32⟩ : BufTy).Contents (Elt F)),
    nullary main_c_13 (constantI S_ 32 0#32),
    unary main_c_13 main_v38 (broadcastInDim S8x512x1024 ![] bcast_S_S8x512x1024 : (⟨S_, .i32⟩ : BufTy).Contents (Elt F) → (⟨S8x512x1024, .i32⟩ : BufTy).Contents (Elt F)),
    binary main_v31 main_v38 main_v39 (cmpi .slt : (⟨S8x512x1024, .i32⟩ : BufTy).Contents (Elt F) → (⟨S8x512x1024, .i32⟩ : BufTy).Contents (Elt F) → (⟨S8x512x1024, .i1⟩ : BufTy).Contents (Elt F)),
    nullary main_c_14 (constantI S_ 32 19#32),
    unary main_c_14 main_v40 (broadcastInDim S8x512x1024 ![] bcast_S_S8x512x1024 : (⟨S_, .i32⟩ : BufTy).Contents (Elt F) → (⟨S8x512x1024, .i32⟩ : BufTy).Contents (Elt F)),
    binary main_v31 main_v40 main_v41 (addi : (⟨S8x512x1024, .i32⟩ : BufTy).Contents (Elt F) → (⟨S8x512x1024, .i32⟩ : BufTy).Contents (Elt F) → (⟨S8x512x1024, .i32⟩ : BufTy).Contents (Elt F)),
    ternary main_v39 main_v41 main_v31 main_v42 (select : (⟨S8x512x1024, .i1⟩ : BufTy).Contents (Elt F) → (⟨S8x512x1024, .i32⟩ : BufTy).Contents (Elt F) → (⟨S8x512x1024, .i32⟩ : BufTy).Contents (Elt F) → (⟨S8x512x1024, .i32⟩ : BufTy).Contents (Elt F)),
    unary main_v42 main_v43 (broadcastInDim S8x512x1024x1 ![0, 1, 2] bcast_S8x512x1024_S8x512x1024x1_0_1_2 : (⟨S8x512x1024, .i32⟩ : BufTy).Contents (Elt F) → (⟨S8x512x1024x1, .i32⟩ : BufTy).Contents (Elt F)),
    binary main_v29 main_v43 main_v44 ((fun x i => Host.gather gather_S19_S8x512x1024x1_S8x512x1024_n_0_n_n_0_3_1 x i) : (⟨S19, .f32⟩ : BufTy).Contents (Elt F) → (⟨S8x512x1024x1, .i32⟩ : BufTy).Contents (Elt F) → (⟨S8x512x1024, .f32⟩ : BufTy).Contents (Elt F)),
    binary main_v44 main_v37 main_v45 (mulf : (⟨S8x512x1024, .f32⟩ : BufTy).Contents (Elt F) → (⟨S8x512x1024, .f32⟩ : BufTy).Contents (Elt F) → (⟨S8x512x1024, .f32⟩ : BufTy).Contents (Elt F)),
    binary main_v45 main_v34 main_v46 (mulf : (⟨S8x512x1024, .f32⟩ : BufTy).Contents (Elt F) → (⟨S8x512x1024, .f32⟩ : BufTy).Contents (Elt F) → (⟨S8x512x1024, .f32⟩ : BufTy).Contents (Elt F)),
    nullary main_cst_15 (constant S_ .f32 0x00000000#32),
    binary main_v46 main_cst_15 main_v47 ((fun x v => Host.reduceAdd x v reducesTo_S8x512x1024_S_d0_1_2 h_S_) : (⟨S8x512x1024, .f32⟩ : BufTy).Contents (Elt F) → (⟨S_, .f32⟩ : BufTy).Contents (Elt F) → (⟨S_, .f32⟩ : BufTy).Contents (Elt F)),
    unary main_v47 main_v48 (Host.negf : (⟨S_, .f32⟩ : BufTy).Contents (Elt F) → (⟨S_, .f32⟩ : BufTy).Contents (Elt F)),
    nullary main_cst_16 (constant S_ .f32 0x00000000#32),
    binary main_v45 main_cst_16 main_v49 ((fun x v => Host.reduceAdd x v reducesTo_S8x512x1024_S_d0_1_2 h_S_) : (⟨S8x512x1024, .f32⟩ : BufTy).Contents (Elt F) → (⟨S_, .f32⟩ : BufTy).Contents (Elt F) → (⟨S_, .f32⟩ : BufTy).Contents (Elt F)),
    binary main_v48 main_v49 main_v50 (Host.divf : (⟨S_, .f32⟩ : BufTy).Contents (Elt F) → (⟨S_, .f32⟩ : BufTy).Contents (Elt F) → (⟨S_, .f32⟩ : BufTy).Contents (Elt F)) ]

/-- Transport along an equation between a type and itself changes nothing. -/
theorem cast_self {α : Sort _} (h : α = α) (a : α) : cast h a = a := Eq.trans (cast_eq h a) rfl

/-- The whole program is the four stretches in order. -/
theorem ops_split : (Value.ops : List (HloOp τ sig (Elt F))) = c1 ++ (c2 ++ (c3 ++ c4)) := rfl

/-! Each stretch, run from any contents `W`: what it leaves in the buffers a later stretch or the result reads, as the
staged value of what it read; and the buffers it does not write, untouched. A typed reference's transport of contents
along its buffer type is the identity, and a value written and read back through the same reference is the value. -/

section Stretches

attribute [local irreducible] Host.reduce Host.reduceAdd Host.exp Host.log Host.powf Host.divf Host.negf Host.gather Host.scatterAdd broadcastInDim shapeCast extractStridedSlice subf mulf maximumf constant constantI iotaInDim cmpi cmpf andi addi muli select uitofp maxsi minsi

set_option maxRecDepth 8192

/-- After the first stretch the class weights are the staged weights of the labels. -/
theorem c1_v29 (W : Valuation τ sig (Elt F)) :
    after c1 W (main_v29 : DevRef τ sig) = val_main_v29 (F := F) (W (main_arg1 : DevRef τ sig)) := by
  after_results_simp
  simp only [cast_cast, cast_self]
  rfl

theorem c1_arg0 (W : Valuation τ sig (Elt F)) : after c1 W (main_arg0 : DevRef τ sig) = W (main_arg0 : DevRef τ sig) := by
  after_results_simp

theorem c1_arg1 (W : Valuation τ sig (Elt F)) : after c1 W (main_arg1 : DevRef τ sig) = W (main_arg1 : DevRef τ sig) := by
  after_results_simp

/-- After the second stretch the log-softmax buffer is the staged log-softmax of the logits. -/
theorem c2_v30 (W : Valuation τ sig (Elt F)) :
    after c2 W (main_v30 : DevRef τ sig) = val_main_v30 (F := F) (W (main_arg0 : DevRef τ sig)) := by
  after_results_simp
  simp only [cast_cast, cast_self]
  rfl

theorem c2_arg0 (W : Valuation τ sig (Elt F)) : after c2 W (main_arg0 : DevRef τ sig) = W (main_arg0 : DevRef τ sig) := by
  after_results_simp

theorem c2_arg1 (W : Valuation τ sig (Elt F)) : after c2 W (main_arg1 : DevRef τ sig) = W (main_arg1 : DevRef τ sig) := by
  after_results_simp

theorem c2_v29 (W : Valuation τ sig (Elt F)) : after c2 W (main_v29 : DevRef τ sig) = W (main_v29 : DevRef τ sig) := by
  after_results_simp

/-- After the third stretch the clipped labels are the staged clipped labels. -/
theorem c3_v31 (W : Valuation τ sig (Elt F)) :
    after c3 W (main_v31 : DevRef τ sig) = val_main_v31 (F := F) (W (main_arg1 : DevRef τ sig)) := by
  after_results_simp
  simp only [cast_cast, cast_self]
  rfl

/-- After the third stretch, run from contents holding the staged log-softmax, the taken log-probabilities are the
    staged ones. -/
theorem c3_v34 (W : Valuation τ sig (Elt F)) (x0 : (⟨S8x19x512x1024, .f32⟩ : BufTy).Contents (Elt F))
    (h30 : W (main_v30 : DevRef τ sig) = val_main_v30 (F := F) x0) :
    after c3 W (main_v34 : DevRef τ sig) = val_main_v34 (F := F) x0 (W (main_arg1 : DevRef τ sig)) := by
  after_results_simp
  simp only [cast_cast, cast_self]
  rw [h30]
  rfl

theorem c3_arg0 (W : Valuation τ sig (Elt F)) : after c3 W (main_arg0 : DevRef τ sig) = W (main_arg0 : DevRef τ sig) := by
  after_results_simp

theorem c3_arg1 (W : Valuation τ sig (Elt F)) : after c3 W (main_arg1 : DevRef τ sig) = W (main_arg1 : DevRef τ sig) := by
  after_results_simp

theorem c3_v29 (W : Valuation τ sig (Elt F)) : after c3 W (main_v29 : DevRef τ sig) = W (main_v29 : DevRef τ sig) := by
  after_results_simp

/-- After the last stretch, run from contents holding the staged class weights, clipped labels and log-probabilities,
    the result buffer is the staged result. -/
theorem c4_v50 (W : Valuation τ sig (Elt F)) (x0 : (⟨S8x19x512x1024, .f32⟩ : BufTy).Contents (Elt F))
    (h29 : W (main_v29 : DevRef τ sig) = val_main_v29 (F := F) (W (main_arg1 : DevRef τ sig)))
    (h31 : W (main_v31 : DevRef τ sig) = val_main_v31 (F := F) (W (main_arg1 : DevRef τ sig)))
    (h34 : W (main_v34 : DevRef τ sig) = val_main_v34 (F := F) x0 (W (main_arg1 : DevRef τ sig))) :
    after c4 W (main_v50 : DevRef τ sig) = val_main_v50 (F := F) x0 (W (main_arg1 : DevRef τ sig)) := by
  after_results_simp
  rw [h29, h31, h34]
  rfl

theorem c4_arg0 (W : Valuation τ sig (Elt F)) : after c4 W (main_arg0 : DevRef τ sig) = W (main_arg0 : DevRef τ sig) := by
  after_results_simp

theorem c4_arg1 (W : Valuation τ sig (Elt F)) : after c4 W (main_arg1 : DevRef τ sig) = W (main_arg1 : DevRef τ sig) := by
  after_results_simp

end Stretches

/-- The first argument is never written. -/
theorem arg0_eq (V : Valuation τ sig (Elt F)) : after Value.ops V (main_arg0 : DevRef τ sig) = V (main_arg0 : DevRef τ sig) := by
  rw [ops_split, after_append, after_append, after_append, c4_arg0, c3_arg0, c2_arg0, c1_arg0]

/-- The second argument is never written. -/
theorem arg1_eq (V : Valuation τ sig (Elt F)) : after Value.ops V (main_arg1 : DevRef τ sig) = V (main_arg1 : DevRef τ sig) := by
  rw [ops_split, after_append, after_append, after_append, c4_arg1, c3_arg1, c2_arg1, c1_arg1]

/-- After the whole program the result buffer holds the staged result of the two arguments' first contents. -/
theorem out_eq (V : Valuation τ sig (Elt F)) :
    after Value.ops V (main_v50 : DevRef τ sig) = val_main_v50 (F := F) (V (main_arg0 : DevRef τ sig)) (V (main_arg1 : DevRef τ sig)) := by
  rw [ops_split, after_append, after_append, after_append]
  have a1 : after c3 (after c2 (after c1 V)) (main_arg1 : DevRef τ sig) = V (main_arg1 : DevRef τ sig) := by rw [c3_arg1, c2_arg1, c1_arg1]
  have a1' : after c2 (after c1 V) (main_arg1 : DevRef τ sig) = V (main_arg1 : DevRef τ sig) := by rw [c2_arg1, c1_arg1]
  have h29 : after c3 (after c2 (after c1 V)) (main_v29 : DevRef τ sig) = val_main_v29 (F := F) (V (main_arg1 : DevRef τ sig)) := by
    rw [c3_v29, c2_v29, c1_v29]
  have h30 : after c2 (after c1 V) (main_v30 : DevRef τ sig) = val_main_v30 (F := F) (V (main_arg0 : DevRef τ sig)) := by
    rw [c2_v30, c1_arg0]
  have h31 : after c3 (after c2 (after c1 V)) (main_v31 : DevRef τ sig) = val_main_v31 (F := F) (V (main_arg1 : DevRef τ sig)) := by
    rw [c3_v31, a1']
  have h34 : after c3 (after c2 (after c1 V)) (main_v34 : DevRef τ sig) = val_main_v34 (F := F) (V (main_arg0 : DevRef τ sig)) (V (main_arg1 : DevRef τ sig)) := by
    rw [c3_v34 _ _ h30, a1']
  rw [← a1] at h29 h31 h34
  rw [c4_v50 _ _ h29 h31 h34, a1]

/-- For any float values, from any memory with zero counters: every weakly fair execution of @main terminates with the
    result buffer at the staged result of the arguments' launch contents, and the arguments unchanged. -/
theorem run_val (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v50)
        = val_main_v50 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v50).trans (out_eq _), (h c main_arg0).trans (arg0_eq _),
      (h c main_arg1).trans (arg1_eq _)⟩)
    (run_seq Value.scopedRefs_eq Value.scopedSems_eq defs main (fun _ => Value.ops) Value.main_eq (fun _ => Value.ops_sub) m ρ)

end Abstract

variable (m : (ℓ : Loc nD τ sig) → Buf (Elt Ideal) ℓ) (ρ : Dev nD → PrngReg)

/-- The reference program's run: its result is the pixel-weighted loss of its arguments, which end unchanged. -/
theorem ref_run : θ_run defs (onTc (τ := τ) (main (F := Ideal))) ⟨m, fun _ => 0, ρ⟩ (fun r => ∀ c : Dev nD,
      r.2.mem ((c.tc : Thread nD τ).loc main_v50)
        = (fun _ => lossR (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1).trans (ref_value _ _), (h c).2⟩) (run_val (F := Ideal) m ρ)

end Cert.ReferenceIdeal.RV

end
-- ==== Proof.Algebra.lean ====
/-
  The two groupings of the loss agree on the label range. On that range a pixel is counted by the clipped label and
  its validity exactly when its label is that class, so the two counts coincide; a count is a natural number, so each
  class weight is a nonnegative real (for a positive count `d`, `β ^ d < 1` since `0 ≤ β < 1`); and a nonnegative
  real factor distributes over any sum of extended reals, which turns the sum over classes of weight times class
  sum into the sum over pixels of the pixel's class weight times its term.
-/
import proofs.«406133_j55645596287217_3_alg».proof.Proof.Spec
import Mathlib.Data.EReal.Inv
import Mathlib.Analysis.SpecialFunctions.Pow.Real

noncomputable section

namespace Cert.CBCE

open Idealize.ShloMosaic Idealize.ShloMosaic.ValueIdx

/-! ### The three literals of the weight -/

/-- The pattern of the unit denotes `1`. -/
theorem ofBits_one : Ideal.ofBits .f32 0x3F800000#32 = 1 := by
  simp [Ideal.ofBits, Ideal.ieee, -EReal.coe_mul]; norm_num

/-- The base of the power denotes a real `β` with `0 ≤ β < 1` (it is `16760439 / 2 ^ 24`). -/
theorem ofBits_beta : ∃ β : ℝ, 0 ≤ β ∧ β < 1 ∧ Ideal.ofBits .f32 0x3F7FBE77#32 = (β : EReal) := by
  simp [Ideal.ofBits, Ideal.ieee, -EReal.coe_mul]; norm_num

/-- The numerator of the weight denotes a positive real (it is `8589935 / 2 ^ 33`). -/
theorem ofBits_k : ∃ k : ℝ, 0 < k ∧ Ideal.ofBits .f32 0x3A83126F#32 = (k : EReal) := by
  simp [Ideal.ofBits, Ideal.ieee, -EReal.coe_mul]

/-! ### The two counts agree on the label range -/

/-- A label below `19`, read signed, clips to its own nonnegative part. -/
theorem clw_toNat (t : BitVec 32) (h1 : t.toInt < 19) : (clw t).toNat = t.toInt.toNat := by
  unfold clw
  have h := WordArith.two_mul_toNat_maxsi_zero_lt t
  rw [Scalar.maxsi] at h
  rw [WordArith.toNat_minsi_of_lt _ _ (by decide) (by omega), WordArith.toNat_maxsi_zero]
  have : (18#32 : BitVec 32).toNat = 18 := by decide
  omega

/-- On the range, "the clipped label is `c`, weighted by validity" is the indicator of "the label is `c`":
    the ignore label has validity `0` and is no class; any other label is its own clipped value and valid. -/
theorem pixel_count (t : BitVec 32) (h0 : -1 ≤ t.toInt) (h1 : t.toInt < 19) (c : Fin 19) :
    (if cl t = c then vd t else 0) = (if t.toInt = (c.val : Int) then (1 : EReal) else 0) := by
  by_cases ht : t = 4294967295#32
  · subst ht
    have hm : (4294967295#32 : BitVec 32).toInt = -1 := by decide
    have hcne : ¬ ((-1 : Int) = (c.val : Int)) := by omega
    rw [hm, if_neg hcne]
    simp [vd]
  · have hne : t.toInt ≠ -1 := by
      intro he
      apply ht
      apply BitVec.eq_of_toInt_eq
      rw [he]; decide
    have hv : vd t = 1 := by unfold vd; rw [if_neg ht]
    have hcl : (cl t = c) ↔ (t.toInt = (c.val : Int)) := by
      rw [Fin.ext_iff]
      show (clw t).toNat = c.val ↔ _
      rw [clw_toNat t h1]
      omega
    rw [hv]
    by_cases hc : t.toInt = (c.val : Int)
    · rw [if_pos hc, if_pos (hcl.mpr hc)]
    · rw [if_neg hc, if_neg (fun h => hc (hcl.mp h))]

/-- On the range the count through the clipped label is the histogram count. -/
theorem Dn_eq_Dr (T : ST.Idx → BitVec 32) (h : InRange T) (c : Fin 19) : Dn T c = Dr T c := by
  unfold Dn Dr rowsD
  refine Finset.sum_congr rfl fun b _ => Finset.sum_congr rfl fun y _ => Finset.sum_congr rfl fun x _ => ?_
  exact pixel_count _ (h b y x).1 (h b y x).2 c

/-! ### A count is a natural number, and its weight a nonnegative real -/

/-- A finite sum of natural numbers (as extended reals) is a natural number. -/
theorem sum_natCast {ι : Type} (s : Finset ι) (f : ι → EReal)
    (hf : ∀ i ∈ s, ∃ n : ℕ, f i = ((n : ℝ) : EReal)) : ∃ n : ℕ, ∑ i ∈ s, f i = ((n : ℝ) : EReal) := by
  classical
  induction s using Finset.induction_on with
  | empty => exact ⟨0, by simp⟩
  | insert a s ha ih =>
    obtain ⟨m, hm⟩ := hf a (Finset.mem_insert_self a s)
    obtain ⟨n, hn⟩ := ih (fun i hi => hf i (Finset.mem_insert_of_mem hi))
    refine ⟨m + n, ?_⟩
    rw [Finset.sum_insert ha, hm, hn, Nat.cast_add, EReal.coe_add]

/-- The histogram count of a class is a natural number. -/
theorem Dr_natCast (T : ST.Idx → BitVec 32) (c : Fin 19) : ∃ n : ℕ, Dr T c = ((n : ℝ) : EReal) := by
  unfold Dr
  refine sum_natCast _ _ fun b _ => sum_natCast _ _ fun y _ => sum_natCast _ _ fun x _ => ?_
  by_cases hc : (T (ix3 b y x)).toInt = (c.val : Int)
  · exact ⟨1, by rw [if_pos hc]; simp⟩
  · exact ⟨0, by rw [if_neg hc]; simp⟩

/-- The weight of a natural count is a nonnegative real: `0` at count `0`; at a positive count `n`,
    `β ^ n < 1`, so `1 - β ^ n` is a positive real and the weight is the real quotient `k / (1 - β ^ n)`. -/
theorem wgt_natCast (n : ℕ) : ∃ r : ℝ, 0 ≤ r ∧ wgt ((n : ℝ) : EReal) = (r : EReal) := by
  obtain ⟨β, hβ0, hβ1, hβ⟩ := ofBits_beta
  obtain ⟨k, hk0, hk⟩ := ofBits_k
  unfold wgt
  rw [Ideal.ofBits_zero_f32, ofBits_one, hβ, hk]
  rcases Nat.eq_zero_or_pos n with hn | hn
  · subst hn
    refine ⟨0, le_refl _, ?_⟩
    have hc : Ideal.cmp .ogt (((0 : ℕ) : ℝ) : EReal) 0 = 0#1 := by simp [Ideal.cmp]
    rw [hc]
    simp [Scalar.select]
  · have hpos : (0 : EReal) < ((n : ℝ) : EReal) := EReal.coe_pos.2 (Nat.cast_pos.2 hn)
    have hc : Ideal.cmp .ogt ((n : ℝ) : EReal) 0 = 1#1 := by
      show BitVec.ofBool (decide ((0 : EReal) < ((n : ℝ) : EReal))) = 1#1
      rw [decide_eq_true hpos]; rfl
    rw [hc]
    have hsel : ∀ a b : EReal, Scalar.select (1#1) a b = a := fun a b => by simp [Scalar.select]
    rw [hsel]
    have hp : Ideal.pow (β : EReal) ((n : ℝ) : EReal) = ((β ^ n : ℝ) : EReal) := by
      rw [Ideal.pow_coe_coe, Real.rpow_eq_pow, Real.rpow_natCast]
    rw [hp]
    have hlt : β ^ n < 1 := pow_lt_one₀ hβ0 hβ1 (Nat.pos_iff_ne_zero.mp hn)
    have hd0 : 0 < 1 - β ^ n := by linarith
    have hd : (1 - β ^ n : ℝ) ≠ 0 := ne_of_gt hd0
    have hs : (1 : EReal) - ((β ^ n : ℝ) : EReal) = ((1 - β ^ n : ℝ) : EReal) := by
      rw [EReal.coe_sub, EReal.coe_one]
    rw [hs, Ideal.div_coe hd, ← EReal.coe_mul]
    exact ⟨k * (1 / (1 - β ^ n)), mul_nonneg hk0.le (one_div_nonneg.mpr hd0.le), rfl⟩

/-! ### A nonnegative real factor distributes over sums -/

/-- A nonnegative real factor distributes over a finite sum of extended reals. -/
theorem coe_mul_sum {ι : Type} (r : ℝ) (hr : 0 ≤ r) (s : Finset ι) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.2 hr) (EReal.coe_ne_top r), ih]

/-- Nonnegative real class factors pass inside a sum, and the sum over classes then moves innermost. -/
theorem sum_mul_sum_comm {ι : Type} (r : Fin 19 → ℝ) (hr : ∀ c, 0 ≤ r c) (s : Finset ι) (F : Fin 19 → ι → EReal) :
    ∑ c, (r c : EReal) * ∑ i ∈ s, F c i = ∑ i ∈ s, ∑ c, (r c : EReal) * F c i := by
  rw [Finset.sum_comm]
  exact Finset.sum_congr rfl fun c _ => coe_mul_sum (r c) (hr c) s (F c)

/-- The sum over classes of a class factor times the class's pixel sum is the sum over pixels of the pixel's
    own class factor times its term: at a pixel only its own class contributes. -/
theorem class_sum_swap {B R N : ℕ} (r : Fin 19 → ℝ) (hr : ∀ c, 0 ≤ r c)
    (κ : Fin B → Fin R → Fin N → Fin 19) (a : Fin B → Fin R → Fin N → EReal) :
    ∑ c, (r c : EReal) * ∑ b, ∑ y, ∑ x, (if κ b y x = c then a b y x else 0)
      = ∑ b, ∑ y, ∑ x, (r (κ b y x) : EReal) * a b y x := by
  rw [sum_mul_sum_comm r hr]
  refine Finset.sum_congr rfl fun b _ => ?_
  rw [sum_mul_sum_comm r hr]
  refine Finset.sum_congr rfl fun y _ => ?_
  rw [sum_mul_sum_comm r hr]
  refine Finset.sum_congr rfl fun x _ => ?_
  rw [Finset.sum_eq_single (κ b y x)]
  · rw [if_pos rfl]
  · intro c _ hc
    rw [if_neg (Ne.symm hc), mul_zero]
  · intro hm; exact absurd (Finset.mem_univ _) hm

/-! ### The two groupings -/

/-- On the label range the class-grouped loss is the pixel-weighted loss. -/
theorem loss_eq (X : SX.Idx → EReal) (T : ST.Idx → BitVec 32) (h : InRange T) : lossK X T = lossR X T := by
  have hD : ∀ c, Dn T c = Dr T c := Dn_eq_Dr T h
  have hw : ∀ c, ∃ r : ℝ, 0 ≤ r ∧ wgt (Dr T c) = (r : EReal) := fun c => by
    obtain ⟨n, hn⟩ := Dr_natCast T c
    rw [hn]; exact wgt_natCast n
  choose r hr0 hr using hw
  have hr' : ∀ c, wgt (Dn T c) = (r c : EReal) := fun c => by rw [hD, hr]
  have hN : ∑ c, wgt (Dn T c) * Nn X T c
      = ∑ b : Fin 8, ∑ y : Fin 512, ∑ x : Fin 1024,
          (wgt (Dr T (cl (T (ix3 b y x)))) * vd (T (ix3 b y x))) * lp X T b y x := by
    simp only [hr', hr]
    unfold Nn rowsN
    rw [class_sum_swap r hr0 (fun b y x => cl (T (ix3 b y x))) (fun b y x => lp X T b y x * vd (T (ix3 b y x)))]
    refine Finset.sum_congr rfl fun b _ => Finset.sum_congr rfl fun y _ => Finset.sum_congr rfl fun x _ => ?_
    show (r (cl (T (ix3 b y x))) : EReal) * (lp X T b y x * vd (T (ix3 b y x))) = _
    rw [mul_comm (lp X T b y x), mul_assoc]
  have hDen : ∑ c, wgt (Dn T c) * Dn T c
      = ∑ b : Fin 8, ∑ y : Fin 512, ∑ x : Fin 1024, wgt (Dr T (cl (T (ix3 b y x)))) * vd (T (ix3 b y x)) := by
    simp only [hr', hr]
    unfold Dn rowsD
    rw [class_sum_swap r hr0 (fun b y x => cl (T (ix3 b y x))) (fun b y x => vd (T (ix3 b y x)))]
  unfold lossK lossR
  rw [hN, hDen]

end Cert.CBCE

end
-- ==== Proof.PreRange.lean ====
/-
  The precondition read: it is the conjunction of three facts over whole arrays (every logit finite; every label at
  least `-1`; every label below `19`, both read signed), each a reduction by `and` of an elementwise comparison. Its
  second and third conjuncts give the label range.
-/
import proofs.«406133_j55645596287217_3_alg».proof.Proof.Spec
import proofs.«406133_j55645596287217_3_alg».proof.Proof.Gen.Pre_finite_inputs
import Idealize.ShloMosaic.Lib.ReduceAll
import Idealize.ShloMosaic.Lib.StableHlo.Predicate
import Idealize.ShloMosaic.Lib.ValueIdx

noncomputable section

namespace Cert.CBCE

open Idealize.ShloMosaic Idealize.ShloMosaic.ValueIdx

/-- A rank-0 array has exactly one index. -/
instance subsingleton_scalarIdx : Subsingleton Cert.Pre_finite_inputs.S_.Idx :=
  ⟨fun a b => funext fun d => d.elim0⟩

/-- The word `-1` read signed. -/
theorem toInt_negOne : (4294967295#32 : BitVec 32).toInt = -1 := by decide

/-- The word `19` read signed. -/
theorem toInt_nineteen : (19#32 : BitVec 32).toInt = 19 := by decide

/-- A signed "at least" comparison that holds is the order of the signed readings. -/
theorem le_toInt_of_cmpi_sge {a b : BitVec 32} (h : IntOp.cmpi .sge a b = 1#1) : b.toInt ≤ a.toInt := by
  have h' : BitVec.ofBool (b.sle a) = 1#1 := h
  cases hs : b.sle a with
  | false => rw [hs] at h'; exact absurd h' (by decide)
  | true => exact BitVec.sle_iff_toInt_le.1 hs

/-- A signed "below" comparison that holds is the strict order of the signed readings. -/
theorem toInt_lt_of_cmpi_slt {a b : BitVec 32} (h : IntOp.cmpi .slt a b = 1#1) : a.toInt < b.toInt := by
  have h' : BitVec.ofBool (a.slt b) = 1#1 := h
  cases hs : a.slt b with
  | false => rw [hs] at h'; exact absurd h' (by decide)
  | true => exact BitVec.slt_iff_toInt_lt.1 hs

/-- The precondition's label conjuncts are the label range. -/
theorem inRange_of_pre (X : SX.Idx → EReal) (T : ST.Idx → BitVec 32)
    (h : Cert.Pre_finite_inputs.fn (F := Ideal) X T = fun _ => 1#1) : InRange T := by
  -- the one element of the rank-0 result
  have h0 := congrFun h ValueIdx.ix0
  dsimp only [Cert.Pre_finite_inputs.fn, andi] at h0
  -- the outer and inner conjunctions split
  obtain ⟨h12, h3⟩ := IntOp.andi_eq_one.1 h0
  obtain ⟨_, h2⟩ := IntOp.andi_eq_one.1 h12
  intro b y x
  -- a reduction by `and` over all axes that is 1 had a 1 at every label
  have hge := Host.reduce_andi_all _ _ _ _ _ h2 (ix3 b y x)
  have hlt := Host.reduce_andi_all _ _ _ _ _ h3 (ix3 b y x)
  dsimp only [cmpi] at hge hlt
  rw [StableHlo.Predicate.bcast_scalar _ Cert.Pre_finite_inputs.Facts.h_S_] at hge hlt
  dsimp only [constantI] at hge hlt
  have hge' := le_toInt_of_cmpi_sge hge
  have hlt' := toInt_lt_of_cmpi_slt hlt
  rw [toInt_negOne] at hge'
  rw [toInt_nineteen] at hlt'
  exact ⟨hge', hlt'⟩

end Cert.CBCE

end
-- ==== Proof.lean ====
/-
  A class-balanced weighted cross-entropy over logits [8, 19, 512, 1024] and labels [8, 512, 1024].

  The kernel streams 64-row blocks, takes at each pixel the log-softmax value of the clipped label's class, and
  accumulates per batch entry and class the sum of the valid log-probabilities and the count of valid pixels; the
  host lines after it sum over the batch, form each class's weight `k / (1 - β ^ count)` (zero for an empty class) and
  return `-(Σ_c w_c · N_c) / (Σ_c w_c · D_c)`. The reference builds a histogram of the labels, forms the same weights
  from it, weights every pixel by its class's weight and its validity, and returns `-(Σ_p w_p · logp_p) / (Σ_p w_p)`.

  On the label range (every label the ignore label `-1` or a class `0 … 18`) the kernel's count of a class — pixels
  whose CLIPPED label is the class and that are not ignored — is the histogram's count, the weights are nonnegative
  reals, and a nonnegative real factor distributes over a sum of extended reals: the two quotients have equal
  numerators and equal denominators. Off that range the two programs differ (a label 19 is counted for class 18 by
  the kernel and dropped by the histogram), which is why the precondition states the range.

  The frames of the two kernel programs are the generated ones; the reference's frame is its run with the result
  dropped; no operation was rewritten by the idealization, so that conjunct is `True`.
-/
import proofs.«406133_j55645596287217_3_alg».proof.Defs
import proofs.«406133_j55645596287217_3_alg».proof.Proof.Gen.Kernel
import proofs.«406133_j55645596287217_3_alg».proof.Proof.Gen.Kernel.Skeleton
import proofs.«406133_j55645596287217_3_alg».proof.Proof.Gen.Kernel.Launch
import proofs.«406133_j55645596287217_3_alg».proof.Proof.Gen.Kernel.Points
import proofs.«406133_j55645596287217_3_alg».proof.Proof.Gen.Kernel.Frame
import proofs.«406133_j55645596287217_3_alg».proof.Proof.Gen.KernelIdeal
import proofs.«406133_j55645596287217_3_alg».proof.Proof.Gen.KernelIdeal.Skeleton
import proofs.«406133_j55645596287217_3_alg».proof.Proof.Gen.KernelIdeal.Launch
import proofs.«406133_j55645596287217_3_alg».proof.Proof.Gen.KernelIdeal.Points
import proofs.«406133_j55645596287217_3_alg».proof.Proof.Gen.KernelIdeal.Frame
import proofs.«406133_j55645596287217_3_alg».proof.Proof.Gen.ReferenceIdeal
import proofs.«406133_j55645596287217_3_alg».proof.Proof.Gen.Pre_finite_inputs
import proofs.«406133_j55645596287217_3_alg».proof.Proof.KTail
import proofs.«406133_j55645596287217_3_alg».proof.Proof.RefRun
import proofs.«406133_j55645596287217_3_alg».proof.Proof.Algebra
import proofs.«406133_j55645596287217_3_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RV.ref_run m ρ)

/-- Both programs end with the loss of their arguments: the kernel's grouped by class, the reference's weighted by
    pixel; from agreeing arguments on the label range these are one number. -/
theorem algebraic : Cert.algebraic_KernelIdeal_ReferenceIdeal := by
  intro m ρ m' ρ' hpre hagree
  refine ⟨fun c => (fun _ => Cert.CBCE.lossK (Cert.KernelIdeal.KV.Xof m c) (Cert.KernelIdeal.KV.Tof m c)),
    Cert.KernelIdeal.KV.kernel_run m ρ, ?_⟩
  refine (θ_run Cert.ReferenceIdeal.defs _ _).mono (fun _ h c => ⟨(h c).1.trans ?_, (h c).2⟩)
    (Cert.ReferenceIdeal.RV.ref_run m' ρ')
  rw [(hagree c).1, (hagree c).2]
  funext _
  exact (Cert.CBCE.loss_eq _ _ (Cert.CBCE.inRange_of_pre _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
